-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x900x91 : Shape := ⟨3, ![16, 900, 91]⟩
abbrev S16x900x4 : Shape := ⟨3, ![16, 900, 4]⟩
abbrev S1600 : Shape := ⟨1, ![1600]⟩
abbrev S1600x4 : Shape := ⟨2, ![1600, 4]⟩
abbrev S_ : Shape := ⟨0, ![]⟩

class Facts : Prop where
  bcast_S_S16x900x91 : S_.BroadcastsInDim S16x900x91 (![] : Fin 0 → Fin S16x900x91.rank)
  reducesTo_S16x900x91_S_d0_1_2 : S16x900x91.ReducesTo [0, 1, 2] S_
  h_S_ : 0 < S_.numel
  bcast_S_S16x900x4 : S_.BroadcastsInDim S16x900x4 (![] : Fin 0 → Fin S16x900x4.rank)
  reducesTo_S16x900x4_S_d0_1_2 : S16x900x4.ReducesTo [0, 1, 2] S_
  bcast_S_S1600x4 : S_.BroadcastsInDim S1600x4 (![] : Fin 0 → Fin S1600x4.rank)
  reducesTo_S1600x4_S_d0_1 : S1600x4.ReducesTo [0, 1] S_
  bcast_S_S1600 : S_.BroadcastsInDim S1600 (![] : Fin 0 → Fin S1600.rank)
  reducesTo_S1600_S_d0 : S1600.ReducesTo [0] S_

variable [Facts]

def fn_part1 {F : FTy → Type} [FloatOps F] (main_arg2 : IVec S1600 32) (main_v13 : IVec S_ 1) (main_v15 : IVec S1600 1) (main_c_5 : IVec S_ 1) : IVec S_ 1 :=
  let main_v16 : IVec S_ 1 := (fun x v => Host.reduce IntOp.andi x v reducesTo_S1600_S_d0 h_S_) main_v15 main_c_5
  let main_v17 : IVec S_ 1 := andi main_v13 main_v16
  let main_c_6 : IVec S_ 32 := constantI S_ 32 91#32
  let main_v18 : IVec S1600 32 := broadcastInDim S1600 ![] bcast_S_S1600 main_c_6
  let main_v19 : IVec S1600 1 := cmpi .slt main_arg2 main_v18
  let main_c_7 : IVec S_ 1 := constantI S_ 1 1#1
  let main_v20 : IVec S_ 1 := (fun x v => Host.reduce IntOp.andi x v reducesTo_S1600_S_d0 h_S_) main_v19 main_c_7
  let main_v21 : IVec S_ 1 := andi main_v17 main_v20
  main_v21

def fn {F : FTy → Type} [FloatOps F] (main_arg0 : FVec F S16x900x91 .f32) (main_arg1 : FVec F S16x900x4 .f32) (main_arg2 : IVec S1600 32) (main_arg3 : FVec F S1600x4 .f32) : IVec S_ 1 :=
  let main_v0 : FVec F S16x900x91 .f32 := Host.absf main_arg0
  let main_cst : FVec F S_ .f32 := constant S_ .f32 0x7F800000#32
  let main_v1 : FVec F S16x900x91 .f32 := broadcastInDim S16x900x91 ![] bcast_S_S16x900x91 main_cst
  let main_v2 : IVec S16x900x91 1 := cmpf .olt main_v0 main_v1
  let main_c : IVec S_ 1 := constantI S_ 1 1#1
  let main_v3 : IVec S_ 1 := (fun x v => Host.reduce IntOp.andi x v reducesTo_S16x900x91_S_d0_1_2 h_S_) main_v2 main_c
  let main_v4 : FVec F S16x900x4 .f32 := Host.absf main_arg1
  let main_cst_0 : FVec F S_ .f32 := constant S_ .f32 0x7F800000#32
  let main_v5 : FVec F S16x900x4 .f32 := broadcastInDim S16x900x4 ![] bcast_S_S16x900x4 main_cst_0
  let main_v6 : IVec S16x900x4 1 := cmpf .olt main_v4 main_v5
  let main_c_1 : IVec S_ 1 := constantI S_ 1 1#1
  let main_v7 : IVec S_ 1 := (fun x v => Host.reduce IntOp.andi x v reducesTo_S16x900x4_S_d0_1_2 h_S_) main_v6 main_c_1
  let main_v8 : IVec S_ 1 := andi main_v3 main_v7
  let main_v9 : FVec F S1600x4 .f32 := Host.absf main_arg3
  let main_cst_2 : FVec F S_ .f32 := constant S_ .f32 0x7F800000#32
  let main_v10 : FVec F S1600x4 .f32 := broadcastInDim S1600x4 ![] bcast_S_S1600x4 main_cst_2
  let main_v11 : IVec S1600x4 1 := cmpf .olt main_v9 main_v10
  let main_c_3 : IVec S_ 1 := constantI S_ 1 1#1
  let main_v12 : IVec S_ 1 := (fun x v => Host.reduce IntOp.andi x v reducesTo_S1600x4_S_d0_1 h_S_) main_v11 main_c_3
  let main_v13 : IVec S_ 1 := andi main_v8 main_v12
  let main_c_4 : IVec S_ 32 := constantI S_ 32 0#32
  let main_v14 : IVec S1600 32 := broadcastInDim S1600 ![] bcast_S_S1600 main_c_4
  let main_v15 : IVec S1600 1 := cmpi .sge main_arg2 main_v14
  let main_c_5 : IVec S_ 1 := constantI S_ 1 1#1
  fn_part1 (F := F) main_arg2 main_v13 main_v15 main_c_5
-- ==== Kernel.lean ====
abbrev S16x900x91 : Shape := ⟨3, ![16, 900, 91]⟩
abbrev S16x900x4 : Shape := ⟨3, ![16, 900, 4]⟩
abbrev S1600 : Shape := ⟨1, ![1600]⟩
abbrev S1600x4 : Shape := ⟨2, ![1600, 4]⟩
abbrev S14400x91 : Shape := ⟨2, ![14400, 91]⟩
abbrev S14400x4 : Shape := ⟨2, ![14400, 4]⟩
abbrev S4x1600 : Shape := ⟨2, ![4, 1600]⟩
abbrev S91 : Shape := ⟨1, ![91]⟩
abbrev S91x1 : Shape := ⟨2, ![91, 1]⟩
abbrev S1x1600 : Shape := ⟨2, ![1, 1600]⟩
abbrev S91x1600 : Shape := ⟨2, ![91, 1600]⟩
abbrev S14400x1600 : Shape := ⟨2, ![14400, 1600]⟩
abbrev S320x91 : Shape := ⟨2, ![320, 91]⟩
abbrev S320x4 : Shape := ⟨2, ![320, 4]⟩
abbrev S320x1600 : Shape := ⟨2, ![320, 1600]⟩
abbrev S320 : Shape := ⟨1, ![320]⟩
abbrev S320x1 : Shape := ⟨2, ![320, 1]⟩
abbrev S16x900x1600 : Shape := ⟨3, ![16, 900, 1600]⟩

abbrev nBuf : Space → Nat
  | .hbm => 16
  | .vmem => 8
  | .smem => 0
  | _ => 0

abbrev bufTy : (tb : Table) → Fin (tcTables nBuf tb) → BufTy
  | .hbm, ⟨0, _⟩ => ⟨S16x900x91, .f32⟩
  | .hbm, ⟨1, _⟩ => ⟨S16x900x4, .f32⟩
  | .hbm, ⟨2, _⟩ => ⟨S1600, .i32⟩
  | .hbm, ⟨3, _⟩ => ⟨S1600x4, .f32⟩
  | .hbm, ⟨4, _⟩ => ⟨S14400x91, .f32⟩
  | .hbm, ⟨5, _⟩ => ⟨S14400x4, .f32⟩
  | .hbm, ⟨6, _⟩ => ⟨S4x1600, .f32⟩
  | .hbm, ⟨7, _⟩ => ⟨S91, .i32⟩
  | .hbm, ⟨8, _⟩ => ⟨S91x1, .i32⟩
  | .hbm, ⟨9, _⟩ => ⟨S1x1600, .i32⟩
  | .hbm, ⟨10, _⟩ => ⟨S91x1600, .i32⟩
  | .hbm, ⟨11, _⟩ => ⟨S91x1600, .i32⟩
  | .hbm, ⟨12, _⟩ => ⟨S91x1600, .i1⟩
  | .hbm, ⟨13, _⟩ => ⟨S91x1600, .bf16⟩
  | .hbm, ⟨14, _⟩ => ⟨S14400x1600, .f32⟩
  | .hbm, ⟨15, _⟩ => ⟨S16x900x1600, .f32⟩
  | .local _ .vmem, ⟨0, _⟩ => ⟨S320x91, .f32⟩
  | .local _ .vmem, ⟨1, _⟩ => ⟨S320x91, .f32⟩
  | .local _ .vmem, ⟨2, _⟩ => ⟨S320x4, .f32⟩
  | .local _ .vmem, ⟨3, _⟩ => ⟨S320x4, .f32⟩
  | .local _ .vmem, ⟨4, _⟩ => ⟨S4x1600, .f32⟩
  | .local _ .vmem, ⟨5, _⟩ => ⟨S91x1600, .bf16⟩
  | .local _ .vmem, ⟨6, _⟩ => ⟨S320x1600, .f32⟩
  | .local _ .vmem, ⟨7, _⟩ => ⟨S320x1600, .f32⟩
  | _, _ => ⟨S16x900x91, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![45], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S320x91 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1600 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S91x1600 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S320x1600 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16x900x91_S14400x91 : S16x900x91.ShapeCasts S14400x91
  shapeCasts_S16x900x4_S14400x4 : S16x900x4.ShapeCasts S14400x4
  transposes_S1600x4_S4x1600_1_0 : S1600x4.Transposes [1, 0] S4x1600
  bcast_S91_S91x1_0 : S91.BroadcastsInDim S91x1 (![0] : Fin 1 → Fin S91x1.rank)
  bcast_S1600_S1x1600_1 : S1600.BroadcastsInDim S1x1600 (![1] : Fin 1 → Fin S1x1600.rank)
  bcast_S91x1_S91x1600_0_1 : S91x1.BroadcastsInDim S91x1600 (![0, 1] : Fin 2 → Fin S91x1600.rank)
  bcast_S1x1600_S91x1600_0_1 : S1x1600.BroadcastsInDim S91x1600 (![0, 1] : Fin 2 → Fin S91x1600.rank)
  inb_S320x91_S320x91_0_0 : ∀ a, (![0, 0] : Fin 2 → Nat) a + S320x91.size a ≤ S320x91.size a
  h_S320x91 : 0 < S320x91.numel
  shapeCasts_S320x91_S320x91 : S320x91.ShapeCasts S320x91
  reduces_S320x91_S320 : S320x91.Reduces [1] S320
  shapeCasts_S320_S320x1 : S320.ShapeCasts S320x1
  broadcasts_S320x1_S320x91 : S320x1.Broadcasts S320x91
  bitsLt_bf16_f32 : FTy.bits .bf16 < FTy.bits .f32
  inb_S91x1600_S91x1600_0_0 : ∀ a, (![0, 0] : Fin 2 → Nat) a + S91x1600.size a ≤ S91x1600.size a
  h_S91x1600 : 0 < S91x1600.numel
  shapeCasts_S91x1600_S91x1600 : S91x1600.ShapeCasts S91x1600
  inb_S320x4_S320x4_0_0 : ∀ a, (![0, 0] : Fin 2 → Nat) a + S320x4.size a ≤ S320x4.size a
  h_S320x4 : 0 < S320x4.numel
  shapeCasts_S320x4_S320x4 : S320x4.ShapeCasts S320x4
  inb_S4x1600_S4x1600_0_0 : ∀ a, (![0, 0] : Fin 2 → Nat) a + S4x1600.size a ≤ S4x1600.size a
  h_S4x1600 : 0 < S4x1600.numel
  shapeCasts_S4x1600_S4x1600 : S4x1600.ShapeCasts S4x1600
  slices_S320x4_o0_0_S320x1 : S320x4.Slices ![0, 0] S320x1
  slices_S4x1600_o0_0_S1x1600 : S4x1600.Slices ![0, 0] S1x1600
  broadcasts_S320x1_S320x1600 : S320x1.Broadcasts S320x1600
  broadcasts_S1x1600_S320x1600 : S1x1600.Broadcasts S320x1600
  slices_S320x4_o0_1_S320x1 : S320x4.Slices ![0, 1] S320x1
  slices_S4x1600_o1_0_S1x1600 : S4x1600.Slices ![1, 0] S1x1600
  slices_S320x4_o0_2_S320x1 : S320x4.Slices ![0, 2] S320x1
  slices_S4x1600_o2_0_S1x1600 : S4x1600.Slices ![2, 0] S1x1600
  slices_S320x4_o0_3_S320x1 : S320x4.Slices ![0, 3] S320x1
  slices_S4x1600_o3_0_S1x1600 : S4x1600.Slices ![3, 0] S1x1600
  inb_S320x1600_S320x1600_0_0 : ∀ a, (![0, 0] : Fin 2 → Nat) a + S320x1600.size a ≤ S320x1600.size a
  h_S320x1600 : 0 < S320x1600.numel
  shapeCasts_S14400x1600_S16x900x1600 : S14400x1600.ShapeCasts S16x900x1600
  dot_S320x91_S91x1600_S320x1600_1_0_0_1_n_n_wf : DotDims.WF S320x91 S91x1600 S320x1600 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S320x91.size a ≤ S14400x91.size a
  hwx0_0 : ∀ i : grid0.Coords, EltTy.bits .f32 = 32 ∨ (Rect.block (s := S14400x91) S320x91.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S320x4.size a ≤ S14400x4.size a
  hwx0_1 : ∀ i : grid0.Coords, EltTy.bits .f32 = 32 ∨ (Rect.block (s := S14400x4) S320x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x1600.size a ≤ S4x1600.size a
  hwx0_2 : ∀ i : grid0.Coords, EltTy.bits .f32 = 32 ∨ (Rect.block (s := S4x1600) S4x1600.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S91x1600.size a ≤ S91x1600.size a
  hwx0_3 : ∀ i : grid0.Coords, EltTy.bits .bf16 = 32 ∨ (Rect.block (s := S91x1600) S91x1600.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S320x1600.size a ≤ S14400x1600.size a
  hwx0_4 : ∀ i : grid0.Coords, EltTy.bits .f32 = 32 ∨ (Rect.block (s := S14400x1600) S320x1600.size (cc0_transform_4 i) (hinb0_4 i)).WholeWords (EltTy.packing .f32)

variable [Facts₀]

def dot_S320x91_S91x1600_S320x1600_1_0_0_1_n_n : DotDims S320x91 S91x1600 S320x1600 where
  lhsContracting := [1]
  rhsContracting := [0]
  lhsNonContracting := [0]
  rhsNonContracting := [1]
  lhsBatch := []
  rhsBatch := []
  wf := dot_S320x91_S91x1600_S320x1600_1_0_0_1_n_n_wf

abbrev win0_0 : Pipeline.Window sig grid0 :=
  Pipeline.Window.ofSpec (Memref.whole main_v0) S320x91.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S320x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4x1600.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S91x1600.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S320x1600.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x900x91 : Shape := ⟨3, ![16, 900, 91]⟩
abbrev S16x900x4 : Shape := ⟨3, ![16, 900, 4]⟩
abbrev S1600 : Shape := ⟨1, ![1600]⟩
abbrev S1600x4 : Shape := ⟨2, ![1600, 4]⟩
abbrev S14400x91 : Shape := ⟨2, ![14400, 91]⟩
abbrev S_ : Shape := ⟨0, ![]⟩
abbrev S14400 : Shape := ⟨1, ![14400]⟩
abbrev S14400x1 : Shape := ⟨2, ![14400, 1]⟩
abbrev S14400x4 : Shape := ⟨2, ![14400, 4]⟩
abbrev S1600x1 : Shape := ⟨2, ![1600, 1]⟩
abbrev S14400x1600 : Shape := ⟨2, ![14400, 1600]⟩
abbrev S14400x1x4 : Shape := ⟨3, ![14400, 1, 4]⟩
abbrev S1x1600x4 : Shape := ⟨3, ![1, 1600, 4]⟩
abbrev S14400x1600x4 : Shape := ⟨3, ![14400, 1600, 4]⟩
abbrev S14400x2 : Shape := ⟨2, ![14400, 2]⟩
abbrev S14400x1x2 : Shape := ⟨3, ![14400, 1, 2]⟩
abbrev S1600x2 : Shape := ⟨2, ![1600, 2]⟩
abbrev S1x1600x2 : Shape := ⟨3, ![1, 1600, 2]⟩
abbrev S14400x1600x2 : Shape := ⟨3, ![14400, 1600, 2]⟩
abbrev S14400x1600x1 : Shape := ⟨3, ![14400, 1600, 1]⟩
abbrev S1x1600 : Shape := ⟨2, ![1, 1600]⟩
abbrev S16x900x1600 : Shape := ⟨3, ![16, 900, 1600]⟩

abbrev nBuf : Space → Nat
  | .hbm => 224
  | .vmem => 0
  | .smem => 0
  | _ => 0

abbrev hbmTy0_0 (i : Nat) : BufTy := match i % 128 with
  | 0 => ⟨S16x900x91, .f32⟩
  | 1 => ⟨S16x900x4, .f32⟩
  | 2 => ⟨S1600, .i32⟩
  | 3 => ⟨S1600x4, .f32⟩
  | 4 => ⟨S14400x91, .f32⟩
  | 5 => ⟨S_, .f32⟩
  | 6 => ⟨S14400, .f32⟩
  | 7 => ⟨S_, .f32⟩
  | 8 => ⟨S14400, .f32⟩
  | 9 => ⟨S14400, .f32⟩
  | 10 => ⟨S14400x1, .f32⟩
  | 11 => ⟨S14400x91, .f32⟩
  | 12 => ⟨S14400x91, .f32⟩
  | 13 => ⟨S14400x91, .f32⟩
  | 14 => ⟨S_, .f32⟩
  | 15 => ⟨S14400, .f32⟩
  | 16 => ⟨S14400x1, .f32⟩
  | 17 => ⟨S14400x91, .f32⟩
  | 18 => ⟨S14400x91, .f32⟩
  | 19 => ⟨S14400x4, .f32⟩
  | 20 => ⟨S_, .i32⟩
  | 21 => ⟨S1600, .i32⟩
  | 22 => ⟨S1600, .i1⟩
  | 23 => ⟨S_, .i32⟩
  | 24 => ⟨S1600, .i32⟩
  | 25 => ⟨S1600, .i32⟩
  | 26 => ⟨S1600, .i32⟩
  | 27 => ⟨S1600x1, .i32⟩
  | 28 => ⟨S14400x1600, .f32⟩
  | 29 => ⟨S14400x1600, .f32⟩
  | 30 => ⟨S14400x1x4, .f32⟩
  | 31 => ⟨S1x1600x4, .f32⟩
  | 32 => ⟨S14400x1600x4, .f32⟩
  | 33 => ⟨S14400x1600x4, .f32⟩
  | 34 => ⟨S14400x1600x4, .f32⟩
  | 35 => ⟨S14400x1600x4, .f32⟩
  | 36 => ⟨S_, .f32⟩
  | 37 => ⟨S14400x1600, .f32⟩
  | 38 => ⟨S_, .f32⟩
  | 39 => ⟨S_, .f32⟩
  | 40 => ⟨S_, .f32⟩
  | 41 => ⟨S14400x4, .f32⟩
  | 42 => ⟨S14400x4, .f32⟩
  | 43 => ⟨S_, .f32⟩
  | 44 => ⟨S14400x4, .f32⟩
  | 45 => ⟨S14400x4, .f32⟩
  | 46 => ⟨S14400x1, .f32⟩
  | 47 => ⟨S14400, .f32⟩
  | 48 => ⟨S14400x1, .f32⟩
  | 49 => ⟨S14400, .f32⟩
  | 50 => ⟨S14400x1, .f32⟩
  | 51 => ⟨S14400, .f32⟩
  | 52 => ⟨S14400x1, .f32⟩
  | 53 => ⟨S14400, .f32⟩
  | 54 => ⟨S_, .f32⟩
  | 55 => ⟨S14400, .f32⟩
  | 56 => ⟨S14400, .f32⟩
  | 57 => ⟨S14400, .f32⟩
  | 58 => ⟨S_, .f32⟩
  | 59 => ⟨S14400, .f32⟩
  | 60 => ⟨S14400, .f32⟩
  | 61 => ⟨S14400, .f32⟩
  | 62 => ⟨S_, .f32⟩
  | 63 => ⟨S14400, .f32⟩
  | 64 => ⟨S14400, .f32⟩
  | 65 => ⟨S14400, .f32⟩
  | 66 => ⟨S_, .f32⟩
  | 67 => ⟨S14400, .f32⟩
  | 68 => ⟨S14400, .f32⟩
  | 69 => ⟨S14400, .f32⟩
  | 70 => ⟨S14400x1, .f32⟩
  | 71 => ⟨S14400x1, .f32⟩
  | 72 => ⟨S14400x1, .f32⟩
  | 73 => ⟨S14400x1, .f32⟩
  | 74 => ⟨S14400x4, .f32⟩
  | 75 => ⟨S_, .f32⟩
  | 76 => ⟨S_, .f32⟩
  | 77 => ⟨S_, .f32⟩
  | 78 => ⟨S1600x4, .f32⟩
  | 79 => ⟨S1600x4, .f32⟩
  | 80 => ⟨S_, .f32⟩
  | 81 => ⟨S1600x4, .f32⟩
  | 82 => ⟨S1600x4, .f32⟩
  | 83 => ⟨S1600x1, .f32⟩
  | 84 => ⟨S1600, .f32⟩
  | 85 => ⟨S1600x1, .f32⟩
  | 86 => ⟨S1600, .f32⟩
  | 87 => ⟨S1600x1, .f32⟩
  | 88 => ⟨S1600, .f32⟩
  | 89 => ⟨S1600x1, .f32⟩
  | 90 => ⟨S1600, .f32⟩
  | 91 => ⟨S_, .f32⟩
  | 92 => ⟨S1600, .f32⟩
  | 93 => ⟨S1600, .f32⟩
  | 94 => ⟨S1600, .f32⟩
  | 95 => ⟨S_, .f32⟩
  | 96 => ⟨S1600, .f32⟩
  | 97 => ⟨S1600, .f32⟩
  | 98 => ⟨S1600, .f32⟩
  | 99 => ⟨S_, .f32⟩
  | 100 => ⟨S1600, .f32⟩
  | 101 => ⟨S1600, .f32⟩
  | 102 => ⟨S1600, .f32⟩
  | 103 => ⟨S_, .f32⟩
  | 104 => ⟨S1600, .f32⟩
  | 105 => ⟨S1600, .f32⟩
  | 106 => ⟨S1600, .f32⟩
  | 107 => ⟨S1600x1, .f32⟩
  | 108 => ⟨S1600x1, .f32⟩
  | 109 => ⟨S1600x1, .f32⟩
  | 110 => ⟨S1600x1, .f32⟩
  | 111 => ⟨S1600x4, .f32⟩
  | 112 => ⟨S14400x1, .f32⟩
  | 113 => ⟨S14400, .f32⟩
  | 114 => ⟨S14400x1, .f32⟩
  | 115 => ⟨S14400, .f32⟩
  | 116 => ⟨S14400, .f32⟩
  | 117 => ⟨S14400x1, .f32⟩
  | 118 => ⟨S14400, .f32⟩
  | 119 => ⟨S14400x1, .f32⟩
  | 120 => ⟨S14400, .f32⟩
  | 121 => ⟨S14400, .f32⟩
  | 122 => ⟨S14400, .f32⟩
  | 123 => ⟨S1600x1, .f32⟩
  | 124 => ⟨S1600, .f32⟩
  | 125 => ⟨S1600x1, .f32⟩
  | 126 => ⟨S1600, .f32⟩
  | 127 => ⟨S1600, .f32⟩
  | _ => ⟨S16x900x91, .f32⟩

abbrev hbmTy0_1 (i : Nat) : BufTy := match i % 128 with
  | 0 => ⟨S1600x1, .f32⟩
  | 1 => ⟨S1600, .f32⟩
  | 2 => ⟨S1600x1, .f32⟩
  | 3 => ⟨S1600, .f32⟩
  | 4 => ⟨S1600, .f32⟩
  | 5 => ⟨S1600, .f32⟩
  | 6 => ⟨S14400x2, .f32⟩
  | 7 => ⟨S14400x1x2, .f32⟩
  | 8 => ⟨S1600x2, .f32⟩
  | 9 => ⟨S1x1600x2, .f32⟩
  | 10 => ⟨S14400x1600x2, .f32⟩
  | 11 => ⟨S14400x1600x2, .f32⟩
  | 12 => ⟨S14400x1600x2, .f32⟩
  | 13 => ⟨S14400x2, .f32⟩
  | 14 => ⟨S14400x1x2, .f32⟩
  | 15 => ⟨S1600x2, .f32⟩
  | 16 => ⟨S1x1600x2, .f32⟩
  | 17 => ⟨S14400x1600x2, .f32⟩
  | 18 => ⟨S14400x1600x2, .f32⟩
  | 19 => ⟨S14400x1600x2, .f32⟩
  | 20 => ⟨S14400x1600x2, .f32⟩
  | 21 => ⟨S_, .i32⟩
  | 22 => ⟨S_, .f32⟩
  | 23 => ⟨S14400x1600x2, .f32⟩
  | 24 => ⟨S14400x1600x2, .f32⟩
  | 25 => ⟨S14400x1600x1, .f32⟩
  | 26 => ⟨S14400x1600, .f32⟩
  | 27 => ⟨S14400x1600x1, .f32⟩
  | 28 => ⟨S14400x1600, .f32⟩
  | 29 => ⟨S14400x1600, .f32⟩
  | 30 => ⟨S14400x1, .f32⟩
  | 31 => ⟨S1x1600, .f32⟩
  | 32 => ⟨S14400x1600, .f32⟩
  | 33 => ⟨S14400x1600, .f32⟩
  | 34 => ⟨S14400x1600, .f32⟩
  | 35 => ⟨S14400x1600, .f32⟩
  | 36 => ⟨S14400x1600, .f32⟩
  | 37 => ⟨S14400x2, .f32⟩
  | 38 => ⟨S14400x1x2, .f32⟩
  | 39 => ⟨S1600x2, .f32⟩
  | 40 => ⟨S1x1600x2, .f32⟩
  | 41 => ⟨S14400x1600x2, .f32⟩
  | 42 => ⟨S14400x1600x2, .f32⟩
  | 43 => ⟨S14400x1600x2, .f32⟩
  | 44 => ⟨S14400x2, .f32⟩
  | 45 => ⟨S14400x1x2, .f32⟩
  | 46 => ⟨S1600x2, .f32⟩
  | 47 => ⟨S1x1600x2, .f32⟩
  | 48 => ⟨S14400x1600x2, .f32⟩
  | 49 => ⟨S14400x1600x2, .f32⟩
  | 50 => ⟨S14400x1600x2, .f32⟩
  | 51 => ⟨S14400x1600x2, .f32⟩
  | 52 => ⟨S_, .i32⟩
  | 53 => ⟨S_, .f32⟩
  | 54 => ⟨S14400x1600x2, .f32⟩
  | 55 => ⟨S14400x1600x2, .f32⟩
  | 56 => ⟨S14400x1600x1, .f32⟩
  | 57 => ⟨S14400x1600, .f32⟩
  | 58 => ⟨S14400x1600x1, .f32⟩
  | 59 => ⟨S14400x1600, .f32⟩
  | 60 => ⟨S14400x1600, .f32⟩
  | 61 => ⟨S14400x1600, .f32⟩
  | 62 => ⟨S14400x1600, .f32⟩
  | 63 => ⟨S14400x1600, .f32⟩
  | 64 => ⟨S14400x1600, .f32⟩
  | 65 => ⟨S_, .f32⟩
  | 66 => ⟨S14400x1600, .f32⟩
  | 67 => ⟨S14400x1600, .f32⟩
  | 68 => ⟨S_, .f32⟩
  | 69 => ⟨S14400x1600, .f32⟩
  | 70 => ⟨S14400x1600, .f32⟩
  | 71 => ⟨S14400x1600, .f32⟩
  | 72 => ⟨S_, .f32⟩
  | 73 => ⟨S14400x1600, .f32⟩
  | 74 => ⟨S14400x1600, .f32⟩
  | 75 => ⟨S14400x1600, .f32⟩
  | 76 => ⟨S16x900x1600, .f32⟩
  | 77 => ⟨S_, .f32⟩
  | 78 => ⟨S_, .f32⟩
  | 79 => ⟨S_, .f32⟩
  | 80 => ⟨S16x900x1600, .i1⟩
  | 81 => ⟨S_, .f32⟩
  | 82 => ⟨S16x900x1600, .f32⟩
  | 83 => ⟨S16x900x1600, .f32⟩
  | 84 => ⟨S_, .f32⟩
  | 85 => ⟨S16x900x1600, .f32⟩
  | 86 => ⟨S16x900x1600, .i1⟩
  | 87 => ⟨S_, .f32⟩
  | 88 => ⟨S16x900x1600, .f32⟩
  | 89 => ⟨S16x900x1600, .f32⟩
  | 90 => ⟨S_, .f32⟩
  | 91 => ⟨S16x900x1600, .f32⟩
  | 92 => ⟨S16x900x1600, .i1⟩
  | 93 => ⟨S_, .f32⟩
  | 94 => ⟨S16x900x1600, .f32⟩
  | 95 => ⟨S16x900x1600, .f32⟩
  | _ => ⟨S16x900x91, .f32⟩

abbrev hbmTy (i : Nat) : BufTy := match i / 128 with
  | 0 => hbmTy0_0 i
  | 1 => hbmTy0_1 i
  | _ => ⟨S16x900x91, .f32⟩

abbrev bufTy : (tb : Table) → Fin (tcTables nBuf tb) → BufTy
  | .hbm, ⟨i, _⟩ => hbmTy i
  | _, _ => ⟨S16x900x91, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_cst_4 : Ref sig .tc := ⟨.hbm, 38, rfl⟩
abbrev main_cst_5 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_9 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_cst_11 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_12 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_13 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_14 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_15 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_c_16 : Ref sig .tc := ⟨.hbm, 149, rfl⟩
abbrev main_call2_v0 : Ref sig .tc := ⟨.hbm, 150, rfl⟩
abbrev main_call2_v1 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_c_17 : Ref sig .tc := ⟨.hbm, 180, rfl⟩
abbrev main_call3_v0 : Ref sig .tc := ⟨.hbm, 181, rfl⟩
abbrev main_call3_v1 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_cst_18 : Ref sig .tc := ⟨.hbm, 193, rfl⟩
abbrev main_v155 : Ref sig .tc := ⟨.hbm, 194, rfl⟩
abbrev main_v156 : Ref sig .tc := ⟨.hbm, 195, rfl⟩
abbrev main_cst_19 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_cst_20 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_cst_21 : Ref sig .tc := ⟨.hbm, 205, rfl⟩
abbrev main_cst_22 : Ref sig .tc := ⟨.hbm, 206, rfl⟩
abbrev main_cst_23 : Ref sig .tc := ⟨.hbm, 207, rfl⟩
abbrev main_call4_v0 : Ref sig .tc := ⟨.hbm, 208, rfl⟩
abbrev main_call4_v1 : Ref sig .tc := ⟨.hbm, 209, rfl⟩
abbrev main_call4_call0_v0 : Ref sig .tc := ⟨.hbm, 210, rfl⟩
abbrev main_call4_v2 : Ref sig .tc := ⟨.hbm, 211, rfl⟩
abbrev main_call4_cst : Ref sig .tc := ⟨.hbm, 212, rfl⟩
abbrev main_call4_v3 : Ref sig .tc := ⟨.hbm, 213, rfl⟩
abbrev main_call4_v4 : Ref sig .tc := ⟨.hbm, 214, rfl⟩
abbrev main_call4_v5 : Ref sig .tc := ⟨.hbm, 215, rfl⟩
abbrev main_call4_call1_v0 : Ref sig .tc := ⟨.hbm, 216, rfl⟩
abbrev main_call4_v6 : Ref sig .tc := ⟨.hbm, 217, rfl⟩
abbrev main_call4_cst_0 : Ref sig .tc := ⟨.hbm, 218, rfl⟩
abbrev main_call4_v7 : Ref sig .tc := ⟨.hbm, 219, rfl⟩
abbrev main_call4_v8 : Ref sig .tc := ⟨.hbm, 220, rfl⟩
abbrev main_call4_v9 : Ref sig .tc := ⟨.hbm, 221, rfl⟩
abbrev main_call4_call2_v0 : Ref sig .tc := ⟨.hbm, 222, rfl⟩
abbrev main_v164 : Ref sig .tc := ⟨.hbm, 223, rfl⟩

abbrev nD : Nat := 1
abbrev τ : Topo := Topo.v7x

variable {F : FTy → Type} [FloatOps F]

class Facts₀ : Prop where
  shapeCasts_S16x900x91_S14400x91 : S16x900x91.ShapeCasts S14400x91
  reducesTo_S14400x91_S14400_d1 : S14400x91.ReducesTo [1] S14400
  h_S_ : 0 < S_.numel
  bcast_S_S14400 : S_.BroadcastsInDim S14400 (![] : Fin 0 → Fin S14400.rank)
  bcast_S14400_S14400x1_0 : S14400.BroadcastsInDim S14400x1 (![0] : Fin 1 → Fin S14400x1.rank)
  bcast_S14400x1_S14400x91_0_1 : S14400x1.BroadcastsInDim S14400x91 (![0, 1] : Fin 2 → Fin S14400x91.rank)
  shapeCasts_S16x900x4_S14400x4 : S16x900x4.ShapeCasts S14400x4
  bcast_S_S1600 : S_.BroadcastsInDim S1600 (![] : Fin 0 → Fin S1600.rank)
  bcast_S1600_S1600x1_0 : S1600.BroadcastsInDim S1600x1 (![0] : Fin 1 → Fin S1600x1.rank)
  bcast_S14400x4_S14400x1x4_0_2 : S14400x4.BroadcastsInDim S14400x1x4 (![0, 2] : Fin 2 → Fin S14400x1x4.rank)
  bcast_S1600x4_S1x1600x4_1_2 : S1600x4.BroadcastsInDim S1x1600x4 (![1, 2] : Fin 2 → Fin S1x1600x4.rank)
  bcast_S14400x1x4_S14400x1600x4_0_1_2 : S14400x1x4.BroadcastsInDim S14400x1600x4 (![0, 1, 2] : Fin 3 → Fin S14400x1600x4.rank)
  bcast_S1x1600x4_S14400x1600x4_0_1_2 : S1x1600x4.BroadcastsInDim S14400x1600x4 (![0, 1, 2] : Fin 3 → Fin S14400x1600x4.rank)
  reducesTo_S14400x1600x4_S14400x1600_d2 : S14400x1600x4.ReducesTo [2] S14400x1600
  bcast_S_S14400x4 : S_.BroadcastsInDim S14400x4 (![] : Fin 0 → Fin S14400x4.rank)
  slices_S14400x4_S14400x1_0_0 : S14400x4.Slices ![0, 0] S14400x1
  shapeCasts_S14400x1_S14400 : S14400x1.ShapeCasts S14400
  slices_S14400x4_S14400x1_0_1 : S14400x4.Slices ![0, 1] S14400x1
  slices_S14400x4_S14400x1_0_2 : S14400x4.Slices ![0, 2] S14400x1
  slices_S14400x4_S14400x1_0_3 : S14400x4.Slices ![0, 3] S14400x1
  concatenates_S14400x1_S14400x1_S14400x1_S14400x1_S14400x4_d1 : Shape.Concatenates [S14400x1, S14400x1, S14400x1, S14400x1] S14400x4 1
  bcast_S_S1600x4 : S_.BroadcastsInDim S1600x4 (![] : Fin 0 → Fin S1600x4.rank)
  slices_S1600x4_S1600x1_0_0 : S1600x4.Slices ![0, 0] S1600x1
  shapeCasts_S1600x1_S1600 : S1600x1.ShapeCasts S1600
  slices_S1600x4_S1600x1_0_1 : S1600x4.Slices ![0, 1] S1600x1
  slices_S1600x4_S1600x1_0_2 : S1600x4.Slices ![0, 2] S1600x1
  slices_S1600x4_S1600x1_0_3 : S1600x4.Slices ![0, 3] S1600x1
  concatenates_S1600x1_S1600x1_S1600x1_S1600x1_S1600x4_d1 : Shape.Concatenates [S1600x1, S1600x1, S1600x1, S1600x1] S1600x4 1
  slices_S14400x4_S14400x2_0_0 : S14400x4.Slices ![0, 0] S14400x2
  bcast_S14400x2_S14400x1x2_0_2 : S14400x2.BroadcastsInDim S14400x1x2 (![0, 2] : Fin 2 → Fin S14400x1x2.rank)
  slices_S1600x4_S1600x2_0_0 : S1600x4.Slices ![0, 0] S1600x2
  bcast_S1600x2_S1x1600x2_1_2 : S1600x2.BroadcastsInDim S1x1600x2 (![1, 2] : Fin 2 → Fin S1x1600x2.rank)
  bcast_S14400x1x2_S14400x1600x2_0_1_2 : S14400x1x2.BroadcastsInDim S14400x1600x2 (![0, 1, 2] : Fin 3 → Fin S14400x1600x2.rank)
  bcast_S1x1600x2_S14400x1600x2_0_1_2 : S1x1600x2.BroadcastsInDim S14400x1600x2 (![0, 1, 2] : Fin 3 → Fin S14400x1600x2.rank)
  slices_S14400x4_S14400x2_0_2 : S14400x4.Slices ![0, 2] S14400x2
  slices_S1600x4_S1600x2_0_2 : S1600x4.Slices ![0, 2] S1600x2
  bcast_S_S14400x1600x2 : S_.BroadcastsInDim S14400x1600x2 (![] : Fin 0 → Fin S14400x1600x2.rank)
  slices_S14400x1600x2_S14400x1600x1_0_0_0 : S14400x1600x2.Slices ![0, 0, 0] S14400x1600x1
  shapeCasts_S14400x1600x1_S14400x1600 : S14400x1600x1.ShapeCasts S14400x1600
  slices_S14400x1600x2_S14400x1600x1_0_0_1 : S14400x1600x2.Slices ![0, 0, 1] S14400x1600x1
  bcast_S1600_S1x1600_1 : S1600.BroadcastsInDim S1x1600 (![1] : Fin 1 → Fin S1x1600.rank)
  bcast_S14400x1_S14400x1600_0_1 : S14400x1.BroadcastsInDim S14400x1600 (![0, 1] : Fin 2 → Fin S14400x1600.rank)
  bcast_S1x1600_S14400x1600_0_1 : S1x1600.BroadcastsInDim S14400x1600 (![0, 1] : Fin 2 → Fin S14400x1600.rank)
  bcast_S_S14400x1600 : S_.BroadcastsInDim S14400x1600 (![] : Fin 0 → Fin S14400x1600.rank)
  shapeCasts_S14400x1600_S16x900x1600 : S14400x1600.ShapeCasts S16x900x1600
  bcast_S_S16x900x1600 : S_.BroadcastsInDim S16x900x1600 (![] : Fin 0 → Fin S16x900x1600.rank)
  gather_S14400x91_S1600x1_S14400x1600_0_1_n_n_1_1_144001_wf : GatherDims.WF S14400x91 S1600x1 S14400x1600 [0] [1] [] [1] [] 1 ![14400, 1]

variable [Facts₀]

def gather_S14400x91_S1600x1_S14400x1600_0_1_n_n_1_1_144001 : GatherDims S14400x91 S1600x1 S14400x1600 where
  offsetDims := [0]
  collapsedSliceDims := [1]
  operandBatchingDims := []
  startIndicesBatchingDims := []
  startIndexMap := [1]
  indexVectorDim := 1
  sliceSizes := ![14400, 1]
  wf := gather_S14400x91_S1600x1_S14400x1600_0_1_n_n_1_1_144001_wf

class Facts : Prop extends Facts₀ where

variable [Facts]
-- ==== Proof.Spec.lean ====
/-
  The matching cost of one (query, target) pair, as a function on the extended reals, and the whole cost array
  as one function of the four argument arrays.

  A query row carries 91 class logits and a box (cx, cy, w, h); a target carries a class id and a box. The pair's
  cost is  1 * (-(softmax of the logits at the target's class)) + 5 * (the L1 distance of the two raw boxes)
  + 2 * (-(the generalized IoU of the two boxes clamped to [0, 1] and turned into corners)), with the three
  non-finite outcomes replaced by +-10^4. The softmax entry at the target's class is written as the sum over
  the classes of the probability times the indicator "this class is the target's": for a class id inside
  0 .. 90 that sum has exactly one nonzero term.

  Every literal stays the float pattern the programs print; no pattern is evaluated here.
-/
import Idealize.ShloMosaic.PureOps.Ideal
import Idealize.ShloMosaic.Lib.ValueIdx

noncomputable section

open scoped BigOperators

namespace Cert.MatchCost

open Idealize.ShloMosaic Idealize.ShloMosaic.ValueIdx

/-- The extended real an f32 pattern denotes. -/
abbrev lit (w : BitVec 32) : EReal := Ideal.ofBits .f32 w

/-! ## The softmax of a row of logits -/

/-- The row's maximum, folded from the pattern of minus infinity. -/
def rowMax (l : Fin 91 → EReal) : EReal := (Finset.univ : Finset (Fin 91)).fold max (lit 0xFF800000#32) l

/-- The shifted exponential of one logit. -/
def expo (l : Fin 91 → EReal) (k : Fin 91) : EReal := Ideal.exp (l k - rowMax l)

/-- The softmax probability of class `k`. -/
def prob (l : Fin 91 → EReal) (k : Fin 91) : EReal := Ideal.div (expo l k) (∑ j : Fin 91, expo l j)

/-- The indicator, as a float, that class `k` is the class id `w`: the 32-bit word of `k` compared with `w`,
    the one-bit answer read as 0 or 1. -/
def onehot (w : BitVec 32) (k : Fin 91) : EReal :=
  FloatOps.uitofp (F := Ideal) .bf16 (IntOp.cmpi .eq (BitVec.ofNat 32 k.val) w)

/-! ## The boxes -/

/-- A coordinate clamped to [0, 1]. -/
def clamp (x : EReal) : EReal := min (lit 0x3F800000#32) (max (lit 0x00000000#32) x)

/-- The absolute value as the ideal instance has it. -/
def absE (a : EReal) : EReal := max a (-a)

/-- The four corners of a (cx, cy, w, h) box after clamping: centre minus / plus half the extent. -/
def x1 (b : Fin 4 → EReal) : EReal := clamp (b 0) - lit 0x3F000000#32 * clamp (b 2)
def y1 (b : Fin 4 → EReal) : EReal := clamp (b 1) - lit 0x3F000000#32 * clamp (b 3)
def x2 (b : Fin 4 → EReal) : EReal := clamp (b 0) + lit 0x3F000000#32 * clamp (b 2)
def y2 (b : Fin 4 → EReal) : EReal := clamp (b 1) + lit 0x3F000000#32 * clamp (b 3)

/-- The box's area. -/
def area (b : Fin 4 → EReal) : EReal := (x2 b - x1 b) * (y2 b - y1 b)

/-- The area of the intersection of the two boxes: each side's overlap, cut at zero. -/
def inter (b t : Fin 4 → EReal) : EReal :=
  max (min (x2 b) (x2 t) - max (x1 b) (x1 t)) (lit 0x00000000#32)
    * max (min (y2 b) (y2 t) - max (y1 b) (y1 t)) (lit 0x00000000#32)

/-- The area of the union. -/
def union (b t : Fin 4 → EReal) : EReal := area b + area t - inter b t

/-- The area of the smallest box enclosing both. -/
def encl (b t : Fin 4 → EReal) : EReal :=
  max (max (x2 b) (x2 t) - min (x1 b) (x1 t)) (lit 0x00000000#32)
    * max (max (y2 b) (y2 t) - min (y1 b) (y1 t)) (lit 0x00000000#32)

/-- The generalized IoU. -/
def giou (b t : Fin 4 → EReal) : EReal :=
  Ideal.div (inter b t) (union b t) - Ideal.div (encl b t - union b t) (encl b t)

/-- The L1 distance of the raw boxes, summed coordinate by coordinate from zero. -/
def l1 (b t : Fin 4 → EReal) : EReal :=
  (((lit 0x00000000#32 + absE (b 0 - t 0)) + absE (b 1 - t 1)) + absE (b 2 - t 2)) + absE (b 3 - t 3)

/-! ## The replacement of the non-finite outcomes -/

/-- "Not a number" becomes 10^4 (the test "x differs from x", never true on the extended reals), plus infinity
    becomes 10^4, minus infinity becomes -10^4. -/
def nan2num (x : EReal) : EReal :=
  let a := Scalar.select (Ideal.cmp .one x x) (lit 0x461C4000#32) x
  let b := Scalar.select (Ideal.cmp .oeq a (lit 0x7F800000#32)) (lit 0x461C4000#32) a
  Scalar.select (Ideal.cmp .oeq b (lit 0xFF800000#32)) (lit 0xC61C4000#32) b

/-! ## The pair's cost and the cost array -/

/-- The cost of a pair from the query's logits `l`, the class indicator `oh` of the target, the query's box `b`
    and the target's box `t`. -/
def cost (l oh : Fin 91 → EReal) (b t : Fin 4 → EReal) : EReal :=
  nan2num ((lit 0x3F800000#32 * (lit 0x00000000#32 - ∑ k : Fin 91, prob l k * oh k) + lit 0x40A00000#32 * l1 b t)
    + lit 0x40000000#32 * (lit 0x00000000#32 - giou b t))

/-- The cost array over the flattened queries: row `r` of the 14400 queries against target `n`. -/
def Gflat (L : (⟨2, ![14400, 91]⟩ : Shape).Idx → EReal) (B : (⟨2, ![14400, 4]⟩ : Shape).Idx → EReal)
    (ids : (⟨1, ![1600]⟩ : Shape).Idx → BitVec 32) (T : (⟨2, ![1600, 4]⟩ : Shape).Idx → EReal) :
    (⟨2, ![14400, 1600]⟩ : Shape).Idx → EReal :=
  fun j => cost (fun k => L (ix2 (j 0) k)) (onehot (ids (ix1 (j 1)))) (fun c => B (ix2 (j 0) c)) (fun c => T (ix2 (j 1) c))

/-- The cost array: batch `j 0`, query `j 1`, target `j 2`. -/
def G (a0 : (⟨3, ![16, 900, 91]⟩ : Shape).Idx → EReal) (a1 : (⟨3, ![16, 900, 4]⟩ : Shape).Idx → EReal)
    (a2 : (⟨1, ![1600]⟩ : Shape).Idx → BitVec 32) (a3 : (⟨2, ![1600, 4]⟩ : Shape).Idx → EReal) :
    (⟨3, ![16, 900, 1600]⟩ : Shape).Idx → EReal :=
  fun j => cost (fun k => a0 (ix3 (j 0) (j 1) k)) (onehot (a2 (ix1 (j 2)))) (fun c => a1 (ix3 (j 0) (j 1) c))
    (fun c => a3 (ix2 (j 2) c))

/-- Every class id is one of the 91 classes. -/
def IdsInRange (a2 : (⟨1, ![1600]⟩ : Shape).Idx → BitVec 32) : Prop := ∀ n : Fin 1600, (a2 (ix1 n)).toNat < 91

end Cert.MatchCost

end
-- ==== Proof.LibColumn.lean ====
/-
  Column vectors and one-axis reductions of a matrix, read at an index given by coordinates.

  A reduction of an `[a, b]` matrix with `keepdims` goes through three layout steps the library reads only in their
  row forms: the reduced `[a]` vector is cast to the column `[a, 1]`, and the column is broadcast back over
  `[a, b]`. Here those two are read at `(r, c)`, together with the reductions themselves at the ideal instance:
  the sum of a matrix along its columns or its rows as a `Fin`-indexed sum over `ix2`, and the maximum along the
  columns as the fold of `max` over the row — for the vector unit's reduction and for the host's alike.
-/
import Idealize.ShloMosaic.Lib.Pipeline.Value
import Idealize.ShloMosaic.Lib.ValueIdx
import Idealize.ShloMosaic.PureOps.Ideal.Laws

noncomputable section

open scoped BigOperators

namespace Cert.LibColumn

open Idealize.ShloMosaic Idealize.ShloMosaic.ValueIdx

/-! ## The layout steps of a keepdims reduction -/

section Layout
variable {α : Type}

/-- An `[a]` vector cast to the column `[a, 1]` reads, at `(r, u)`, the vector at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Layout

/-! ## Which source index a reduced index and a coordinate name -/

/-- Reducing `[a, b]` along axis 1: over row `r`, coordinate `k` put back is `(r, k)`. -/
theorem lift_axis1 {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Reducing `[a, b]` along axis 0: over column `t`, coordinate `k` put back is `(k, t)`. -/
theorem lift_axis0 {a b : ℕ} (h : (⟨2, ![a, b]⟩ : Shape).Reduces [0] (⟨1, ![b]⟩ : Shape)) (t : Fin b)
    (k : Fin ((⟨2, ![a, b]⟩ : Shape).size 0)) : h.lift (ix1 t) k = ix2 (⟨k.val, k.isLt⟩ : Fin a) t := by
  funext c; apply Fin.ext
  fin_cases c <;> rfl

/-! ## The reductions at the ideal instance -/

section Reductions
variable {φ : FTy}

/-- The vector unit's sum of a matrix along its columns is, at row `r`, the sum of that row. -/
theorem sumAxis1_apply {a b : ℕ} (v : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ v acc h hφ hacc (ix1 r) = ∑ k : Fin b, v (ix2 r k) :=
  (Ideal.multiReduction_add_single v acc h hφ hacc (ix1 r)).trans
    (Finset.sum_congr rfl fun k _ => congrArg v (lift_axis1 h r k))

/-- The vector unit's sum of a matrix along its rows is, at column `t`, the sum of that column. -/
theorem sumAxis0_apply {a b : ℕ} (v : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (t : Fin b) :
    multiReduction .add [0] ⟨1, ![b]⟩ v acc h hφ hacc (ix1 t) = ∑ k : Fin a, v (ix2 k t) :=
  (Ideal.multiReduction_add_single v acc h hφ hacc (ix1 t)).trans
    (Finset.sum_congr rfl fun k _ => congrArg v (lift_axis0 h t k))

/-- The vector unit's maximum of a matrix along its columns is, at row `r`, the fold of `max` over that row from
    the accumulator's value. -/
theorem maxAxis1_apply {a b : ℕ} (v : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ v acc h hφ hacc (ix1 r)
      = (Finset.univ : Finset (Fin b)).fold max (Ideal.ofBits φ acc) (fun k => v (ix2 r k)) :=
  (Ideal.multiReduction_maximumf_single v acc h hφ hacc (ix1 r)).trans
    (congrArg (fun f => (Finset.univ : Finset (Fin b)).fold max (Ideal.ofBits φ acc) f)
      (funext fun k => congrArg v (lift_axis1 h r k)))

/-- The host's reduce with a maximum body along the columns is, at row `r`, the same fold from the initial value. -/
theorem hostMaxAxis1_apply {a b : ℕ} {u : Shape} (x : FVec Ideal ⟨2, ![a, b]⟩ φ) (init : u.Idx → Ideal φ)
    (h' : (⟨2, ![a, b]⟩ : Shape).ReducesTo [1] (⟨1, ![a]⟩ : Shape))
    (h : (⟨2, ![a, b]⟩ : Shape).Reduces [1] (⟨1, ![a]⟩ : Shape)) (hu : 0 < u.numel) (r : Fin a) :
    Host.reduce FloatOps.maximumf x init h' hu (ix1 r)
      = (Finset.univ : Finset (Fin b)).fold max (init (Shape.Idx.first hu)) (fun k => x (ix2 r k)) :=
  (Host.reduce_eq_fold_single FloatOps.maximumf x init h' h hu (ix1 r)).trans
    (congrArg (fun f => (Finset.univ : Finset (Fin b)).fold max (init (Shape.Idx.first hu)) f)
      (funext fun k => congrArg x (lift_axis1 h r k)))

end Reductions

end Cert.LibColumn

end
-- ==== Proof.KernelPayload.lean ====
/-
  What the kernel body stores at one entry of its [320, 1600] output block, as the specification's pair cost of the
  input blocks' rows and columns.
-/
import proofs.«428247_j86973087744537_1_alg».proof.Proof.Spec
import proofs.«428247_j86973087744537_1_alg».proof.Proof.LibColumn
import proofs.«428247_j86973087744537_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelValue

open Idealize.ShloMosaic Idealize.ShloMosaic.ValueIdx Cert.KernelIdeal Cert.MatchCost

open Cert.KernelIdeal.Gen

/-! ## The blocks as loaded: a cast to the same shape changes nothing -/

theorem pay3_eq (x : FVec Ideal S320x4 .f32) : k0_pay3 x = x := shapeCast_self x _

theorem pay4_eq (y : FVec Ideal S4x1600 .f32) : k0_pay4 y = y := shapeCast_self y _

/-! ## Clamping to [0, 1] is pointwise -/

theorem pay9_apply (x : FVec Ideal S320x4 .f32) (i : S320x4.Idx) : k0_pay9 x i = clamp (x i) := rfl

theorem pay10_apply (y : FVec Ideal S4x1600 .f32) (i : S4x1600.Idx) : k0_pay10 y i = clamp (y i) := rfl

/-! ## One column of the query boxes, one row of the transposed target boxes -/

/-- Column `c` of a [320, 4] block, as a [320, 1] column, reads the block at `(p, c)`. -/
theorem col_apply (x : FVec Ideal S320x4 .f32) (o : Nat) (h : S320x4.Slices ![0, o] S320x1) (p : Fin 320) (c : Fin 4)
    (hc : c.val = o) : extractStridedSlice S320x1 ![0, o] x h (ix2 p (0 : Fin 1)) = x (ix2 p c) :=
  slice2_axis1_apply o x h p 0 c (by rw [hc]; rfl)

/-- Row `c` of a [4, 1600] block, as a [1, 1600] row, reads the block at `(c, q)`. -/
theorem row_apply (y : FVec Ideal S4x1600 .f32) (o : Nat) (h : S4x1600.Slices ![o, 0] S1x1600) (c : Fin 4) (q : Fin 1600)
    (hc : c.val = o) : extractStridedSlice S1x1600 ![o, 0] y h (ix2 (0 : Fin 1) q) = y (ix2 c q) :=
  slice2_axis0_apply o y h 0 q c (by rw [hc]; rfl)

theorem pay11_apply (x : FVec Ideal S320x4 .f32) (p : Fin 320) :
    k0_pay11 x (ix2 p (0 : Fin 1)) = clamp (x (ix2 p (0 : Fin 4))) :=
  (col_apply (k0_pay9 x) 0 slices_S320x4_o0_0_S320x1 p 0 rfl).trans (pay9_apply x _)

theorem pay12_apply (x : FVec Ideal S320x4 .f32) (p : Fin 320) :
    k0_pay12 x (ix2 p (0 : Fin 1)) = clamp (x (ix2 p (1 : Fin 4))) :=
  (col_apply (k0_pay9 x) 1 slices_S320x4_o0_1_S320x1 p 1 rfl).trans (pay9_apply x _)

theorem pay13_apply (x : FVec Ideal S320x4 .f32) (p : Fin 320) :
    k0_pay13 x (ix2 p (0 : Fin 1)) = clamp (x (ix2 p (2 : Fin 4))) :=
  (col_apply (k0_pay9 x) 2 slices_S320x4_o0_2_S320x1 p 2 rfl).trans (pay9_apply x _)

theorem pay14_apply (x : FVec Ideal S320x4 .f32) (p : Fin 320) :
    k0_pay14 x (ix2 p (0 : Fin 1)) = clamp (x (ix2 p (3 : Fin 4))) :=
  (col_apply (k0_pay9 x) 3 slices_S320x4_o0_3_S320x1 p 3 rfl).trans (pay9_apply x _)

theorem pay19_apply (y : FVec Ideal S4x1600 .f32) (q : Fin 1600) :
    k0_pay19 y (ix2 (0 : Fin 1) q) = clamp (y (ix2 (0 : Fin 4) q)) :=
  (row_apply (k0_pay10 y) 0 slices_S4x1600_o0_0_S1x1600 0 q rfl).trans (pay10_apply y _)

theorem pay20_apply (y : FVec Ideal S4x1600 .f32) (q : Fin 1600) :
    k0_pay20 y (ix2 (0 : Fin 1) q) = clamp (y (ix2 (1 : Fin 4) q)) :=
  (row_apply (k0_pay10 y) 1 slices_S4x1600_o1_0_S1x1600 1 q rfl).trans (pay10_apply y _)

theorem pay21_apply (y : FVec Ideal S4x1600 .f32) (q : Fin 1600) :
    k0_pay21 y (ix2 (0 : Fin 1) q) = clamp (y (ix2 (2 : Fin 4) q)) :=
  (row_apply (k0_pay10 y) 2 slices_S4x1600_o2_0_S1x1600 2 q rfl).trans (pay10_apply y _)

theorem pay22_apply (y : FVec Ideal S4x1600 .f32) (q : Fin 1600) :
    k0_pay22 y (ix2 (0 : Fin 1) q) = clamp (y (ix2 (3 : Fin 4) q)) :=
  (row_apply (k0_pay10 y) 3 slices_S4x1600_o3_0_S1x1600 3 q rfl).trans (pay10_apply y _)

/-! ## The corners: centre minus / plus half the extent -/

theorem pay15_apply (x : FVec Ideal S320x4 .f32) (p : Fin 320) :
    k0_pay15 x (ix2 p (0 : Fin 1)) = x1 (fun c => x (ix2 p c)) := by
  show k0_pay11 x (ix2 p (0 : Fin 1)) - lit 0x3F000000#32 * k0_pay13 x (ix2 p (0 : Fin 1)) = _
  rw [pay11_apply, pay13_apply]; rfl

theorem pay16_apply (x : FVec Ideal S320x4 .f32) (p : Fin 320) :
    k0_pay16 x (ix2 p (0 : Fin 1)) = y1 (fun c => x (ix2 p c)) := by
  show k0_pay12 x (ix2 p (0 : Fin 1)) - lit 0x3F000000#32 * k0_pay14 x (ix2 p (0 : Fin 1)) = _
  rw [pay12_apply, pay14_apply]; rfl

theorem pay17_apply (x : FVec Ideal S320x4 .f32) (p : Fin 320) :
    k0_pay17 x (ix2 p (0 : Fin 1)) = x2 (fun c => x (ix2 p c)) := by
  show k0_pay11 x (ix2 p (0 : Fin 1)) + lit 0x3F000000#32 * k0_pay13 x (ix2 p (0 : Fin 1)) = _
  rw [pay11_apply, pay13_apply]; rfl

theorem pay18_apply (x : FVec Ideal S320x4 .f32) (p : Fin 320) :
    k0_pay18 x (ix2 p (0 : Fin 1)) = y2 (fun c => x (ix2 p c)) := by
  show k0_pay12 x (ix2 p (0 : Fin 1)) + lit 0x3F000000#32 * k0_pay14 x (ix2 p (0 : Fin 1)) = _
  rw [pay12_apply, pay14_apply]; rfl

theorem pay23_apply (y : FVec Ideal S4x1600 .f32) (q : Fin 1600) :
    k0_pay23 y (ix2 (0 : Fin 1) q) = x1 (fun c => y (ix2 c q)) := by
  show k0_pay19 y (ix2 (0 : Fin 1) q) - lit 0x3F000000#32 * k0_pay21 y (ix2 (0 : Fin 1) q) = _
  rw [pay19_apply, pay21_apply]; rfl

theorem pay24_apply (y : FVec Ideal S4x1600 .f32) (q : Fin 1600) :
    k0_pay24 y (ix2 (0 : Fin 1) q) = y1 (fun c => y (ix2 c q)) := by
  show k0_pay20 y (ix2 (0 : Fin 1) q) - lit 0x3F000000#32 * k0_pay22 y (ix2 (0 : Fin 1) q) = _
  rw [pay20_apply, pay22_apply]; rfl

theorem pay25_apply (y : FVec Ideal S4x1600 .f32) (q : Fin 1600) :
    k0_pay25 y (ix2 (0 : Fin 1) q) = x2 (fun c => y (ix2 c q)) := by
  show k0_pay19 y (ix2 (0 : Fin 1) q) + lit 0x3F000000#32 * k0_pay21 y (ix2 (0 : Fin 1) q) = _
  rw [pay19_apply, pay21_apply]; rfl

theorem pay26_apply (y : FVec Ideal S4x1600 .f32) (q : Fin 1600) :
    k0_pay26 y (ix2 (0 : Fin 1) q) = y2 (fun c => y (ix2 c q)) := by
  show k0_pay20 y (ix2 (0 : Fin 1) q) + lit 0x3F000000#32 * k0_pay22 y (ix2 (0 : Fin 1) q) = _
  rw [pay20_apply, pay22_apply]; rfl

/-! ## The query box's area, and the target box's width -/

theorem pay27_apply (x : FVec Ideal S320x4 .f32) (p : Fin 320) :
    k0_pay27 x (ix2 p (0 : Fin 1)) = area (fun c => x (ix2 p c)) := by
  show (k0_pay17 x (ix2 p (0 : Fin 1)) - k0_pay15 x (ix2 p (0 : Fin 1)))
      * (k0_pay18 x (ix2 p (0 : Fin 1)) - k0_pay16 x (ix2 p (0 : Fin 1))) = _
  rw [pay15_apply, pay16_apply, pay17_apply, pay18_apply]; rfl

theorem pay28_apply (y : FVec Ideal S4x1600 .f32) (q : Fin 1600) :
    k0_pay28 y (ix2 (0 : Fin 1) q) = x2 (fun c => y (ix2 c q)) - x1 (fun c => y (ix2 c q)) := by
  show k0_pay25 y (ix2 (0 : Fin 1) q) - k0_pay23 y (ix2 (0 : Fin 1) q) = _
  rw [pay25_apply, pay23_apply]

/-! ## A column or a row spread over the [320, 1600] block -/

/-- A [320, 1] column spread over the block reads, at `(p, q)`, the column's entry of row `p`. -/
theorem spreadCol_apply (v : FVec Ideal S320x1 .f32) (h : S320x1.Broadcasts S320x1600) (p : Fin 320) (q : Fin 1600) :
    broadcastTo S320x1600 v h (ix2 p q) = v (ix2 p (0 : Fin 1)) :=
  Cert.LibColumn.broadcastTo_a1_ab_apply v h p q

/-- A [1, 1600] row spread over the block reads, at `(p, q)`, the row's entry of column `q`. -/
theorem spreadRow_apply (v : FVec Ideal S1x1600 .f32) (h : S1x1600.Broadcasts S320x1600) (p : Fin 320) (q : Fin 1600) :
    broadcastTo S320x1600 v h (ix2 p q) = v (ix2 (0 : Fin 1) q) :=
  broadcastTo_1b_ab_apply v h p q

/-! ## The generalized IoU from the eight corners and the two areas -/

/-- The intersection's area from the corners `(a, b)–(c, d)` of one box and `(e, f)–(g, h)` of the other. -/
def interC (a b c d e f g h : EReal) : EReal :=
  max (min c g - max a e) (lit 0x00000000#32) * max (min d h - max b f) (lit 0x00000000#32)

/-- The enclosing box's area from the same corners. -/
def enclC (a b c d e f g h : EReal) : EReal :=
  max (max c g - min a e) (lit 0x00000000#32) * max (max d h - min b f) (lit 0x00000000#32)

/-- The generalized IoU from the corners and the two areas `A`, `T`. -/
def giouC (a b c d e f g h A T : EReal) : EReal :=
  Ideal.div (interC a b c d e f g h) (A + T - interC a b c d e f g h)
    - Ideal.div (enclC a b c d e f g h - (A + T - interC a b c d e f g h)) (enclC a b c d e f g h)

theorem giouC_eq (b t : Fin 4 → EReal) :
    giouC (x1 b) (y1 b) (x2 b) (y2 b) (x1 t) (y1 t) (x2 t) (y2 t) (area b) (area t) = giou b t := rfl

/-- The body's IoU term at `(p, q)`, over any corner columns and rows: zero minus the generalized IoU of the
    entries of row `p` and column `q`; the target's area is its width times its height. -/
theorem pay29_apply (a b c d : FVec Ideal S320x1 .f32) (e f g h : FVec Ideal S1x1600 .f32)
    (A : FVec Ideal S320x1 .f32) (W : FVec Ideal S1x1600 .f32) (p : Fin 320) (q : Fin 1600) :
    k0_pay29 (F := Ideal) a b c d e f g h A W (ix2 p q)
      = lit 0x00000000#32 - giouC (a (ix2 p (0 : Fin 1))) (b (ix2 p (0 : Fin 1))) (c (ix2 p (0 : Fin 1)))
          (d (ix2 p (0 : Fin 1))) (e (ix2 (0 : Fin 1) q)) (f (ix2 (0 : Fin 1) q)) (g (ix2 (0 : Fin 1) q))
          (h (ix2 (0 : Fin 1) q)) (A (ix2 p (0 : Fin 1)))
          (W (ix2 (0 : Fin 1) q) * (h (ix2 (0 : Fin 1) q) - f (ix2 (0 : Fin 1) q))) := by
  have hT : broadcastTo S320x1600 (mulf W (subf h f)) broadcasts_S1x1600_S320x1600 (ix2 p q)
      = W (ix2 (0 : Fin 1) q) * (h (ix2 (0 : Fin 1) q) - f (ix2 (0 : Fin 1) q)) := spreadRow_apply _ _ p q
  rw [← hT, ← spreadCol_apply a broadcasts_S320x1_S320x1600 p q, ← spreadCol_apply b broadcasts_S320x1_S320x1600 p q,
    ← spreadCol_apply c broadcasts_S320x1_S320x1600 p q, ← spreadCol_apply d broadcasts_S320x1_S320x1600 p q,
    ← spreadCol_apply A broadcasts_S320x1_S320x1600 p q, ← spreadRow_apply e broadcasts_S1x1600_S320x1600 p q,
    ← spreadRow_apply f broadcasts_S1x1600_S320x1600 p q, ← spreadRow_apply g broadcasts_S1x1600_S320x1600 p q,
    ← spreadRow_apply h broadcasts_S1x1600_S320x1600 p q]
  rfl

/-! ## The L1 distance of the raw boxes, coordinate by coordinate -/

/-- Column `c` of the query boxes spread over the block. -/
theorem spreadColOf_apply (x : FVec Ideal S320x4 .f32) (o : Nat) (h : S320x4.Slices ![0, o] S320x1) (p : Fin 320)
    (q : Fin 1600) (c : Fin 4) (hc : c.val = o) :
    broadcastTo S320x1600 (extractStridedSlice S320x1 ![0, o] x h) broadcasts_S320x1_S320x1600 (ix2 p q) = x (ix2 p c) :=
  (spreadCol_apply _ _ p q).trans (col_apply x o h p c hc)

/-- Row `c` of the transposed target boxes spread over the block. -/
theorem spreadRowOf_apply (y : FVec Ideal S4x1600 .f32) (o : Nat) (h : S4x1600.Slices ![o, 0] S1x1600) (p : Fin 320)
    (q : Fin 1600) (c : Fin 4) (hc : c.val = o) :
    broadcastTo S320x1600 (extractStridedSlice S1x1600 ![o, 0] y h) broadcasts_S1x1600_S320x1600 (ix2 p q) = y (ix2 c q) :=
  (spreadRow_apply _ _ p q).trans (row_apply y o h c q hc)

/-- The first three coordinates' share of the L1 distance. -/
theorem pay5_apply (x : FVec Ideal S320x4 .f32) (y : FVec Ideal S4x1600 .f32) (p : Fin 320) (q : Fin 1600) :
    k0_pay5 (F := Ideal) x y (ix2 p q)
      = ((lit 0x00000000#32 + absE (x (ix2 p (0 : Fin 4)) - y (ix2 (0 : Fin 4) q)))
          + absE (x (ix2 p (1 : Fin 4)) - y (ix2 (1 : Fin 4) q))) + absE (x (ix2 p (2 : Fin 4)) - y (ix2 (2 : Fin 4) q)) := by
  rw [← spreadColOf_apply x 0 slices_S320x4_o0_0_S320x1 p q 0 rfl, ← spreadColOf_apply x 1 slices_S320x4_o0_1_S320x1 p q 1 rfl,
    ← spreadColOf_apply x 2 slices_S320x4_o0_2_S320x1 p q 2 rfl, ← spreadRowOf_apply y 0 slices_S4x1600_o0_0_S1x1600 p q 0 rfl,
    ← spreadRowOf_apply y 1 slices_S4x1600_o1_0_S1x1600 p q 1 rfl, ← spreadRowOf_apply y 2 slices_S4x1600_o2_0_S1x1600 p q 2 rfl]
  have e3 : k0_pay3 x = x := pay3_eq x
  have e4 : k0_pay4 y = y := pay4_eq y
  unfold k0_pay5
  rw [e3, e4]
  rfl

theorem pay6_apply (y : FVec Ideal S4x1600 .f32) (q : Fin 1600) :
    k0_pay6 y (ix2 (0 : Fin 1) q) = y (ix2 (3 : Fin 4) q) :=
  (row_apply (k0_pay4 y) 3 slices_S4x1600_o3_0_S1x1600 3 q rfl).trans (by rw [pay4_eq])

theorem pay7_apply (x : FVec Ideal S320x4 .f32) (p : Fin 320) (q : Fin 1600) :
    k0_pay7 x (ix2 p q) = x (ix2 p (3 : Fin 4)) :=
  (spreadColOf_apply (k0_pay3 x) 3 slices_S320x4_o0_3_S320x1 p q 3 rfl).trans (by rw [pay3_eq])

/-- The fourth coordinate's share, added to what is summed so far. -/
theorem pay8_apply (s : FVec Ideal S320x1600 .f32) (r : FVec Ideal S1x1600 .f32) (c : FVec Ideal S320x1600 .f32)
    (p : Fin 320) (q : Fin 1600) :
    k0_pay8 (F := Ideal) s r c (ix2 p q) = s (ix2 p q) + absE (c (ix2 p q) - r (ix2 (0 : Fin 1) q)) := by
  rw [← spreadRow_apply r broadcasts_S1x1600_S320x1600 p q]; rfl

theorem l1_apply (x : FVec Ideal S320x4 .f32) (y : FVec Ideal S4x1600 .f32) (p : Fin 320) (q : Fin 1600) :
    k0_pay8 (F := Ideal) (k0_pay5 x y) (k0_pay6 y) (k0_pay7 x) (ix2 p q) = l1 (fun c => x (ix2 p c)) (fun c => y (ix2 c q)) := by
  rw [pay8_apply, pay5_apply, pay6_apply, pay7_apply]; rfl

/-! ## The softmax of a row of logits -/

/-- A per-row value put back over the row's 91 entries (as a one-entry column, then spread along the row). -/
theorem keep_apply (v : FVec Ideal S320 .f32) (p : Fin 320) (k : Fin 91) :
    broadcastTo S320x91 (shapeCast S320x1 v shapeCasts_S320_S320x1) broadcasts_S320x1_S320x91 (ix2 p k) = v (ix1 p) :=
  (Cert.LibColumn.broadcastTo_a1_ab_apply _ _ p k).trans (Cert.LibColumn.shapeCast_a_a1_apply v _ p 0)

/-- The row maximum of the block. -/
theorem rowMax_apply (x : FVec Ideal S320x91 .f32) (p : Fin 320) :
    multiReduction (F := Ideal) .maximumf [1] S320 x 0xFF800000#32 reduces_S320x91_S320 (.inl rfl) rfl (ix1 p)
      = rowMax (fun k => x (ix2 p k)) :=
  Cert.LibColumn.maxAxis1_apply x 0xFF800000#32 reduces_S320x91_S320 (.inl rfl) rfl p

/-- The shifted exponentials of the block. -/
def shifted (x : FVec Ideal S320x91 .f32) : FVec Ideal S320x91 .f32 :=
  exp (subf x (broadcastTo S320x91 (shapeCast S320x1
    (multiReduction (F := Ideal) .maximumf [1] S320 x 0xFF800000#32 reduces_S320x91_S320 (.inl rfl) rfl)
    shapeCasts_S320_S320x1) broadcasts_S320x1_S320x91))

theorem shifted_apply (x : FVec Ideal S320x91 .f32) (p : Fin 320) (k : Fin 91) :
    shifted x (ix2 p k) = expo (fun k => x (ix2 p k)) k := by
  show Ideal.exp (x (ix2 p k) - broadcastTo S320x91 (shapeCast S320x1
    (multiReduction (F := Ideal) .maximumf [1] S320 x 0xFF800000#32 reduces_S320x91_S320 (.inl rfl) rfl)
    shapeCasts_S320_S320x1) broadcasts_S320x1_S320x91 (ix2 p k)) = _
  rw [keep_apply, rowMax_apply]; rfl

/-- The row sums of the shifted exponentials. -/
theorem rowSum_apply (x : FVec Ideal S320x91 .f32) (p : Fin 320) :
    multiReduction (F := Ideal) .add [1] S320 (shifted x) 0x00000000#32 reduces_S320x91_S320 (.inl rfl) rfl (ix1 p)
      = ∑ j : Fin 91, expo (fun k => x (ix2 p k)) j :=
  (Cert.LibColumn.sumAxis1_apply (shifted x) 0x00000000#32 reduces_S320x91_S320 (.inl rfl) rfl p).trans
    (Finset.sum_congr rfl fun j _ => shifted_apply x p j)

/-- The softmax probabilities of the block. -/
def soft (x : FVec Ideal S320x91 .f32) : FVec Ideal S320x91 .f32 :=
  divf (shifted x) (broadcastTo S320x91 (shapeCast S320x1
    (multiReduction (F := Ideal) .add [1] S320 (shifted x) 0x00000000#32 reduces_S320x91_S320 (.inl rfl) rfl)
    shapeCasts_S320_S320x1) broadcasts_S320x1_S320x91)

theorem soft_apply (x : FVec Ideal S320x91 .f32) (p : Fin 320) (k : Fin 91) :
    soft x (ix2 p k) = prob (fun k => x (ix2 p k)) k := by
  show Ideal.div (shifted x (ix2 p k)) (broadcastTo S320x91 (shapeCast S320x1
    (multiReduction (F := Ideal) .add [1] S320 (shifted x) 0x00000000#32 reduces_S320x91_S320 (.inl rfl) rfl)
    shapeCasts_S320_S320x1) broadcasts_S320x1_S320x91 (ix2 p k)) = _
  rw [keep_apply, rowSum_apply, shifted_apply]; rfl

/-! ## The product with the class-indicator block: a sum over the 91 classes -/

/-- The dimension numbers of the product: rows by classes times classes by columns. -/
abbrev dotD : DotDims S320x91 S91x1600 S320x1600 := dot_S320x91_S91x1600_S320x1600_1_0_0_1_n_n

theorem lhs_dot_0 (j : S320x1600.Idx) (k : dot_S320x91_S91x1600_S320x1600_1_0_0_1_n_n.contr.Idx) :
    ((dot_S320x91_S91x1600_S320x1600_1_0_0_1_n_n.lhsIdx j k 0 : Fin 320) : ℕ) = (j 0).val := by
  simp [DotDims.lhsIdx, dot_S320x91_S91x1600_S320x1600_1_0_0_1_n_n]; rfl

theorem lhs_dot_1 (j : S320x1600.Idx) (k : dot_S320x91_S91x1600_S320x1600_1_0_0_1_n_n.contr.Idx) :
    ((dot_S320x91_S91x1600_S320x1600_1_0_0_1_n_n.lhsIdx j k 1 : Fin 91) : ℕ) = (k ⟨0, by decide⟩).val :=
  dot_S320x91_S91x1600_S320x1600_1_0_0_1_n_n.lhsIdx_val_of_single rfl j k

theorem rhs_dot_0 (j : S320x1600.Idx) (k : dot_S320x91_S91x1600_S320x1600_1_0_0_1_n_n.contr.Idx) :
    ((dot_S320x91_S91x1600_S320x1600_1_0_0_1_n_n.rhsIdx j k 0 : Fin 91) : ℕ) = (k ⟨0, by decide⟩).val :=
  dot_S320x91_S91x1600_S320x1600_1_0_0_1_n_n.rhsIdx_val_of_single rfl j k

theorem rhs_dot_1 (j : S320x1600.Idx) (k : dot_S320x91_S91x1600_S320x1600_1_0_0_1_n_n.contr.Idx) :
    ((dot_S320x91_S91x1600_S320x1600_1_0_0_1_n_n.rhsIdx j k 1 : Fin 1600) : ℕ) = (j 1).val := by
  simp [DotDims.rhsIdx, dot_S320x91_S91x1600_S320x1600_1_0_0_1_n_n]; rfl

/-- The left operand's index at output `(p, q)` and class `k` is `(p, k)`. -/
theorem lhs_dot_eq (p : Fin 320) (q : Fin 1600) (k : Fin 91) :
    dotD.lhsIdx (ix2 p q) ((contrEquiv1 dotD 91 rfl rfl).symm k) = ix2 p k := by
  funext a; apply Fin.ext
  match a with
  | ⟨0, _⟩ => exact lhs_dot_0 _ _
  | ⟨1, _⟩ => exact (lhs_dot_1 _ _).trans (contrEquiv1_symm_val dotD 91 rfl rfl k)

/-- The right operand's index at output `(p, q)` and class `k` is `(k, q)`. -/
theorem rhs_dot_eq (p : Fin 320) (q : Fin 1600) (k : Fin 91) :
    dotD.rhsIdx (ix2 p q) ((contrEquiv1 dotD 91 rfl rfl).symm k) = ix2 k q := by
  funext a; apply Fin.ext
  match a with
  | ⟨0, _⟩ => exact (rhs_dot_0 _ _).trans (contrEquiv1_symm_val dotD 91 rfl rfl k)
  | ⟨1, _⟩ => exact rhs_dot_1 _ _

/-- The product into a zero accumulator, at `(p, q)`: the sum over the classes of the row's entry times the column's. -/
theorem dot_apply (l : FVec Ideal S320x91 .bf16) (r : FVec Ideal S91x1600 .bf16) (p : Fin 320) (q : Fin 1600) :
    matmul dotD none l r (constant (F := Ideal) S320x1600 .f32 0x00000000#32) (ix2 p q)
      = ∑ k : Fin 91, l (ix2 p k) * r (ix2 k q) := by
  refine (Ideal.matmul_constant_zero_apply dotD none l r (ix2 p q)).trans ?_
  rw [← Equiv.sum_comp (contrEquiv1 dotD 91 rfl rfl).symm]
  exact Finset.sum_congr rfl fun k _ => by rw [lhs_dot_eq, rhs_dot_eq]

/-- The class term at `(p, q)`: zero minus the sum over the classes of the row's softmax times the indicator column. -/
theorem pay2_apply (x : FVec Ideal S320x91 .f32) (w : FVec Ideal S91x1600 .bf16) (p : Fin 320) (q : Fin 1600) :
    k0_pay2 (F := Ideal) x w (ix2 p q) = lit 0x00000000#32 - ∑ k : Fin 91, prob (fun k => x (ix2 p k)) k * w (ix2 k q) := by
  have e : k0_pay2 x w
      = subf (broadcast S320x1600 (Scalar.ofBits (F := Ideal) .f32 0x00000000#32))
          (matmul dotD none (truncf .bf16 (soft (shapeCast S320x91 x shapeCasts_S320x91_S320x91)) bitsLt_bf16_f32)
            (shapeCast S91x1600 w shapeCasts_S91x1600_S91x1600) (constant (F := Ideal) S320x1600 .f32 0x00000000#32)) := rfl
  rw [e, shapeCast_self, shapeCast_self]
  show lit 0x00000000#32 - matmul dotD none (truncf .bf16 (soft x) bitsLt_bf16_f32) w
    (constant (F := Ideal) S320x1600 .f32 0x00000000#32) (ix2 p q) = _
  rw [dot_apply]
  exact congrArg (lit 0x00000000#32 - ·) (Finset.sum_congr rfl fun k _ => by
    rw [show truncf .bf16 (soft x) bitsLt_bf16_f32 (ix2 p k) = soft x (ix2 p k) from rfl, soft_apply])

/-! ## The weighted sum and the replacement of the non-finite outcomes -/

theorem pay30_apply (v : FVec Ideal S320x1600 .f32) (i : S320x1600.Idx) :
    k0_pay30 (F := Ideal) v i = lit 0x3F800000#32 * v i := rfl

theorem pay31_apply (i : S320x1600.Idx) : k0_pay31 (F := Ideal) i = lit 0x40A00000#32 := rfl

theorem pay1_apply (s g c w : FVec Ideal S320x1600 .f32) (i : S320x1600.Idx) :
    k0_pay1 (F := Ideal) s g c w i = nan2num ((c i + w i * s i) + lit 0x40000000#32 * g i) := rfl

/-- The offsets of the whole-block rectangles are zero on both axes. -/
theorem offsets_zero : (![0, 0] : Fin 2 → Nat) = fun _ => 0 := funext fun a => by fin_cases a <;> rfl

/-- Entry (p, q) of the block the body leaves in the output window: the pair cost of logits row `p`, the class
    indicator column `q`, query box row `p` and target box column `q` of the four input blocks. -/
theorem payload_apply (x0 : Vec Ideal S320x91 .f32) (x1 : Vec Ideal S320x4 .f32) (x2 : Vec Ideal S4x1600 .f32)
    (x3 : Vec Ideal S91x1600 .bf16) (p : Fin 320) (q : Fin 1600) :
    Cert.KernelIdeal.Gen.out0_4 (F := Ideal) x0 x1 x2 x3 (ix2 p q)
      = cost (fun k => x0 (ix2 p k)) (fun k => x3 (ix2 k q)) (fun c => x1 (ix2 p c)) (fun c => x2 (ix2 c q)) := by
  unfold Cert.KernelIdeal.Gen.out0_4
  rw [View.canon_unit_zero offsets_zero]
  simp only [View.ld_unit_zero (S := S320x91) offsets_zero, View.ld_unit_zero (S := S91x1600) offsets_zero,
    View.ld_unit_zero (S := S320x4) offsets_zero, View.ld_unit_zero (S := S4x1600) offsets_zero]
  rw [pay3_eq, pay4_eq, pay1_apply, l1_apply, pay29_apply, pay30_apply, pay2_apply, pay31_apply, pay15_apply, pay16_apply,
    pay17_apply, pay18_apply, pay23_apply, pay24_apply, pay25_apply, pay26_apply, pay27_apply, pay28_apply]
  rfl

end Cert.KernelValue

end
-- ==== Proof.KernelArray.lean ====
/-
  The idealized kernel's run ends with its result array at the cost array of the specification.
-/
import proofs.«428247_j86973087744537_1_alg».proof.Proof.KernelPayload

noncomputable section

namespace Cert.KernelValue

open Idealize.ShloMosaic Idealize.ShloMosaic.TcCoe Idealize.ShloMosaic.ValueIdx Idealize.SL.Sem Cert.KernelIdeal Cert.MatchCost
open Cert.KernelIdeal.Gen

section Readings

variable (m : (ℓ : Loc nD τ sig) → Buf (Elt Ideal) ℓ)

/-- The pair cost depends on its four rows only through their entries. -/
theorem cost_ext {l l' oh oh' : Fin 91 → EReal} {b b' t t' : Fin 4 → EReal}
    (hl : ∀ k, l k = l' k) (ho : ∀ k, oh k = oh' k) (hb : ∀ c, b c = b' c) (ht : ∀ c, t c = t' c) :
    cost l oh b t = cost l' oh' b' t' := by
  obtain rfl : l = l' := funext hl
  obtain rfl : oh = oh' := funext ho
  obtain rfl : b = b' := funext hb
  obtain rfl : t = t' := funext ht
  rfl

/-! ## The arrays the region finds -/

/-- The flattened logits: the [16, 900, 91] argument cast to [14400, 91]. -/
theorem entry_logits (c : Dev nD) :
    (V m c main_v0 : S14400x91.Idx → EReal)
      = shapeCast S14400x91 (m ((c : Thread nD τ).loc main_arg0) : S16x900x91.Idx → EReal) shapeCasts_S16x900x91_S14400x91 := by
  show StableHlo.after hostOps0 (fun b => m (c, b)) (Proc.devRef .tc main_v0) = _
  after_results
  rfl

/-- The flattened boxes: the [16, 900, 4] argument cast to [14400, 4]. -/
theorem entry_boxes (c : Dev nD) :
    (V m c main_v1 : S14400x4.Idx → EReal)
      = shapeCast S14400x4 (m ((c : Thread nD τ).loc main_arg1) : S16x900x4.Idx → EReal) shapeCasts_S16x900x4_S14400x4 := by
  show StableHlo.after hostOps0 (fun b => m (c, b)) (Proc.devRef .tc main_v1) = _
  after_results
  rfl

/-- The target boxes transposed to [4, 1600]. -/
theorem entry_targets (c : Dev nD) :
    (V m c main_v2 : S4x1600.Idx → EReal)
      = transpose S4x1600 [1, 0] (m ((c : Thread nD τ).loc main_arg3) : S1600x4.Idx → EReal) transposes_S1600x4_S4x1600_1_0 := by
  show StableHlo.after hostOps0 (fun b => m (c, b)) (Proc.devRef .tc main_v2) = _
  after_results

/-- The class indicator array: the class index along the rows compared with the target's class id along the columns. -/
theorem entry_indicator (c : Dev nD) :
    (V m c main_v9 : S91x1600.Idx → EReal)
      = uitofp (F := Ideal) .bf16 (cmpi .eq
          (broadcastInDim S91x1600 ![0, 1] bcast_S91x1_S91x1600_0_1 (broadcastInDim S91x1 ![0] bcast_S91_S91x1_0 (iotaInDim S91 32 0)))
          (broadcastInDim S91x1600 ![0, 1] bcast_S1x1600_S91x1600_0_1 (broadcastInDim S1x1600 ![1] bcast_S1600_S1x1600_1
            (m ((c : Thread nD τ).loc main_arg2) : S1600.Idx → BitVec 32)))) := by
  show StableHlo.after hostOps0 (fun b => m (c, b)) (Proc.devRef .tc main_v9) = _
  after_results

/-- Row `900 b + q` of the flattened logits is row `(b, q)` of the argument. -/
theorem logits_apply (c : Dev nD) (b : Fin 16) (q : Fin 900) (r : Fin 14400) (hr : r.val = 900 * b.val + q.val) (k : Fin 91) :
    (V m c main_v0 : S14400x91.Idx → EReal) (ix2 r k)
      = (m ((c : Thread nD τ).loc main_arg0) : S16x900x91.Idx → EReal) (ix3 b q k) := by
  rw [entry_logits]
  refine shapeCast_apply _ _ (ix2 r k) (ix3 b q k) ?_
  rw [Shape.rowMajor_val_two, Shape.rowMajor_val_three]
  show (b.val * 900 + q.val) * 91 + k.val = r.val * 91 + k.val
  omega

/-- Row `900 b + q` of the flattened boxes is row `(b, q)` of the argument. -/
theorem boxes_apply (c : Dev nD) (b : Fin 16) (q : Fin 900) (r : Fin 14400) (hr : r.val = 900 * b.val + q.val) (k : Fin 4) :
    (V m c main_v1 : S14400x4.Idx → EReal) (ix2 r k)
      = (m ((c : Thread nD τ).loc main_arg1) : S16x900x4.Idx → EReal) (ix3 b q k) := by
  rw [entry_boxes]
  refine shapeCast_apply _ _ (ix2 r k) (ix3 b q k) ?_
  rw [Shape.rowMajor_val_two, Shape.rowMajor_val_three]
  show (b.val * 900 + q.val) * 4 + k.val = r.val * 4 + k.val
  omega

/-- Entry `(a, n)` of the transposed target boxes is coordinate `a` of target `n`. -/
theorem targets_apply (c : Dev nD) (a : Fin 4) (n : Fin 1600) :
    (V m c main_v2 : S4x1600.Idx → EReal) (ix2 a n)
      = (m ((c : Thread nD τ).loc main_arg3) : S1600x4.Idx → EReal) (ix2 n a) := by
  rw [entry_targets]
  exact transpose_ix2_apply _ _ a n

/-- Entry `(k, n)` of the indicator array is the indicator that class `k` is target `n`'s class id. -/
theorem indicator_apply (c : Dev nD) (k : Fin 91) (n : Fin 1600) :
    (V m c main_v9 : S91x1600.Idx → EReal) (ix2 k n)
      = onehot ((m ((c : Thread nD τ).loc main_arg2) : S1600.Idx → BitVec 32) (ix1 n)) k := by
  rw [entry_indicator]
  have hA : broadcastInDim S91x1600 ![0, 1] bcast_S91x1_S91x1600_0_1 (broadcastInDim S91x1 ![0] bcast_S91_S91x1_0 (iotaInDim S91 32 0)) (ix2 k n)
      = BitVec.ofNat 32 k.val :=
    (broadcastInDim_apply ![0, 1] bcast_S91x1_S91x1600_0_1 _ (ix2 k n) (ix2 k (0 : Fin 1))
      (fun a => match a with | ⟨0, _⟩ => rfl | ⟨1, _⟩ => rfl)).trans
    ((broadcastInDim_apply ![0] bcast_S91_S91x1_0 _ (ix2 k (0 : Fin 1)) (ix1 k) (fun a => match a with | ⟨0, _⟩ => rfl)).trans
      rfl)
  have hB : broadcastInDim S91x1600 ![0, 1] bcast_S1x1600_S91x1600_0_1 (broadcastInDim S1x1600 ![1] bcast_S1600_S1x1600_1
        (m ((c : Thread nD τ).loc main_arg2) : S1600.Idx → BitVec 32)) (ix2 k n)
      = (m ((c : Thread nD τ).loc main_arg2) : S1600.Idx → BitVec 32) (ix1 n) :=
    (broadcastInDim_apply ![0, 1] bcast_S1x1600_S91x1600_0_1 _ (ix2 k n) (ix2 (0 : Fin 1) n)
      (fun a => match a with | ⟨0, _⟩ => rfl | ⟨1, _⟩ => rfl)).trans
    (broadcastInDim_apply ![1] bcast_S1600_S1x1600_1 _ (ix2 (0 : Fin 1) n) (ix1 n) (fun a => match a with | ⟨0, _⟩ => rfl))
  show FloatOps.uitofp (F := Ideal) .bf16 (IntOp.cmpi .eq _ _) = _
  rw [hA, hB]
  rfl

/-! ## The windows' blocks -/

/-- The windows' index maps over the grid: the three row windows (logits, boxes, result) are at block `t` of the rows at
    point `t`, the two whole-array windows (targets, indicator) at block zero at every point. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row `p` of the logits block at point `t` is row `320 t + p` of the flattened logits. -/
theorem logits_block (c : Dev nD) (t : Fin cfg0.N) (p : Fin 320) (r : Fin 14400) (hr : r.val = 320 * t.val + p.val) (k : Fin 91) :
    (iblk m c 0 t : Vec Ideal S320x91 .f32) (ix2 p k) = (V m c main_v0 : S14400x91.Idx → EReal) (ix2 r k) := by
  obtain ⟨e0, e1, -⟩ := idx_facts t
  show (V m c main_v0 : S14400x91.Idx → EReal) (((cfg0.win 0).blk t).view.emb (ix2 p k)) = _
  refine congrArg (V m c main_v0 : S14400x91.Idx → EReal) (funext fun a => Fin.ext ?_)
  match a with
  | ⟨0, _⟩ => show win0_0.index t (0 : Fin 2) * 320 + 1 * p.val = r.val; omega
  | ⟨1, _⟩ => show win0_0.index t (1 : Fin 2) * 91 + 1 * k.val = k.val; omega

/-- Row `p` of the boxes block at point `t` is row `320 t + p` of the flattened boxes. -/
theorem boxes_block (c : Dev nD) (t : Fin cfg0.N) (p : Fin 320) (r : Fin 14400) (hr : r.val = 320 * t.val + p.val) (k : Fin 4) :
    (iblk m c 1 t : Vec Ideal S320x4 .f32) (ix2 p k) = (V m c main_v1 : S14400x4.Idx → EReal) (ix2 r k) := by
  obtain ⟨-, -, e0, e1, -⟩ := idx_facts t
  show (V m c main_v1 : S14400x4.Idx → EReal) (((cfg0.win 1).blk t).view.emb (ix2 p k)) = _
  refine congrArg (V m c main_v1 : S14400x4.Idx → EReal) (funext fun a => Fin.ext ?_)
  match a with
  | ⟨0, _⟩ => show win0_1.index t (0 : Fin 2) * 320 + 1 * p.val = r.val; omega
  | ⟨1, _⟩ => show win0_1.index t (1 : Fin 2) * 4 + 1 * k.val = k.val; omega

/-- The target window's block is the whole transposed array at every point. -/
theorem targets_block (c : Dev nD) (t : Fin cfg0.N) (a : Fin 4) (n : Fin 1600) :
    (iblk m c 2 t : Vec Ideal S4x1600 .f32) (ix2 a n) = (V m c main_v2 : S4x1600.Idx → EReal) (ix2 a n) := by
  obtain ⟨-, -, -, -, e0, e1, -⟩ := idx_facts t
  show (V m c main_v2 : S4x1600.Idx → EReal) (((cfg0.win 2).blk t).view.emb (ix2 a n)) = _
  refine congrArg (V m c main_v2 : S4x1600.Idx → EReal) (funext fun d => Fin.ext ?_)
  match d with
  | ⟨0, _⟩ => show win0_2.index t (0 : Fin 2) * 4 + 1 * a.val = a.val; omega
  | ⟨1, _⟩ => show win0_2.index t (1 : Fin 2) * 1600 + 1 * n.val = n.val; omega

/-- The indicator window's block is the whole indicator array at every point. -/
theorem indicator_block (c : Dev nD) (t : Fin cfg0.N) (k : Fin 91) (n : Fin 1600) :
    (iblk m c 3 t : Vec Ideal S91x1600 .bf16) (ix2 k n) = (V m c main_v9 : S91x1600.Idx → EReal) (ix2 k n) := by
  obtain ⟨-, -, -, -, -, -, e0, e1, -⟩ := idx_facts t
  show (V m c main_v9 : S91x1600.Idx → EReal) (((cfg0.win 3).blk t).view.emb (ix2 k n)) = _
  refine congrArg (V m c main_v9 : S91x1600.Idx → EReal) (funext fun d => Fin.ext ?_)
  match d with
  | ⟨0, _⟩ => show win0_3.index t (0 : Fin 2) * 91 + 1 * k.val = k.val; omega
  | ⟨1, _⟩ => show win0_3.index t (1 : Fin 2) * 1600 + 1 * n.val = n.val; omega

/-! ## What a point writes back, and the array after the run -/

/-- The cost array over the flattened queries: of the flattened logits and boxes the region finds, and of the class ids
    and target boxes as launched (the indicator and the transposed targets are functions of those two). -/
abbrev flatCost (c : Dev nD) : S14400x1600.Idx → EReal :=
  Gflat (V m c main_v0) (V m c main_v1) (m ((c : Thread nD τ).loc main_arg2)) (m ((c : Thread nD τ).loc main_arg3))

/-- Entry `(p, q)` of the block point `t` leaves is the pair cost of flattened query `320 t + p` and target `q`. -/
theorem block_entry (c : Dev nD) (t : Fin cfg0.N) (p : Fin 320) (q : Fin 1600) (r : Fin 14400) (hr : r.val = 320 * t.val + p.val) :
    out0_4 (F := Ideal) (iblk m c 0 t) (iblk m c 1 t) (iblk m c 2 t) (iblk m c 3 t) (ix2 p q) = flatCost m c (ix2 r q) := by
  refine (payload_apply (iblk m c 0 t) (iblk m c 1 t) (iblk m c 2 t) (iblk m c 3 t) p q).trans ?_
  exact cost_ext (fun k => logits_block m c t p r hr k)
    (fun k => (indicator_block m c t k q).trans (indicator_apply m c k q))
    (fun a => boxes_block m c t p r hr a)
    (fun a => (targets_block m c t a q).trans (targets_apply m c a q))

/-- The block point `t` leaves, as one function of its coordinates: row `p` is flattened query `320 t + p`. -/
theorem block_eq (c : Dev nD) (t : Fin cfg0.N) (ht : t.val < 45) :
    out0_4 (F := Ideal) (iblk m c 0 t) (iblk m c 1 t) (iblk m c 2 t) (iblk m c 3 t)
      = fun y : S320x1600.Idx => flatCost m c (ix2 (⟨320 * t.val + (y 0).val, by have := idx2_lt0 y; omega⟩ : Fin 14400) (y 1)) := by
  funext y
  obtain ⟨p, q, rfl⟩ : ∃ (p : Fin 320) (q : Fin 1600), y = ix2 p q := ⟨y 0, y 1, eq_ix2 y⟩
  exact block_entry m c t p q _ rfl

/-- What point `t` writes back is block `t` of the flattened cost array: the block's row `p` sits at row `320 t + p` of
    the array and its columns at the array's columns. -/
theorem flushed_eq (c : Dev nD) (t : Fin cfg0.N) :
    (dats m 0 c).flushed 4 t = ((cfg0.win 4).blk t).view.read (Elt Ideal) (flatCost m c) := by
  have ht : t.val < 45 := lt_of_lt_of_eq t.isLt N_0
  obtain ⟨-, -, -, -, -, -, -, -, e0, e1⟩ := idx_facts t
  show (cfg0.win 4).cut (grid0.coords t) ((dats m 0 c).after 4 t) = _
  rw [after0_4, block_eq m c t ht]
  funext j
  rw [View.read_apply, cast_eq]
  show flatCost m c _ = _
  refine congrArg (flatCost m c) (funext fun a => Fin.ext ?_)
  match a with
  | ⟨0, _⟩ => show 320 * t.val + (j 0).val = win0_4.index t (0 : Fin 2) * 320 + 1 * (j 0).val; omega
  | ⟨1, _⟩ => show (j 1).val = win0_4.index t (1 : Fin 2) * 1600 + 1 * (j 1).val; omega

/-- An index of the result array is in point `t`'s block iff each coordinate is in the block's range on its axis. -/
theorem mem_blk (t : Fin cfg0.N) (i : S14400x1600.Idx) :
    i ∈ ((cfg0.win 4).blk t).view.set ↔ ∀ a : Fin 2, win0_4.index t a * S320x1600.size a ≤ (i a).val ∧ (i a).val < win0_4.index t a * S320x1600.size a + S320x1600.size a := by
  show i ∈ ((View.whole main_v10).slice (win0_4.rect t)).set ↔ _
  rw [View.set_slice_whole, Rect.mem_set_unit]
  exact Iff.rfl

/-- Every index of the result array is in some point's block: row `r` in the block of point `r / 320`. -/
theorem cover (i : S14400x1600.Idx) : ∃ t : Fin cfg0.N, (cfg0.win 4).flush t = true ∧ i ∈ ((cfg0.win 4).blk t).view.set := by
  have hi0 : (i 0).val < 14400 := (i 0).isLt
  have hi1 : (i 1).val < 1600 := (i 1).isLt
  have hN : cfg0.N = 45 := N_0
  have hlt : (i 0).val / 320 < cfg0.N := by rw [hN]; omega
  obtain ⟨-, -, -, -, -, -, -, -, e0, e1⟩ := idx_facts ⟨(i 0).val / 320, hlt⟩
  refine ⟨⟨(i 0).val / 320, hlt⟩, flush0_4 _, ?_⟩
  rw [mem_blk]
  intro a
  match a with
  | ⟨0, _⟩ =>
    show win0_4.index ⟨(i 0).val / 320, hlt⟩ (0 : Fin 2) * 320 ≤ (i 0).val ∧ (i 0).val < win0_4.index ⟨(i 0).val / 320, hlt⟩ (0 : Fin 2) * 320 + 320
    rw [e0]; show (i 0).val / 320 * 320 ≤ (i 0).val ∧ (i 0).val < (i 0).val / 320 * 320 + 320; omega
  | ⟨1, _⟩ =>
    show win0_4.index ⟨(i 0).val / 320, hlt⟩ (1 : Fin 2) * 1600 ≤ (i 1).val ∧ (i 1).val < win0_4.index ⟨(i 0).val / 320, hlt⟩ (1 : Fin 2) * 1600 + 1600
    rw [e1]; omega

/-- The result window's array after the run is the flattened cost array. -/
theorem final (c : Dev nD) : (dats m 0 c).arrAt 4 cfg0.N = flatCost m c :=
  (dats m 0 c).arrAt_eq_of_cover 4 (flatCost m c) (fun t _ => flushed_eq m c t) cover

/-! ## The reshape after the region -/

/-- The flattened cost array cast to [16, 900, 1600] is the specification's cost array: flattened query `900 b + q` is
    query `q` of batch `b`. -/
theorem unflatten (c : Dev nD) :
    shapeCast S16x900x1600 (flatCost m c) shapeCasts_S14400x1600_S16x900x1600
      = G (m ((c : Thread nD τ).loc main_arg0)) (m ((c : Thread nD τ).loc main_arg1))
          (m ((c : Thread nD τ).loc main_arg2)) (m ((c : Thread nD τ).loc main_arg3)) := by
  funext j
  obtain ⟨b, q, n, rfl⟩ : ∃ (b : Fin 16) (q : Fin 900) (n : Fin 1600), j = ix3 b q n := ⟨j 0, j 1, j 2, eq_ix3 j⟩
  have hb := b.isLt
  have hq := q.isLt
  rw [shapeCast_apply (flatCost m c) shapeCasts_S14400x1600_S16x900x1600 (ix3 b q n) (ix2 (⟨900 * b.val + q.val, by omega⟩ : Fin 14400) n) (by
    rw [Shape.rowMajor_val_two, Shape.rowMajor_val_three]
    show (900 * b.val + q.val) * 1600 + n.val = (b.val * 900 + q.val) * 1600 + n.val
    omega)]
  exact cost_ext (fun k => logits_apply m c b q _ rfl k) (fun k => rfl) (fun a => boxes_apply m c b q _ rfl a) (fun a => rfl)

/-- The result array after the lines that follow the region. -/
theorem result_eq (c : Dev nD) :
    Pipeline.afterTail₀ cfgs (dats m) 0 (V0 m) [hostOps1] c main_v11
      = G (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v11) = _
  after_results
  have hw : (Pipeline.withArrays (cfgs 0).spec c (V0 m c) (fun w => (dats m 0 c).arrAt w (cfgs 0).N) (Proc.devRef .tc main_v10) : S14400x1600.Idx → EReal)
      = flatCost m c :=
    (Pipeline.withArrays_arr spec0 launch0.win.arr_inj c (V0 m c) (fun w => (dats m 0 c).arrAt w cfg0.N) 4).trans (final m c)
  rw [hw]
  exact unflatten m c

end Readings

/-- Every weakly fair execution of the idealized kernel's @main terminates with the result at the specification's
    cost array of the arguments, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v11)
          = G (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  exact (θ_run defs _ _).mono (fun r h c =>
    ⟨((h c).2 main_v11 (Pipeline.mem_restRefs_of main_v11 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelValue

end
-- ==== Proof.RefOps.lean ====
/- The reference's @main as lists of host operations: one list per printed window of @main (ops0, ops1, ...) and the
   whole (ops), in program order; an outlined function's operations stand at its call site, over that call's buffer
   record. With each list, the fact that every buffer an operation touches is a TensorCore reference. -/
import proofs.«428247_j86973087744537_1_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- Window 0 of @main: 65 operations. -/
abbrev ops0 : List (HloOp τ sig (Elt F)) :=
  [ reshape main_arg0 main_v0 rfl shapeCasts_S16x900x91_S14400x91,
    nullary main_cst (constant S_ .f32 0xFF800000#32),
    binary main_v0 main_cst main_v1 ((fun x v => Host.reduce FloatOps.maximumf x v reducesTo_S14400x91_S14400_d1 h_S_) : (⟨S14400x91, .f32⟩ : BufTy).Contents (Elt F) → (⟨S_, .f32⟩ : BufTy).Contents (Elt F) → (⟨S14400, .f32⟩ : BufTy).Contents (Elt F)),
    nullary main_cst_0 (constant S_ .f32 0xFF800000#32),
    unary main_cst_0 main_v2 (broadcastInDim S14400 ![] bcast_S_S14400 : (⟨S_, .f32⟩ : BufTy).Contents (Elt F) → (⟨S14400, .f32⟩ : BufTy).Contents (Elt F)),
    binary main_v2 main_v1 main_v3 (maximumf : (⟨S14400, .f32⟩ : BufTy).Contents (Elt F) → (⟨S14400, .f32⟩ : BufTy).Contents (Elt F) → (⟨S14400, .f32⟩ : BufTy).Contents (Elt F)),
    unary main_v3 main_v4 (broadcastInDim S14400x1 ![0] bcast_S14400_S14400x1_0 : (⟨S14400, .f32⟩ : BufTy).Contents (Elt F) → (⟨S14400x1, .f32⟩ : BufTy).Contents (Elt F)),
    unary main_v4 main_v5 (broadcastInDim S14400x91 ![0, 1] bcast_S14400x1_S14400x91_0_1 : (⟨S14400x1, .f32⟩ : BufTy).Contents (Elt F) → (⟨S14400x91, .f32⟩ : BufTy).Contents (Elt F)),
    binary main_v0 main_v5 main_v6 (subf : (⟨S14400x91, .f32⟩ : BufTy).Contents (Elt F) → (⟨S14400x91, .f32⟩ : BufTy).Contents (Elt F) → (⟨S14400x91, .f32⟩ : BufTy).Contents (Elt F)),
    unary main_v6 main_v7 (Host.exp : (⟨S14400x91, .f32⟩ : BufTy).Contents (Elt F) → (⟨S14400x91, .f32⟩ : BufTy).Contents (Elt F)),
    nullary main_cst_1 (constant S_ .f32 0x00000000#32),
    binary main_v7 main_cst_1 main_v8 ((fun x v => Host.reduceAdd x v reducesTo_S14400x91_S14400_d1 h_S_) : (⟨S14400x91, .f32⟩ : BufTy).Contents (Elt F) → (⟨S_, .f32⟩ : BufTy).Contents (Elt F) → (⟨S14400, .f32⟩ : BufTy).Contents (Elt F)),
    unary main_v8 main_v9 (broadcastInDim S14400x1 ![0] bcast_S14400_S14400x1_0 : (⟨S14400, .f32⟩ : BufTy).Contents (Elt F) → (⟨S14400x1, .f32⟩ : BufTy).Contents (Elt F)),
    unary main_v9 main_v10 (broadcastInDim S14400x91 ![0, 1] bcast_S14400x1_S14400x91_0_1 : (⟨S14400x1, .f32⟩ : BufTy).Contents (Elt F) → (⟨S14400x91, .f32⟩ : BufTy).Contents (Elt F)),
    binary main_v7 main_v10 main_v11 (Host.divf : (⟨S14400x91, .f32⟩ : BufTy).Contents (Elt F) → (⟨S14400x91, .f32⟩ : BufTy).Contents (Elt F) → (⟨S14400x91, .f32⟩ : BufTy).Contents (Elt F)),
    reshape main_arg1 main_v12 rfl shapeCasts_S16x900x4_S14400x4,
    nullary main_c (constantI S_ 32 0#32),
    unary main_c main_v13 (broadcastInDim S1600 ![] bcast_S_S1600 : (⟨S_, .i32⟩ : BufTy).Contents (Elt F) → (⟨S1600, .i32⟩ : BufTy).Contents (Elt F)),
    binary main_arg2 main_v13 main_v14 (cmpi .slt : (⟨S1600, .i32⟩ : BufTy).Contents (Elt F) → (⟨S1600, .i32⟩ : BufTy).Contents (Elt F) → (⟨S1600, .i1⟩ : BufTy).Contents (Elt F)),
    nullary main_c_2 (constantI S_ 32 91#32),
    unary main_c_2 main_v15 (broadcastInDim S1600 ![] bcast_S_S1600 : (⟨S_, .i32⟩ : BufTy).Contents (Elt F) → (⟨S1600, .i32⟩ : BufTy).Contents (Elt F)),
    binary main_arg2 main_v15 main_v16 (addi : (⟨S1600, .i32⟩ : BufTy).Contents (Elt F) → (⟨S1600, .i32⟩ : BufTy).Contents (Elt F) → (⟨S1600, .i32⟩ : BufTy).Contents (Elt F)),
    ternary main_v14 main_v16 main_arg2 main_v17 (select : (⟨S1600, .i1⟩ : BufTy).Contents (Elt F) → (⟨S1600, .i32⟩ : BufTy).Contents (Elt F) → (⟨S1600, .i32⟩ : BufTy).Contents (Elt F) → (⟨S1600, .i32⟩ : BufTy).Contents (Elt F)),
    unary main_v17 main_v18 (broadcastInDim S1600x1 ![0] bcast_S1600_S1600x1_0 : (⟨S1600, .i32⟩ : BufTy).Contents (Elt F) → (⟨S1600x1, .i32⟩ : BufTy).Contents (Elt F)),
    binary main_v11 main_v18 main_v19 ((fun x i => Host.gather gather_S14400x91_S1600x1_S14400x1600_0_1_n_n_1_1_144001 x i) : (⟨S14400x91, .f32⟩ : BufTy).Contents (Elt F) → (⟨S1600x1, .i32⟩ : BufTy).Contents (Elt F) → (⟨S14400x1600, .f32⟩ : BufTy).Contents (Elt F)),
    unary main_v19 main_v20 (Host.negf : (⟨S14400x1600, .f32⟩ : BufTy).Contents (Elt F) → (⟨S14400x1600, .f32⟩ : BufTy).Contents (Elt F)),
    unary main_v12 main_v21 (broadcastInDim S14400x1x4 ![0, 2] bcast_S14400x4_S14400x1x4_0_2 : (⟨S14400x4, .f32⟩ : BufTy).Contents (Elt F) → (⟨S14400x1x4, .f32⟩ : BufTy).Contents (Elt F)),
    unary main_arg3 main_v22 (broadcastInDim S1x1600x4 ![1, 2] bcast_S1600x4_S1x1600x4_1_2 : (⟨S1600x4, .f32⟩ : BufTy).Contents (Elt F) → (⟨S1x1600x4, .f32⟩ : BufTy).Contents (Elt F)),
    unary main_v21 main_v23 (broadcastInDim S14400x1600x4 ![0, 1, 2] bcast_S14400x1x4_S14400x1600x4_0_1_2 : (⟨S14400x1x4, .f32⟩ : BufTy).Contents (Elt F) → (⟨S14400x1600x4, .f32⟩ : BufTy).Contents (Elt F)),
    unary main_v22 main_v24 (broadcastInDim S14400x1600x4 ![0, 1, 2] bcast_S1x1600x4_S14400x1600x4_0_1_2 : (⟨S1x1600x4, .f32⟩ : BufTy).Contents (Elt F) → (⟨S14400x1600x4, .f32⟩ : BufTy).Contents (Elt F)),
    binary main_v23 main_v24 main_v25 (subf : (⟨S14400x1600x4, .f32⟩ : BufTy).Contents (Elt F) → (⟨S14400x1600x4, .f32⟩ : BufTy).Contents (Elt F) → (⟨S14400x1600x4, .f32⟩ : BufTy).Contents (Elt F)),
    unary main_v25 main_v26 (Host.absf : (⟨S14400x1600x4, .f32⟩ : BufTy).Contents (Elt F) → (⟨S14400x1600x4, .f32⟩ : BufTy).Contents (Elt F)),
    nullary main_cst_3 (constant S_ .f32 0x00000000#32),
    binary main_v26 main_cst_3 main_v27 ((fun x v => Host.reduceAdd x v reducesTo_S14400x1600x4_S14400x1600_d2 h_S_) : (⟨S14400x1600x4, .f32⟩ : BufTy).Contents (Elt F) → (⟨S_, .f32⟩ : BufTy).Contents (Elt F) → (⟨S14400x1600, .f32⟩ : BufTy).Contents (Elt F)),
    nullary main_cst_4 (constant S_ .f32 0x00000000#32),
    nullary main_cst_5 (constant S_ .f32 0x3F800000#32),
    TRef.unary (.of main_cst_4) main_call0.v0 id,
    TRef.unary main_call0.v0 main_call0.v1 (broadcastInDim S14400x4 ![] bcast_S_S14400x4),
    TRef.binary main_call0.v1 (.of main_v12) main_call0.v2 maximumf,
    TRef.unary (.of main_cst_5) main_call0.v3 id,
    TRef.unary main_call0.v3 main_call0.v4 (broadcastInDim S14400x4 ![] bcast_S_S14400x4),
    TRef.binary main_call0.v4 main_call0.v2 main_call0.v5 minimumf,
    unary main_v28 main_v29 ((extractStridedSlice S14400x1 ![0, 0] · slices_S14400x4_S14400x1_0_0) : (⟨S14400x4, .f32⟩ : BufTy).Contents (Elt F) → (⟨S14400x1, .f32⟩ : BufTy).Contents (Elt F)),
    reshape main_v29 main_v30 rfl shapeCasts_S14400x1_S14400,
    unary main_v28 main_v31 ((extractStridedSlice S14400x1 ![0, 1] · slices_S14400x4_S14400x1_0_1) : (⟨S14400x4, .f32⟩ : BufTy).Contents (Elt F) → (⟨S14400x1, .f32⟩ : BufTy).Contents (Elt F)),
    reshape main_v31 main_v32 rfl shapeCasts_S14400x1_S14400,
    unary main_v28 main_v33 ((extractStridedSlice S14400x1 ![0, 2] · slices_S14400x4_S14400x1_0_2) : (⟨S14400x4, .f32⟩ : BufTy).Contents (Elt F) → (⟨S14400x1, .f32⟩ : BufTy).Contents (Elt F)),
    reshape main_v33 main_v34 rfl shapeCasts_S14400x1_S14400,
    unary main_v28 main_v35 ((extractStridedSlice S14400x1 ![0, 3] · slices_S14400x4_S14400x1_0_3) : (⟨S14400x4, .f32⟩ : BufTy).Contents (Elt F) → (⟨S14400x1, .f32⟩ : BufTy).Contents (Elt F)),
    reshape main_v35 main_v36 rfl shapeCasts_S14400x1_S14400,
    nullary main_cst_6 (constant S_ .f32 0x3F000000#32),
    unary main_cst_6 main_v37 (broadcastInDim S14400 ![] bcast_S_S14400 : (⟨S_, .f32⟩ : BufTy).Contents (Elt F) → (⟨S14400, .f32⟩ : BufTy).Contents (Elt F)),
    binary main_v37 main_v34 main_v38 (mulf : (⟨S14400, .f32⟩ : BufTy).Contents (Elt F) → (⟨S14400, .f32⟩ : BufTy).Contents (Elt F) → (⟨S14400, .f32⟩ : BufTy).Contents (Elt F)),
    binary main_v30 main_v38 main_v39 (subf : (⟨S14400, .f32⟩ : BufTy).Contents (Elt F) → (⟨S14400, .f32⟩ : BufTy).Contents (Elt F) → (⟨S14400, .f32⟩ : BufTy).Contents (Elt F)),
    nullary main_cst_7 (constant S_ .f32 0x3F000000#32),
    unary main_cst_7 main_v40 (broadcastInDim S14400 ![] bcast_S_S14400 : (⟨S_, .f32⟩ : BufTy).Contents (Elt F) → (⟨S14400, .f32⟩ : BufTy).Contents (Elt F)),
    binary main_v40 main_v36 main_v41 (mulf : (⟨S14400, .f32⟩ : BufTy).Contents (Elt F) → (⟨S14400, .f32⟩ : BufTy).Contents (Elt F) → (⟨S14400, .f32⟩ : BufTy).Contents (Elt F)),
    binary main_v32 main_v41 main_v42 (subf : (⟨S14400, .f32⟩ : BufTy).Contents (Elt F) → (⟨S14400, .f32⟩ : BufTy).Contents (Elt F) → (⟨S14400, .f32⟩ : BufTy).Contents (Elt F)),
    nullary main_cst_8 (constant S_ .f32 0x3F000000#32),
    unary main_cst_8 main_v43 (broadcastInDim S14400 ![] bcast_S_S14400 : (⟨S_, .f32⟩ : BufTy).Contents (Elt F) → (⟨S14400, .f32⟩ : BufTy).Contents (Elt F)),
    binary main_v43 main_v34 main_v44 (mulf : (⟨S14400, .f32⟩ : BufTy).Contents (Elt F) → (⟨S14400, .f32⟩ : BufTy).Contents (Elt F) → (⟨S14400, .f32⟩ : BufTy).Contents (Elt F)),
    binary main_v30 main_v44 main_v45 (addf : (⟨S14400, .f32⟩ : BufTy).Contents (Elt F) → (⟨S14400, .f32⟩ : BufTy).Contents (Elt F) → (⟨S14400, .f32⟩ : BufTy).Contents (Elt F)),
    nullary main_cst_9 (constant S_ .f32 0x3F000000#32),
    unary main_cst_9 main_v46 (broadcastInDim S14400 ![] bcast_S_S14400 : (⟨S_, .f32⟩ : BufTy).Contents (Elt F) → (⟨S14400, .f32⟩ : BufTy).Contents (Elt F)),
    binary main_v46 main_v36 main_v47 (mulf : (⟨S14400, .f32⟩ : BufTy).Contents (Elt F) → (⟨S14400, .f32⟩ : BufTy).Contents (Elt F) → (⟨S14400, .f32⟩ : BufTy).Contents (Elt F)) ]

theorem ops0_sub : (ops0 : List (HloOp τ sig (Elt F))).Forall fun op => op.bufs ⊆ tcRefs τ sig :=
  ⟨reshape_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., unary_bufs_sub .., unary_bufs_sub .., unary_bufs_sub .., binary_bufs_sub .., unary_bufs_sub .., nullary_bufs_sub .., binary_bufs_sub .., nullary_bufs_sub .., nullary_bufs_sub .., unary_bufs_sub .., unary_bufs_sub .., binary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub ..⟩

/-- Window 1 of @main: 65 operations. -/
abbrev ops1 : List (HloOp τ sig (Elt F)) :=
  [ binary main_v32 main_v47 main_v48 (addf : (⟨S14400, .f32⟩ : BufTy).Contents (Elt F) → (⟨S14400, .f32⟩ : BufTy).Contents (Elt F) → (⟨S14400, .f32⟩ : BufTy).Contents (Elt F)),
    unary main_v39 main_v49 (broadcastInDim S14400x1 ![0] bcast_S14400_S14400x1_0 : (⟨S14400, .f32⟩ : BufTy).Contents (Elt F) → (⟨S14400x1, .f32⟩ : BufTy).Contents (Elt F)),
    unary main_v42 main_v50 (broadcastInDim S14400x1 ![0] bcast_S14400_S14400x1_0 : (⟨S14400, .f32⟩ : BufTy).Contents (Elt F) → (⟨S14400x1, .f32⟩ : BufTy).Contents (Elt F)),
    unary main_v45 main_v51 (broadcastInDim S14400x1 ![0] bcast_S14400_S14400x1_0 : (⟨S14400, .f32⟩ : BufTy).Contents (Elt F) → (⟨S14400x1, .f32⟩ : BufTy).Contents (Elt F)),
    unary main_v48 main_v52 (broadcastInDim S14400x1 ![0] bcast_S14400_S14400x1_0 : (⟨S14400, .f32⟩ : BufTy).Contents (Elt F) → (⟨S14400x1, .f32⟩ : BufTy).Contents (Elt F)),
    nary ![main_v49, main_v50, main_v51, main_v52] main_v53 (fun u => concatenate S14400x4 1 [⟨S14400x1, u 0⟩, ⟨S14400x1, u 1⟩, ⟨S14400x1, u 2⟩, ⟨S14400x1, u 3⟩] concatenates_S14400x1_S14400x1_S14400x1_S14400x1_S14400x4_d1),
    nullary main_cst_10 (constant S_ .f32 0x00000000#32),
    nullary main_cst_11 (constant S_ .f32 0x3F800000#32),
    TRef.unary (.of main_cst_10) main_call1.v0 id,
    TRef.unary main_call1.v0 main_call1.v1 (broadcastInDim S1600x4 ![] bcast_S_S1600x4),
    TRef.binary main_call1.v1 (.of main_arg3) main_call1.v2 maximumf,
    TRef.unary (.of main_cst_11) main_call1.v3 id,
    TRef.unary main_call1.v3 main_call1.v4 (broadcastInDim S1600x4 ![] bcast_S_S1600x4),
    TRef.binary main_call1.v4 main_call1.v2 main_call1.v5 minimumf,
    unary main_v54 main_v55 ((extractStridedSlice S1600x1 ![0, 0] · slices_S1600x4_S1600x1_0_0) : (⟨S1600x4, .f32⟩ : BufTy).Contents (Elt F) → (⟨S1600x1, .f32⟩ : BufTy).Contents (Elt F)),
    reshape main_v55 main_v56 rfl shapeCasts_S1600x1_S1600,
    unary main_v54 main_v57 ((extractStridedSlice S1600x1 ![0, 1] · slices_S1600x4_S1600x1_0_1) : (⟨S1600x4, .f32⟩ : BufTy).Contents (Elt F) → (⟨S1600x1, .f32⟩ : BufTy).Contents (Elt F)),
    reshape main_v57 main_v58 rfl shapeCasts_S1600x1_S1600,
    unary main_v54 main_v59 ((extractStridedSlice S1600x1 ![0, 2] · slices_S1600x4_S1600x1_0_2) : (⟨S1600x4, .f32⟩ : BufTy).Contents (Elt F) → (⟨S1600x1, .f32⟩ : BufTy).Contents (Elt F)),
    reshape main_v59 main_v60 rfl shapeCasts_S1600x1_S1600,
    unary main_v54 main_v61 ((extractStridedSlice S1600x1 ![0, 3] · slices_S1600x4_S1600x1_0_3) : (⟨S1600x4, .f32⟩ : BufTy).Contents (Elt F) → (⟨S1600x1, .f32⟩ : BufTy).Contents (Elt F)),
    reshape main_v61 main_v62 rfl shapeCasts_S1600x1_S1600,
    nullary main_cst_12 (constant S_ .f32 0x3F000000#32),
    unary main_cst_12 main_v63 (broadcastInDim S1600 ![] bcast_S_S1600 : (⟨S_, .f32⟩ : BufTy).Contents (Elt F) → (⟨S1600, .f32⟩ : BufTy).Contents (Elt F)),
    binary main_v63 main_v60 main_v64 (mulf : (⟨S1600, .f32⟩ : BufTy).Contents (Elt F) → (⟨S1600, .f32⟩ : BufTy).Contents (Elt F) → (⟨S1600, .f32⟩ : BufTy).Contents (Elt F)),
    binary main_v56 main_v64 main_v65 (subf : (⟨S1600, .f32⟩ : BufTy).Contents (Elt F) → (⟨S1600, .f32⟩ : BufTy).Contents (Elt F) → (⟨S1600, .f32⟩ : BufTy).Contents (Elt F)),
    nullary main_cst_13 (constant S_ .f32 0x3F000000#32),
    unary main_cst_13 main_v66 (broadcastInDim S1600 ![] bcast_S_S1600 : (⟨S_, .f32⟩ : BufTy).Contents (Elt F) → (⟨S1600, .f32⟩ : BufTy).Contents (Elt F)),
    binary main_v66 main_v62 main_v67 (mulf : (⟨S1600, .f32⟩ : BufTy).Contents (Elt F) → (⟨S1600, .f32⟩ : BufTy).Contents (Elt F) → (⟨S1600, .f32⟩ : BufTy).Contents (Elt F)),
    binary main_v58 main_v67 main_v68 (subf : (⟨S1600, .f32⟩ : BufTy).Contents (Elt F) → (⟨S1600, .f32⟩ : BufTy).Contents (Elt F) → (⟨S1600, .f32⟩ : BufTy).Contents (Elt F)),
    nullary main_cst_14 (constant S_ .f32 0x3F000000#32),
    unary main_cst_14 main_v69 (broadcastInDim S1600 ![] bcast_S_S1600 : (⟨S_, .f32⟩ : BufTy).Contents (Elt F) → (⟨S1600, .f32⟩ : BufTy).Contents (Elt F)),
    binary main_v69 main_v60 main_v70 (mulf : (⟨S1600, .f32⟩ : BufTy).Contents (Elt F) → (⟨S1600, .f32⟩ : BufTy).Contents (Elt F) → (⟨S1600, .f32⟩ : BufTy).Contents (Elt F)),
    binary main_v56 main_v70 main_v71 (addf : (⟨S1600, .f32⟩ : BufTy).Contents (Elt F) → (⟨S1600, .f32⟩ : BufTy).Contents (Elt F) → (⟨S1600, .f32⟩ : BufTy).Contents (Elt F)),
    nullary main_cst_15 (constant S_ .f32 0x3F000000#32),
    unary main_cst_15 main_v72 (broadcastInDim S1600 ![] bcast_S_S1600 : (⟨S_, .f32⟩ : BufTy).Contents (Elt F) → (⟨S1600, .f32⟩ : BufTy).Contents (Elt F)),
    binary main_v72 main_v62 main_v73 (mulf : (⟨S1600, .f32⟩ : BufTy).Contents (Elt F) → (⟨S1600, .f32⟩ : BufTy).Contents (Elt F) → (⟨S1600, .f32⟩ : BufTy).Contents (Elt F)),
    binary main_v58 main_v73 main_v74 (addf : (⟨S1600, .f32⟩ : BufTy).Contents (Elt F) → (⟨S1600, .f32⟩ : BufTy).Contents (Elt F) → (⟨S1600, .f32⟩ : BufTy).Contents (Elt F)),
    unary main_v65 main_v75 (broadcastInDim S1600x1 ![0] bcast_S1600_S1600x1_0 : (⟨S1600, .f32⟩ : BufTy).Contents (Elt F) → (⟨S1600x1, .f32⟩ : BufTy).Contents (Elt F)),
    unary main_v68 main_v76 (broadcastInDim S1600x1 ![0] bcast_S1600_S1600x1_0 : (⟨S1600, .f32⟩ : BufTy).Contents (Elt F) → (⟨S1600x1, .f32⟩ : BufTy).Contents (Elt F)),
    unary main_v71 main_v77 (broadcastInDim S1600x1 ![0] bcast_S1600_S1600x1_0 : (⟨S1600, .f32⟩ : BufTy).Contents (Elt F) → (⟨S1600x1, .f32⟩ : BufTy).Contents (Elt F)),
    unary main_v74 main_v78 (broadcastInDim S1600x1 ![0] bcast_S1600_S1600x1_0 : (⟨S1600, .f32⟩ : BufTy).Contents (Elt F) → (⟨S1600x1, .f32⟩ : BufTy).Contents (Elt F)),
    nary ![main_v75, main_v76, main_v77, main_v78] main_v79 (fun u => concatenate S1600x4 1 [⟨S1600x1, u 0⟩, ⟨S1600x1, u 1⟩, ⟨S1600x1, u 2⟩, ⟨S1600x1, u 3⟩] concatenates_S1600x1_S1600x1_S1600x1_S1600x1_S1600x4_d1),
    unary main_v53 main_v80 ((extractStridedSlice S14400x1 ![0, 2] · slices_S14400x4_S14400x1_0_2) : (⟨S14400x4, .f32⟩ : BufTy).Contents (Elt F) → (⟨S14400x1, .f32⟩ : BufTy).Contents (Elt F)),
    reshape main_v80 main_v81 rfl shapeCasts_S14400x1_S14400,
    unary main_v53 main_v82 ((extractStridedSlice S14400x1 ![0, 0] · slices_S14400x4_S14400x1_0_0) : (⟨S14400x4, .f32⟩ : BufTy).Contents (Elt F) → (⟨S14400x1, .f32⟩ : BufTy).Contents (Elt F)),
    reshape main_v82 main_v83 rfl shapeCasts_S14400x1_S14400,
    binary main_v81 main_v83 main_v84 (subf : (⟨S14400, .f32⟩ : BufTy).Contents (Elt F) → (⟨S14400, .f32⟩ : BufTy).Contents (Elt F) → (⟨S14400, .f32⟩ : BufTy).Contents (Elt F)),
    unary main_v53 main_v85 ((extractStridedSlice S14400x1 ![0, 3] · slices_S14400x4_S14400x1_0_3) : (⟨S14400x4, .f32⟩ : BufTy).Contents (Elt F) → (⟨S14400x1, .f32⟩ : BufTy).Contents (Elt F)),
    reshape main_v85 main_v86 rfl shapeCasts_S14400x1_S14400,
    unary main_v53 main_v87 ((extractStridedSlice S14400x1 ![0, 1] · slices_S14400x4_S14400x1_0_1) : (⟨S14400x4, .f32⟩ : BufTy).Contents (Elt F) → (⟨S14400x1, .f32⟩ : BufTy).Contents (Elt F)),
    reshape main_v87 main_v88 rfl shapeCasts_S14400x1_S14400,
    binary main_v86 main_v88 main_v89 (subf : (⟨S14400, .f32⟩ : BufTy).Contents (Elt F) → (⟨S14400, .f32⟩ : BufTy).Contents (Elt F) → (⟨S14400, .f32⟩ : BufTy).Contents (Elt F)),
    binary main_v84 main_v89 main_v90 (mulf : (⟨S14400, .f32⟩ : BufTy).Contents (Elt F) → (⟨S14400, .f32⟩ : BufTy).Contents (Elt F) → (⟨S14400, .f32⟩ : BufTy).Contents (Elt F)),
    unary main_v79 main_v91 ((extractStridedSlice S1600x1 ![0, 2] · slices_S1600x4_S1600x1_0_2) : (⟨S1600x4, .f32⟩ : BufTy).Contents (Elt F) → (⟨S1600x1, .f32⟩ : BufTy).Contents (Elt F)),
    reshape main_v91 main_v92 rfl shapeCasts_S1600x1_S1600,
    unary main_v79 main_v93 ((extractStridedSlice S1600x1 ![0, 0] · slices_S1600x4_S1600x1_0_0) : (⟨S1600x4, .f32⟩ : BufTy).Contents (Elt F) → (⟨S1600x1, .f32⟩ : BufTy).Contents (Elt F)),
    reshape main_v93 main_v94 rfl shapeCasts_S1600x1_S1600,
    binary main_v92 main_v94 main_v95 (subf : (⟨S1600, .f32⟩ : BufTy).Contents (Elt F) → (⟨S1600, .f32⟩ : BufTy).Contents (Elt F) → (⟨S1600, .f32⟩ : BufTy).Contents (Elt F)),
    unary main_v79 main_v96 ((extractStridedSlice S1600x1 ![0, 3] · slices_S1600x4_S1600x1_0_3) : (⟨S1600x4, .f32⟩ : BufTy).Contents (Elt F) → (⟨S1600x1, .f32⟩ : BufTy).Contents (Elt F)),
    reshape main_v96 main_v97 rfl shapeCasts_S1600x1_S1600,
    unary main_v79 main_v98 ((extractStridedSlice S1600x1 ![0, 1] · slices_S1600x4_S1600x1_0_1) : (⟨S1600x4, .f32⟩ : BufTy).Contents (Elt F) → (⟨S1600x1, .f32⟩ : BufTy).Contents (Elt F)),
    reshape main_v98 main_v99 rfl shapeCasts_S1600x1_S1600,
    binary main_v97 main_v99 main_v100 (subf : (⟨S1600, .f32⟩ : BufTy).Contents (Elt F) → (⟨S1600, .f32⟩ : BufTy).Contents (Elt F) → (⟨S1600, .f32⟩ : BufTy).Contents (Elt F)),
    binary main_v95 main_v100 main_v101 (mulf : (⟨S1600, .f32⟩ : BufTy).Contents (Elt F) → (⟨S1600, .f32⟩ : BufTy).Contents (Elt F) → (⟨S1600, .f32⟩ : BufTy).Contents (Elt F)) ]

theorem ops1_sub : (ops1 : List (HloOp τ sig (Elt F))).Forall fun op => op.bufs ⊆ tcRefs τ sig :=
  ⟨binary_bufs_sub .., unary_bufs_sub .., unary_bufs_sub .., unary_bufs_sub .., unary_bufs_sub .., nary_bufs_sub .., nullary_bufs_sub .., nullary_bufs_sub .., unary_bufs_sub .., unary_bufs_sub .., binary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub .., unary_bufs_sub .., unary_bufs_sub .., unary_bufs_sub .., nary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub ..⟩

/-- Window 2 of @main: 64 operations. -/
abbrev ops2 : List (HloOp τ sig (Elt F)) :=
  [ unary main_v53 main_v102 ((extractStridedSlice S14400x2 ![0, 0] · slices_S14400x4_S14400x2_0_0) : (⟨S14400x4, .f32⟩ : BufTy).Contents (Elt F) → (⟨S14400x2, .f32⟩ : BufTy).Contents (Elt F)),
    unary main_v102 main_v103 (broadcastInDim S14400x1x2 ![0, 2] bcast_S14400x2_S14400x1x2_0_2 : (⟨S14400x2, .f32⟩ : BufTy).Contents (Elt F) → (⟨S14400x1x2, .f32⟩ : BufTy).Contents (Elt F)),
    unary main_v79 main_v104 ((extractStridedSlice S1600x2 ![0, 0] · slices_S1600x4_S1600x2_0_0) : (⟨S1600x4, .f32⟩ : BufTy).Contents (Elt F) → (⟨S1600x2, .f32⟩ : BufTy).Contents (Elt F)),
    unary main_v104 main_v105 (broadcastInDim S1x1600x2 ![1, 2] bcast_S1600x2_S1x1600x2_1_2 : (⟨S1600x2, .f32⟩ : BufTy).Contents (Elt F) → (⟨S1x1600x2, .f32⟩ : BufTy).Contents (Elt F)),
    unary main_v103 main_v106 (broadcastInDim S14400x1600x2 ![0, 1, 2] bcast_S14400x1x2_S14400x1600x2_0_1_2 : (⟨S14400x1x2, .f32⟩ : BufTy).Contents (Elt F) → (⟨S14400x1600x2, .f32⟩ : BufTy).Contents (Elt F)),
    unary main_v105 main_v107 (broadcastInDim S14400x1600x2 ![0, 1, 2] bcast_S1x1600x2_S14400x1600x2_0_1_2 : (⟨S1x1600x2, .f32⟩ : BufTy).Contents (Elt F) → (⟨S14400x1600x2, .f32⟩ : BufTy).Contents (Elt F)),
    binary main_v106 main_v107 main_v108 (maximumf : (⟨S14400x1600x2, .f32⟩ : BufTy).Contents (Elt F) → (⟨S14400x1600x2, .f32⟩ : BufTy).Contents (Elt F) → (⟨S14400x1600x2, .f32⟩ : BufTy).Contents (Elt F)),
    unary main_v53 main_v109 ((extractStridedSlice S14400x2 ![0, 2] · slices_S14400x4_S14400x2_0_2) : (⟨S14400x4, .f32⟩ : BufTy).Contents (Elt F) → (⟨S14400x2, .f32⟩ : BufTy).Contents (Elt F)),
    unary main_v109 main_v110 (broadcastInDim S14400x1x2 ![0, 2] bcast_S14400x2_S14400x1x2_0_2 : (⟨S14400x2, .f32⟩ : BufTy).Contents (Elt F) → (⟨S14400x1x2, .f32⟩ : BufTy).Contents (Elt F)),
    unary main_v79 main_v111 ((extractStridedSlice S1600x2 ![0, 2] · slices_S1600x4_S1600x2_0_2) : (⟨S1600x4, .f32⟩ : BufTy).Contents (Elt F) → (⟨S1600x2, .f32⟩ : BufTy).Contents (Elt F)),
    unary main_v111 main_v112 (broadcastInDim S1x1600x2 ![1, 2] bcast_S1600x2_S1x1600x2_1_2 : (⟨S1600x2, .f32⟩ : BufTy).Contents (Elt F) → (⟨S1x1600x2, .f32⟩ : BufTy).Contents (Elt F)),
    unary main_v110 main_v113 (broadcastInDim S14400x1600x2 ![0, 1, 2] bcast_S14400x1x2_S14400x1600x2_0_1_2 : (⟨S14400x1x2, .f32⟩ : BufTy).Contents (Elt F) → (⟨S14400x1600x2, .f32⟩ : BufTy).Contents (Elt F)),
    unary main_v112 main_v114 (broadcastInDim S14400x1600x2 ![0, 1, 2] bcast_S1x1600x2_S14400x1600x2_0_1_2 : (⟨S1x1600x2, .f32⟩ : BufTy).Contents (Elt F) → (⟨S14400x1600x2, .f32⟩ : BufTy).Contents (Elt F)),
    binary main_v113 main_v114 main_v115 (minimumf : (⟨S14400x1600x2, .f32⟩ : BufTy).Contents (Elt F) → (⟨S14400x1600x2, .f32⟩ : BufTy).Contents (Elt F) → (⟨S14400x1600x2, .f32⟩ : BufTy).Contents (Elt F)),
    binary main_v115 main_v108 main_v116 (subf : (⟨S14400x1600x2, .f32⟩ : BufTy).Contents (Elt F) → (⟨S14400x1600x2, .f32⟩ : BufTy).Contents (Elt F) → (⟨S14400x1600x2, .f32⟩ : BufTy).Contents (Elt F)),
    nullary main_c_16 (constantI S_ 32 0#32),
    TRef.unary (.of main_c_16) main_call2.v0 (sitofp .f32),
    TRef.unary main_call2.v0 main_call2.v1 (broadcastInDim S14400x1600x2 ![] bcast_S_S14400x1600x2),
    TRef.binary main_call2.v1 (.of main_v116) main_call2.v2 maximumf,
    unary main_v117 main_v118 ((extractStridedSlice S14400x1600x1 ![0, 0, 0] · slices_S14400x1600x2_S14400x1600x1_0_0_0) : (⟨S14400x1600x2, .f32⟩ : BufTy).Contents (Elt F) → (⟨S14400x1600x1, .f32⟩ : BufTy).Contents (Elt F)),
    reshape main_v118 main_v119 rfl shapeCasts_S14400x1600x1_S14400x1600,
    unary main_v117 main_v120 ((extractStridedSlice S14400x1600x1 ![0, 0, 1] · slices_S14400x1600x2_S14400x1600x1_0_0_1) : (⟨S14400x1600x2, .f32⟩ : BufTy).Contents (Elt F) → (⟨S14400x1600x1, .f32⟩ : BufTy).Contents (Elt F)),
    reshape main_v120 main_v121 rfl shapeCasts_S14400x1600x1_S14400x1600,
    binary main_v119 main_v121 main_v122 (mulf : (⟨S14400x1600, .f32⟩ : BufTy).Contents (Elt F) → (⟨S14400x1600, .f32⟩ : BufTy).Contents (Elt F) → (⟨S14400x1600, .f32⟩ : BufTy).Contents (Elt F)),
    unary main_v90 main_v123 (broadcastInDim S14400x1 ![0] bcast_S14400_S14400x1_0 : (⟨S14400, .f32⟩ : BufTy).Contents (Elt F) → (⟨S14400x1, .f32⟩ : BufTy).Contents (Elt F)),
    unary main_v101 main_v124 (broadcastInDim S1x1600 ![1] bcast_S1600_S1x1600_1 : (⟨S1600, .f32⟩ : BufTy).Contents (Elt F) → (⟨S1x1600, .f32⟩ : BufTy).Contents (Elt F)),
    unary main_v123 main_v125 (broadcastInDim S14400x1600 ![0, 1] bcast_S14400x1_S14400x1600_0_1 : (⟨S14400x1, .f32⟩ : BufTy).Contents (Elt F) → (⟨S14400x1600, .f32⟩ : BufTy).Contents (Elt F)),
    unary main_v124 main_v126 (broadcastInDim S14400x1600 ![0, 1] bcast_S1x1600_S14400x1600_0_1 : (⟨S1x1600, .f32⟩ : BufTy).Contents (Elt F) → (⟨S14400x1600, .f32⟩ : BufTy).Contents (Elt F)),
    binary main_v125 main_v126 main_v127 (addf : (⟨S14400x1600, .f32⟩ : BufTy).Contents (Elt F) → (⟨S14400x1600, .f32⟩ : BufTy).Contents (Elt F) → (⟨S14400x1600, .f32⟩ : BufTy).Contents (Elt F)),
    binary main_v127 main_v122 main_v128 (subf : (⟨S14400x1600, .f32⟩ : BufTy).Contents (Elt F) → (⟨S14400x1600, .f32⟩ : BufTy).Contents (Elt F) → (⟨S14400x1600, .f32⟩ : BufTy).Contents (Elt F)),
    binary main_v122 main_v128 main_v129 (Host.divf : (⟨S14400x1600, .f32⟩ : BufTy).Contents (Elt F) → (⟨S14400x1600, .f32⟩ : BufTy).Contents (Elt F) → (⟨S14400x1600, .f32⟩ : BufTy).Contents (Elt F)),
    unary main_v53 main_v130 ((extractStridedSlice S14400x2 ![0, 0] · slices_S14400x4_S14400x2_0_0) : (⟨S14400x4, .f32⟩ : BufTy).Contents (Elt F) → (⟨S14400x2, .f32⟩ : BufTy).Contents (Elt F)),
    unary main_v130 main_v131 (broadcastInDim S14400x1x2 ![0, 2] bcast_S14400x2_S14400x1x2_0_2 : (⟨S14400x2, .f32⟩ : BufTy).Contents (Elt F) → (⟨S14400x1x2, .f32⟩ : BufTy).Contents (Elt F)),
    unary main_v79 main_v132 ((extractStridedSlice S1600x2 ![0, 0] · slices_S1600x4_S1600x2_0_0) : (⟨S1600x4, .f32⟩ : BufTy).Contents (Elt F) → (⟨S1600x2, .f32⟩ : BufTy).Contents (Elt F)),
    unary main_v132 main_v133 (broadcastInDim S1x1600x2 ![1, 2] bcast_S1600x2_S1x1600x2_1_2 : (⟨S1600x2, .f32⟩ : BufTy).Contents (Elt F) → (⟨S1x1600x2, .f32⟩ : BufTy).Contents (Elt F)),
    unary main_v131 main_v134 (broadcastInDim S14400x1600x2 ![0, 1, 2] bcast_S14400x1x2_S14400x1600x2_0_1_2 : (⟨S14400x1x2, .f32⟩ : BufTy).Contents (Elt F) → (⟨S14400x1600x2, .f32⟩ : BufTy).Contents (Elt F)),
    unary main_v133 main_v135 (broadcastInDim S14400x1600x2 ![0, 1, 2] bcast_S1x1600x2_S14400x1600x2_0_1_2 : (⟨S1x1600x2, .f32⟩ : BufTy).Contents (Elt F) → (⟨S14400x1600x2, .f32⟩ : BufTy).Contents (Elt F)),
    binary main_v134 main_v135 main_v136 (minimumf : (⟨S14400x1600x2, .f32⟩ : BufTy).Contents (Elt F) → (⟨S14400x1600x2, .f32⟩ : BufTy).Contents (Elt F) → (⟨S14400x1600x2, .f32⟩ : BufTy).Contents (Elt F)),
    unary main_v53 main_v137 ((extractStridedSlice S14400x2 ![0, 2] · slices_S14400x4_S14400x2_0_2) : (⟨S14400x4, .f32⟩ : BufTy).Contents (Elt F) → (⟨S14400x2, .f32⟩ : BufTy).Contents (Elt F)),
    unary main_v137 main_v138 (broadcastInDim S14400x1x2 ![0, 2] bcast_S14400x2_S14400x1x2_0_2 : (⟨S14400x2, .f32⟩ : BufTy).Contents (Elt F) → (⟨S14400x1x2, .f32⟩ : BufTy).Contents (Elt F)),
    unary main_v79 main_v139 ((extractStridedSlice S1600x2 ![0, 2] · slices_S1600x4_S1600x2_0_2) : (⟨S1600x4, .f32⟩ : BufTy).Contents (Elt F) → (⟨S1600x2, .f32⟩ : BufTy).Contents (Elt F)),
    unary main_v139 main_v140 (broadcastInDim S1x1600x2 ![1, 2] bcast_S1600x2_S1x1600x2_1_2 : (⟨S1600x2, .f32⟩ : BufTy).Contents (Elt F) → (⟨S1x1600x2, .f32⟩ : BufTy).Contents (Elt F)),
    unary main_v138 main_v141 (broadcastInDim S14400x1600x2 ![0, 1, 2] bcast_S14400x1x2_S14400x1600x2_0_1_2 : (⟨S14400x1x2, .f32⟩ : BufTy).Contents (Elt F) → (⟨S14400x1600x2, .f32⟩ : BufTy).Contents (Elt F)),
    unary main_v140 main_v142 (broadcastInDim S14400x1600x2 ![0, 1, 2] bcast_S1x1600x2_S14400x1600x2_0_1_2 : (⟨S1x1600x2, .f32⟩ : BufTy).Contents (Elt F) → (⟨S14400x1600x2, .f32⟩ : BufTy).Contents (Elt F)),
    binary main_v141 main_v142 main_v143 (maximumf : (⟨S14400x1600x2, .f32⟩ : BufTy).Contents (Elt F) → (⟨S14400x1600x2, .f32⟩ : BufTy).Contents (Elt F) → (⟨S14400x1600x2, .f32⟩ : BufTy).Contents (Elt F)),
    binary main_v143 main_v136 main_v144 (subf : (⟨S14400x1600x2, .f32⟩ : BufTy).Contents (Elt F) → (⟨S14400x1600x2, .f32⟩ : BufTy).Contents (Elt F) → (⟨S14400x1600x2, .f32⟩ : BufTy).Contents (Elt F)),
    nullary main_c_17 (constantI S_ 32 0#32),
    TRef.unary (.of main_c_17) main_call3.v0 (sitofp .f32),
    TRef.unary main_call3.v0 main_call3.v1 (broadcastInDim S14400x1600x2 ![] bcast_S_S14400x1600x2),
    TRef.binary main_call3.v1 (.of main_v144) main_call3.v2 maximumf,
    unary main_v145 main_v146 ((extractStridedSlice S14400x1600x1 ![0, 0, 0] · slices_S14400x1600x2_S14400x1600x1_0_0_0) : (⟨S14400x1600x2, .f32⟩ : BufTy).Contents (Elt F) → (⟨S14400x1600x1, .f32⟩ : BufTy).Contents (Elt F)),
    reshape main_v146 main_v147 rfl shapeCasts_S14400x1600x1_S14400x1600,
    unary main_v145 main_v148 ((extractStridedSlice S14400x1600x1 ![0, 0, 1] · slices_S14400x1600x2_S14400x1600x1_0_0_1) : (⟨S14400x1600x2, .f32⟩ : BufTy).Contents (Elt F) → (⟨S14400x1600x1, .f32⟩ : BufTy).Contents (Elt F)),
    reshape main_v148 main_v149 rfl shapeCasts_S14400x1600x1_S14400x1600,
    binary main_v147 main_v149 main_v150 (mulf : (⟨S14400x1600, .f32⟩ : BufTy).Contents (Elt F) → (⟨S14400x1600, .f32⟩ : BufTy).Contents (Elt F) → (⟨S14400x1600, .f32⟩ : BufTy).Contents (Elt F)),
    binary main_v150 main_v128 main_v151 (subf : (⟨S14400x1600, .f32⟩ : BufTy).Contents (Elt F) → (⟨S14400x1600, .f32⟩ : BufTy).Contents (Elt F) → (⟨S14400x1600, .f32⟩ : BufTy).Contents (Elt F)),
    binary main_v151 main_v150 main_v152 (Host.divf : (⟨S14400x1600, .f32⟩ : BufTy).Contents (Elt F) → (⟨S14400x1600, .f32⟩ : BufTy).Contents (Elt F) → (⟨S14400x1600, .f32⟩ : BufTy).Contents (Elt F)),
    binary main_v129 main_v152 main_v153 (subf : (⟨S14400x1600, .f32⟩ : BufTy).Contents (Elt F) → (⟨S14400x1600, .f32⟩ : BufTy).Contents (Elt F) → (⟨S14400x1600, .f32⟩ : BufTy).Contents (Elt F)),
    unary main_v153 main_v154 (Host.negf : (⟨S14400x1600, .f32⟩ : BufTy).Contents (Elt F) → (⟨S14400x1600, .f32⟩ : BufTy).Contents (Elt F)),
    nullary main_cst_18 (constant S_ .f32 0x3F800000#32),
    unary main_cst_18 main_v155 (broadcastInDim S14400x1600 ![] bcast_S_S14400x1600 : (⟨S_, .f32⟩ : BufTy).Contents (Elt F) → (⟨S14400x1600, .f32⟩ : BufTy).Contents (Elt F)),
    binary main_v155 main_v20 main_v156 (mulf : (⟨S14400x1600, .f32⟩ : BufTy).Contents (Elt F) → (⟨S14400x1600, .f32⟩ : BufTy).Contents (Elt F) → (⟨S14400x1600, .f32⟩ : BufTy).Contents (Elt F)),
    nullary main_cst_19 (constant S_ .f32 0x40A00000#32),
    unary main_cst_19 main_v157 (broadcastInDim S14400x1600 ![] bcast_S_S14400x1600 : (⟨S_, .f32⟩ : BufTy).Contents (Elt F) → (⟨S14400x1600, .f32⟩ : BufTy).Contents (Elt F)) ]

theorem ops2_sub : (ops2 : List (HloOp τ sig (Elt F))).Forall fun op => op.bufs ⊆ tcRefs τ sig :=
  ⟨unary_bufs_sub .., unary_bufs_sub .., unary_bufs_sub .., unary_bufs_sub .., unary_bufs_sub .., unary_bufs_sub .., binary_bufs_sub .., unary_bufs_sub .., unary_bufs_sub .., unary_bufs_sub .., unary_bufs_sub .., unary_bufs_sub .., unary_bufs_sub .., binary_bufs_sub .., binary_bufs_sub .., nullary_bufs_sub .., unary_bufs_sub .., unary_bufs_sub .., binary_bufs_sub .., unary_bufs_sub .., reshape_bufs_sub .., unary_bufs_sub .., reshape_bufs_sub .., binary_bufs_sub .., unary_bufs_sub .., unary_bufs_sub .., unary_bufs_sub .., unary_bufs_sub .., binary_bufs_sub .., binary_bufs_sub .., binary_bufs_sub .., unary_bufs_sub .., unary_bufs_sub .., unary_bufs_sub .., unary_bufs_sub .., unary_bufs_sub .., unary_bufs_sub .., binary_bufs_sub .., unary_bufs_sub .., unary_bufs_sub .., unary_bufs_sub .., unary_bufs_sub .., unary_bufs_sub .., unary_bufs_sub .., binary_bufs_sub .., binary_bufs_sub .., nullary_bufs_sub .., unary_bufs_sub .., unary_bufs_sub .., binary_bufs_sub .., unary_bufs_sub .., reshape_bufs_sub .., unary_bufs_sub .., reshape_bufs_sub .., binary_bufs_sub .., binary_bufs_sub .., binary_bufs_sub .., binary_bufs_sub .., unary_bufs_sub .., nullary_bufs_sub .., unary_bufs_sub .., binary_bufs_sub .., nullary_bufs_sub .., unary_bufs_sub ..⟩

/-- Window 3 of @main: 26 operations. -/
abbrev ops3 : List (HloOp τ sig (Elt F)) :=
  [ binary main_v157 main_v27 main_v158 (mulf : (⟨S14400x1600, .f32⟩ : BufTy).Contents (Elt F) → (⟨S14400x1600, .f32⟩ : BufTy).Contents (Elt F) → (⟨S14400x1600, .f32⟩ : BufTy).Contents (Elt F)),
    binary main_v156 main_v158 main_v159 (addf : (⟨S14400x1600, .f32⟩ : BufTy).Contents (Elt F) → (⟨S14400x1600, .f32⟩ : BufTy).Contents (Elt F) → (⟨S14400x1600, .f32⟩ : BufTy).Contents (Elt F)),
    nullary main_cst_20 (constant S_ .f32 0x40000000#32),
    unary main_cst_20 main_v160 (broadcastInDim S14400x1600 ![] bcast_S_S14400x1600 : (⟨S_, .f32⟩ : BufTy).Contents (Elt F) → (⟨S14400x1600, .f32⟩ : BufTy).Contents (Elt F)),
    binary main_v160 main_v154 main_v161 (mulf : (⟨S14400x1600, .f32⟩ : BufTy).Contents (Elt F) → (⟨S14400x1600, .f32⟩ : BufTy).Contents (Elt F) → (⟨S14400x1600, .f32⟩ : BufTy).Contents (Elt F)),
    binary main_v159 main_v161 main_v162 (addf : (⟨S14400x1600, .f32⟩ : BufTy).Contents (Elt F) → (⟨S14400x1600, .f32⟩ : BufTy).Contents (Elt F) → (⟨S14400x1600, .f32⟩ : BufTy).Contents (Elt F)),
    reshape main_v162 main_v163 rfl shapeCasts_S14400x1600_S16x900x1600,
    nullary main_cst_21 (constant S_ .f32 0x461C4000#32),
    nullary main_cst_22 (constant S_ .f32 0xC61C4000#32),
    nullary main_cst_23 (constant S_ .f32 0x461C4000#32),
    TRef.binary (.of main_v163) (.of main_v163) main_call4.v0 (cmpf .une),
    TRef.unary (.of main_cst_21) main_call4.v1 id,
    TRef.unary main_call4.v1 main_call4.call0.v0 (broadcastInDim S16x900x1600 ![] bcast_S_S16x900x1600),
    TRef.ternary main_call4.v0 main_call4.call0.v0 (.of main_v163) main_call4.call0.v1 select,
    TRef.nullary main_call4.cst (constant S_ .f32 0x7F800000#32),
    TRef.unary main_call4.cst main_call4.v3 (broadcastInDim S16x900x1600 ![] bcast_S_S16x900x1600),
    TRef.binary main_call4.call0.v1 main_call4.v3 main_call4.v4 (cmpf .oeq),
    TRef.unary (.of main_cst_23) main_call4.v5 id,
    TRef.unary main_call4.v5 main_call4.call1.v0 (broadcastInDim S16x900x1600 ![] bcast_S_S16x900x1600),
    TRef.ternary main_call4.v4 main_call4.call1.v0 main_call4.call0.v1 main_call4.call1.v1 select,
    TRef.nullary main_call4.cst_0 (constant S_ .f32 0xFF800000#32),
    TRef.unary main_call4.cst_0 main_call4.v7 (broadcastInDim S16x900x1600 ![] bcast_S_S16x900x1600),
    TRef.binary main_call4.call1.v1 main_call4.v7 main_call4.v8 (cmpf .oeq),
    TRef.unary (.of main_cst_22) main_call4.v9 id,
    TRef.unary main_call4.v9 main_call4.call2.v0 (broadcastInDim S16x900x1600 ![] bcast_S_S16x900x1600),
    TRef.ternary main_call4.v8 main_call4.call2.v0 main_call4.call1.v1 main_call4.call2.v1 select ]

theorem ops3_sub : (ops3 : List (HloOp τ sig (Elt F))).Forall fun op => op.bufs ⊆ tcRefs τ sig :=
  ⟨binary_bufs_sub .., binary_bufs_sub .., nullary_bufs_sub .., unary_bufs_sub .., binary_bufs_sub .., binary_bufs_sub .., reshape_bufs_sub .., nullary_bufs_sub .., nullary_bufs_sub .., nullary_bufs_sub .., binary_bufs_sub .., unary_bufs_sub .., unary_bufs_sub .., ternary_bufs_sub .., nullary_bufs_sub .., unary_bufs_sub .., binary_bufs_sub .., unary_bufs_sub .., unary_bufs_sub .., ternary_bufs_sub .., nullary_bufs_sub .., unary_bufs_sub .., binary_bufs_sub .., unary_bufs_sub .., unary_bufs_sub .., ternary_bufs_sub ..⟩

/-- @main's 220 operations, in order. -/
abbrev ops : List (HloOp τ sig (Elt F)) :=
  [ reshape main_arg0 main_v0 rfl shapeCasts_S16x900x91_S14400x91,
    nullary main_cst (constant S_ .f32 0xFF800000#32),
    binary main_v0 main_cst main_v1 ((fun x v => Host.reduce FloatOps.maximumf x v reducesTo_S14400x91_S14400_d1 h_S_) : (⟨S14400x91, .f32⟩ : BufTy).Contents (Elt F) → (⟨S_, .f32⟩ : BufTy).Contents (Elt F) → (⟨S14400, .f32⟩ : BufTy).Contents (Elt F)),
    nullary main_cst_0 (constant S_ .f32 0xFF800000#32),
    unary main_cst_0 main_v2 (broadcastInDim S14400 ![] bcast_S_S14400 : (⟨S_, .f32⟩ : BufTy).Contents (Elt F) → (⟨S14400, .f32⟩ : BufTy).Contents (Elt F)),
    binary main_v2 main_v1 main_v3 (maximumf : (⟨S14400, .f32⟩ : BufTy).Contents (Elt F) → (⟨S14400, .f32⟩ : BufTy).Contents (Elt F) → (⟨S14400, .f32⟩ : BufTy).Contents (Elt F)),
    unary main_v3 main_v4 (broadcastInDim S14400x1 ![0] bcast_S14400_S14400x1_0 : (⟨S14400, .f32⟩ : BufTy).Contents (Elt F) → (⟨S14400x1, .f32⟩ : BufTy).Contents (Elt F)),
    unary main_v4 main_v5 (broadcastInDim S14400x91 ![0, 1] bcast_S14400x1_S14400x91_0_1 : (⟨S14400x1, .f32⟩ : BufTy).Contents (Elt F) → (⟨S14400x91, .f32⟩ : BufTy).Contents (Elt F)),
    binary main_v0 main_v5 main_v6 (subf : (⟨S14400x91, .f32⟩ : BufTy).Contents (Elt F) → (⟨S14400x91, .f32⟩ : BufTy).Contents (Elt F) → (⟨S14400x91, .f32⟩ : BufTy).Contents (Elt F)),
    unary main_v6 main_v7 (Host.exp : (⟨S14400x91, .f32⟩ : BufTy).Contents (Elt F) → (⟨S14400x91, .f32⟩ : BufTy).Contents (Elt F)),
    nullary main_cst_1 (constant S_ .f32 0x00000000#32),
    binary main_v7 main_cst_1 main_v8 ((fun x v => Host.reduceAdd x v reducesTo_S14400x91_S14400_d1 h_S_) : (⟨S14400x91, .f32⟩ : BufTy).Contents (Elt F) → (⟨S_, .f32⟩ : BufTy).Contents (Elt F) → (⟨S14400, .f32⟩ : BufTy).Contents (Elt F)),
    unary main_v8 main_v9 (broadcastInDim S14400x1 ![0] bcast_S14400_S14400x1_0 : (⟨S14400, .f32⟩ : BufTy).Contents (Elt F) → (⟨S14400x1, .f32⟩ : BufTy).Contents (Elt F)),
    unary main_v9 main_v10 (broadcastInDim S14400x91 ![0, 1] bcast_S14400x1_S14400x91_0_1 : (⟨S14400x1, .f32⟩ : BufTy).Contents (Elt F) → (⟨S14400x91, .f32⟩ : BufTy).Contents (Elt F)),
    binary main_v7 main_v10 main_v11 (Host.divf : (⟨S14400x91, .f32⟩ : BufTy).Contents (Elt F) → (⟨S14400x91, .f32⟩ : BufTy).Contents (Elt F) → (⟨S14400x91, .f32⟩ : BufTy).Contents (Elt F)),
    reshape main_arg1 main_v12 rfl shapeCasts_S16x900x4_S14400x4,
    nullary main_c (constantI S_ 32 0#32),
    unary main_c main_v13 (broadcastInDim S1600 ![] bcast_S_S1600 : (⟨S_, .i32⟩ : BufTy).Contents (Elt F) → (⟨S1600, .i32⟩ : BufTy).Contents (Elt F)),
    binary main_arg2 main_v13 main_v14 (cmpi .slt : (⟨S1600, .i32⟩ : BufTy).Contents (Elt F) → (⟨S1600, .i32⟩ : BufTy).Contents (Elt F) → (⟨S1600, .i1⟩ : BufTy).Contents (Elt F)),
    nullary main_c_2 (constantI S_ 32 91#32),
    unary main_c_2 main_v15 (broadcastInDim S1600 ![] bcast_S_S1600 : (⟨S_, .i32⟩ : BufTy).Contents (Elt F) → (⟨S1600, .i32⟩ : BufTy).Contents (Elt F)),
    binary main_arg2 main_v15 main_v16 (addi : (⟨S1600, .i32⟩ : BufTy).Contents (Elt F) → (⟨S1600, .i32⟩ : BufTy).Contents (Elt F) → (⟨S1600, .i32⟩ : BufTy).Contents (Elt F)),
    ternary main_v14 main_v16 main_arg2 main_v17 (select : (⟨S1600, .i1⟩ : BufTy).Contents (Elt F) → (⟨S1600, .i32⟩ : BufTy).Contents (Elt F) → (⟨S1600, .i32⟩ : BufTy).Contents (Elt F) → (⟨S1600, .i32⟩ : BufTy).Contents (Elt F)),
    unary main_v17 main_v18 (broadcastInDim S1600x1 ![0] bcast_S1600_S1600x1_0 : (⟨S1600, .i32⟩ : BufTy).Contents (Elt F) → (⟨S1600x1, .i32⟩ : BufTy).Contents (Elt F)),
    binary main_v11 main_v18 main_v19 ((fun x i => Host.gather gather_S14400x91_S1600x1_S14400x1600_0_1_n_n_1_1_144001 x i) : (⟨S14400x91, .f32⟩ : BufTy).Contents (Elt F) → (⟨S1600x1, .i32⟩ : BufTy).Contents (Elt F) → (⟨S14400x1600, .f32⟩ : BufTy).Contents (Elt F)),
    unary main_v19 main_v20 (Host.negf : (⟨S14400x1600, .f32⟩ : BufTy).Contents (Elt F) → (⟨S14400x1600, .f32⟩ : BufTy).Contents (Elt F)),
    unary main_v12 main_v21 (broadcastInDim S14400x1x4 ![0, 2] bcast_S14400x4_S14400x1x4_0_2 : (⟨S14400x4, .f32⟩ : BufTy).Contents (Elt F) → (⟨S14400x1x4, .f32⟩ : BufTy).Contents (Elt F)),
    unary main_arg3 main_v22 (broadcastInDim S1x1600x4 ![1, 2] bcast_S1600x4_S1x1600x4_1_2 : (⟨S1600x4, .f32⟩ : BufTy).Contents (Elt F) → (⟨S1x1600x4, .f32⟩ : BufTy).Contents (Elt F)),
    unary main_v21 main_v23 (broadcastInDim S14400x1600x4 ![0, 1, 2] bcast_S14400x1x4_S14400x1600x4_0_1_2 : (⟨S14400x1x4, .f32⟩ : BufTy).Contents (Elt F) → (⟨S14400x1600x4, .f32⟩ : BufTy).Contents (Elt F)),
    unary main_v22 main_v24 (broadcastInDim S14400x1600x4 ![0, 1, 2] bcast_S1x1600x4_S14400x1600x4_0_1_2 : (⟨S1x1600x4, .f32⟩ : BufTy).Contents (Elt F) → (⟨S14400x1600x4, .f32⟩ : BufTy).Contents (Elt F)),
    binary main_v23 main_v24 main_v25 (subf : (⟨S14400x1600x4, .f32⟩ : BufTy).Contents (Elt F) → (⟨S14400x1600x4, .f32⟩ : BufTy).Contents (Elt F) → (⟨S14400x1600x4, .f32⟩ : BufTy).Contents (Elt F)),
    unary main_v25 main_v26 (Host.absf : (⟨S14400x1600x4, .f32⟩ : BufTy).Contents (Elt F) → (⟨S14400x1600x4, .f32⟩ : BufTy).Contents (Elt F)),
    nullary main_cst_3 (constant S_ .f32 0x00000000#32),
    binary main_v26 main_cst_3 main_v27 ((fun x v => Host.reduceAdd x v reducesTo_S14400x1600x4_S14400x1600_d2 h_S_) : (⟨S14400x1600x4, .f32⟩ : BufTy).Contents (Elt F) → (⟨S_, .f32⟩ : BufTy).Contents (Elt F) → (⟨S14400x1600, .f32⟩ : BufTy).Contents (Elt F)),
    nullary main_cst_4 (constant S_ .f32 0x00000000#32),
    nullary main_cst_5 (constant S_ .f32 0x3F800000#32),
    TRef.unary (.of main_cst_4) main_call0.v0 id,
    TRef.unary main_call0.v0 main_call0.v1 (broadcastInDim S14400x4 ![] bcast_S_S14400x4),
    TRef.binary main_call0.v1 (.of main_v12) main_call0.v2 maximumf,
    TRef.unary (.of main_cst_5) main_call0.v3 id,
    TRef.unary main_call0.v3 main_call0.v4 (broadcastInDim S14400x4 ![] bcast_S_S14400x4),
    TRef.binary main_call0.v4 main_call0.v2 main_call0.v5 minimumf,
    unary main_v28 main_v29 ((extractStridedSlice S14400x1 ![0, 0] · slices_S14400x4_S14400x1_0_0) : (⟨S14400x4, .f32⟩ : BufTy).Contents (Elt F) → (⟨S14400x1, .f32⟩ : BufTy).Contents (Elt F)),
    reshape main_v29 main_v30 rfl shapeCasts_S14400x1_S14400,
    unary main_v28 main_v31 ((extractStridedSlice S14400x1 ![0, 1] · slices_S14400x4_S14400x1_0_1) : (⟨S14400x4, .f32⟩ : BufTy).Contents (Elt F) → (⟨S14400x1, .f32⟩ : BufTy).Contents (Elt F)),
    reshape main_v31 main_v32 rfl shapeCasts_S14400x1_S14400,
    unary main_v28 main_v33 ((extractStridedSlice S14400x1 ![0, 2] · slices_S14400x4_S14400x1_0_2) : (⟨S14400x4, .f32⟩ : BufTy).Contents (Elt F) → (⟨S14400x1, .f32⟩ : BufTy).Contents (Elt F)),
    reshape main_v33 main_v34 rfl shapeCasts_S14400x1_S14400,
    unary main_v28 main_v35 ((extractStridedSlice S14400x1 ![0, 3] · slices_S14400x4_S14400x1_0_3) : (⟨S14400x4, .f32⟩ : BufTy).Contents (Elt F) → (⟨S14400x1, .f32⟩ : BufTy).Contents (Elt F)),
    reshape main_v35 main_v36 rfl shapeCasts_S14400x1_S14400,
    nullary main_cst_6 (constant S_ .f32 0x3F000000#32),
    unary main_cst_6 main_v37 (broadcastInDim S14400 ![] bcast_S_S14400 : (⟨S_, .f32⟩ : BufTy).Contents (Elt F) → (⟨S14400, .f32⟩ : BufTy).Contents (Elt F)),
    binary main_v37 main_v34 main_v38 (mulf : (⟨S14400, .f32⟩ : BufTy).Contents (Elt F) → (⟨S14400, .f32⟩ : BufTy).Contents (Elt F) → (⟨S14400, .f32⟩ : BufTy).Contents (Elt F)),
    binary main_v30 main_v38 main_v39 (subf : (⟨S14400, .f32⟩ : BufTy).Contents (Elt F) → (⟨S14400, .f32⟩ : BufTy).Contents (Elt F) → (⟨S14400, .f32⟩ : BufTy).Contents (Elt F)),
    nullary main_cst_7 (constant S_ .f32 0x3F000000#32),
    unary main_cst_7 main_v40 (broadcastInDim S14400 ![] bcast_S_S14400 : (⟨S_, .f32⟩ : BufTy).Contents (Elt F) → (⟨S14400, .f32⟩ : BufTy).Contents (Elt F)),
    binary main_v40 main_v36 main_v41 (mulf : (⟨S14400, .f32⟩ : BufTy).Contents (Elt F) → (⟨S14400, .f32⟩ : BufTy).Contents (Elt F) → (⟨S14400, .f32⟩ : BufTy).Contents (Elt F)),
    binary main_v32 main_v41 main_v42 (subf : (⟨S14400, .f32⟩ : BufTy).Contents (Elt F) → (⟨S14400, .f32⟩ : BufTy).Contents (Elt F) → (⟨S14400, .f32⟩ : BufTy).Contents (Elt F)),
    nullary main_cst_8 (constant S_ .f32 0x3F000000#32),
    unary main_cst_8 main_v43 (broadcastInDim S14400 ![] bcast_S_S14400 : (⟨S_, .f32⟩ : BufTy).Contents (Elt F) → (⟨S14400, .f32⟩ : BufTy).Contents (Elt F)),
    binary main_v43 main_v34 main_v44 (mulf : (⟨S14400, .f32⟩ : BufTy).Contents (Elt F) → (⟨S14400, .f32⟩ : BufTy).Contents (Elt F) → (⟨S14400, .f32⟩ : BufTy).Contents (Elt F)),
    binary main_v30 main_v44 main_v45 (addf : (⟨S14400, .f32⟩ : BufTy).Contents (Elt F) → (⟨S14400, .f32⟩ : BufTy).Contents (Elt F) → (⟨S14400, .f32⟩ : BufTy).Contents (Elt F)),
    nullary main_cst_9 (constant S_ .f32 0x3F000000#32),
    unary main_cst_9 main_v46 (broadcastInDim S14400 ![] bcast_S_S14400 : (⟨S_, .f32⟩ : BufTy).Contents (Elt F) → (⟨S14400, .f32⟩ : BufTy).Contents (Elt F)),
    binary main_v46 main_v36 main_v47 (mulf : (⟨S14400, .f32⟩ : BufTy).Contents (Elt F) → (⟨S14400, .f32⟩ : BufTy).Contents (Elt F) → (⟨S14400, .f32⟩ : BufTy).Contents (Elt F)),
    binary main_v32 main_v47 main_v48 (addf : (⟨S14400, .f32⟩ : BufTy).Contents (Elt F) → (⟨S14400, .f32⟩ : BufTy).Contents (Elt F) → (⟨S14400, .f32⟩ : BufTy).Contents (Elt F)),
    unary main_v39 main_v49 (broadcastInDim S14400x1 ![0] bcast_S14400_S14400x1_0 : (⟨S14400, .f32⟩ : BufTy).Contents (Elt F) → (⟨S14400x1, .f32⟩ : BufTy).Contents (Elt F)),
    unary main_v42 main_v50 (broadcastInDim S14400x1 ![0] bcast_S14400_S14400x1_0 : (⟨S14400, .f32⟩ : BufTy).Contents (Elt F) → (⟨S14400x1, .f32⟩ : BufTy).Contents (Elt F)),
    unary main_v45 main_v51 (broadcastInDim S14400x1 ![0] bcast_S14400_S14400x1_0 : (⟨S14400, .f32⟩ : BufTy).Contents (Elt F) → (⟨S14400x1, .f32⟩ : BufTy).Contents (Elt F)),
    unary main_v48 main_v52 (broadcastInDim S14400x1 ![0] bcast_S14400_S14400x1_0 : (⟨S14400, .f32⟩ : BufTy).Contents (Elt F) → (⟨S14400x1, .f32⟩ : BufTy).Contents (Elt F)),
    nary ![main_v49, main_v50, main_v51, main_v52] main_v53 (fun u => concatenate S14400x4 1 [⟨S14400x1, u 0⟩, ⟨S14400x1, u 1⟩, ⟨S14400x1, u 2⟩, ⟨S14400x1, u 3⟩] concatenates_S14400x1_S14400x1_S14400x1_S14400x1_S14400x4_d1),
    nullary main_cst_10 (constant S_ .f32 0x00000000#32),
    nullary main_cst_11 (constant S_ .f32 0x3F800000#32),
    TRef.unary (.of main_cst_10) main_call1.v0 id,
    TRef.unary main_call1.v0 main_call1.v1 (broadcastInDim S1600x4 ![] bcast_S_S1600x4),
    TRef.binary main_call1.v1 (.of main_arg3) main_call1.v2 maximumf,
    TRef.unary (.of main_cst_11) main_call1.v3 id,
    TRef.unary main_call1.v3 main_call1.v4 (broadcastInDim S1600x4 ![] bcast_S_S1600x4),
    TRef.binary main_call1.v4 main_call1.v2 main_call1.v5 minimumf,
    unary main_v54 main_v55 ((extractStridedSlice S1600x1 ![0, 0] · slices_S1600x4_S1600x1_0_0) : (⟨S1600x4, .f32⟩ : BufTy).Contents (Elt F) → (⟨S1600x1, .f32⟩ : BufTy).Contents (Elt F)),
    reshape main_v55 main_v56 rfl shapeCasts_S1600x1_S1600,
    unary main_v54 main_v57 ((extractStridedSlice S1600x1 ![0, 1] · slices_S1600x4_S1600x1_0_1) : (⟨S1600x4, .f32⟩ : BufTy).Contents (Elt F) → (⟨S1600x1, .f32⟩ : BufTy).Contents (Elt F)),
    reshape main_v57 main_v58 rfl shapeCasts_S1600x1_S1600,
    unary main_v54 main_v59 ((extractStridedSlice S1600x1 ![0, 2] · slices_S1600x4_S1600x1_0_2) : (⟨S1600x4, .f32⟩ : BufTy).Contents (Elt F) → (⟨S1600x1, .f32⟩ : BufTy).Contents (Elt F)),
    reshape main_v59 main_v60 rfl shapeCasts_S1600x1_S1600,
    unary main_v54 main_v61 ((extractStridedSlice S1600x1 ![0, 3] · slices_S1600x4_S1600x1_0_3) : (⟨S1600x4, .f32⟩ : BufTy).Contents (Elt F) → (⟨S1600x1, .f32⟩ : BufTy).Contents (Elt F)),
    reshape main_v61 main_v62 rfl shapeCasts_S1600x1_S1600,
    nullary main_cst_12 (constant S_ .f32 0x3F000000#32),
    unary main_cst_12 main_v63 (broadcastInDim S1600 ![] bcast_S_S1600 : (⟨S_, .f32⟩ : BufTy).Contents (Elt F) → (⟨S1600, .f32⟩ : BufTy).Contents (Elt F)),
    binary main_v63 main_v60 main_v64 (mulf : (⟨S1600, .f32⟩ : BufTy).Contents (Elt F) → (⟨S1600, .f32⟩ : BufTy).Contents (Elt F) → (⟨S1600, .f32⟩ : BufTy).Contents (Elt F)),
    binary main_v56 main_v64 main_v65 (subf : (⟨S1600, .f32⟩ : BufTy).Contents (Elt F) → (⟨S1600, .f32⟩ : BufTy).Contents (Elt F) → (⟨S1600, .f32⟩ : BufTy).Contents (Elt F)),
    nullary main_cst_13 (constant S_ .f32 0x3F000000#32),
    unary main_cst_13 main_v66 (broadcastInDim S1600 ![] bcast_S_S1600 : (⟨S_, .f32⟩ : BufTy).Contents (Elt F) → (⟨S1600, .f32⟩ : BufTy).Contents (Elt F)),
    binary main_v66 main_v62 main_v67 (mulf : (⟨S1600, .f32⟩ : BufTy).Contents (Elt F) → (⟨S1600, .f32⟩ : BufTy).Contents (Elt F) → (⟨S1600, .f32⟩ : BufTy).Contents (Elt F)),
    binary main_v58 main_v67 main_v68 (subf : (⟨S1600, .f32⟩ : BufTy).Contents (Elt F) → (⟨S1600, .f32⟩ : BufTy).Contents (Elt F) → (⟨S1600, .f32⟩ : BufTy).Contents (Elt F)),
    nullary main_cst_14 (constant S_ .f32 0x3F000000#32),
    unary main_cst_14 main_v69 (broadcastInDim S1600 ![] bcast_S_S1600 : (⟨S_, .f32⟩ : BufTy).Contents (Elt F) → (⟨S1600, .f32⟩ : BufTy).Contents (Elt F)),
    binary main_v69 main_v60 main_v70 (mulf : (⟨S1600, .f32⟩ : BufTy).Contents (Elt F) → (⟨S1600, .f32⟩ : BufTy).Contents (Elt F) → (⟨S1600, .f32⟩ : BufTy).Contents (Elt F)),
    binary main_v56 main_v70 main_v71 (addf : (⟨S1600, .f32⟩ : BufTy).Contents (Elt F) → (⟨S1600, .f32⟩ : BufTy).Contents (Elt F) → (⟨S1600, .f32⟩ : BufTy).Contents (Elt F)),
    nullary main_cst_15 (constant S_ .f32 0x3F000000#32),
    unary main_cst_15 main_v72 (broadcastInDim S1600 ![] bcast_S_S1600 : (⟨S_, .f32⟩ : BufTy).Contents (Elt F) → (⟨S1600, .f32⟩ : BufTy).Contents (Elt F)),
    binary main_v72 main_v62 main_v73 (mulf : (⟨S1600, .f32⟩ : BufTy).Contents (Elt F) → (⟨S1600, .f32⟩ : BufTy).Contents (Elt F) → (⟨S1600, .f32⟩ : BufTy).Contents (Elt F)),
    binary main_v58 main_v73 main_v74 (addf : (⟨S1600, .f32⟩ : BufTy).Contents (Elt F) → (⟨S1600, .f32⟩ : BufTy).Contents (Elt F) → (⟨S1600, .f32⟩ : BufTy).Contents (Elt F)),
    unary main_v65 main_v75 (broadcastInDim S1600x1 ![0] bcast_S1600_S1600x1_0 : (⟨S1600, .f32⟩ : BufTy).Contents (Elt F) → (⟨S1600x1, .f32⟩ : BufTy).Contents (Elt F)),
    unary main_v68 main_v76 (broadcastInDim S1600x1 ![0] bcast_S1600_S1600x1_0 : (⟨S1600, .f32⟩ : BufTy).Contents (Elt F) → (⟨S1600x1, .f32⟩ : BufTy).Contents (Elt F)),
    unary main_v71 main_v77 (broadcastInDim S1600x1 ![0] bcast_S1600_S1600x1_0 : (⟨S1600, .f32⟩ : BufTy).Contents (Elt F) → (⟨S1600x1, .f32⟩ : BufTy).Contents (Elt F)),
    unary main_v74 main_v78 (broadcastInDim S1600x1 ![0] bcast_S1600_S1600x1_0 : (⟨S1600, .f32⟩ : BufTy).Contents (Elt F) → (⟨S1600x1, .f32⟩ : BufTy).Contents (Elt F)),
    nary ![main_v75, main_v76, main_v77, main_v78] main_v79 (fun u => concatenate S1600x4 1 [⟨S1600x1, u 0⟩, ⟨S1600x1, u 1⟩, ⟨S1600x1, u 2⟩, ⟨S1600x1, u 3⟩] concatenates_S1600x1_S1600x1_S1600x1_S1600x1_S1600x4_d1),
    unary main_v53 main_v80 ((extractStridedSlice S14400x1 ![0, 2] · slices_S14400x4_S14400x1_0_2) : (⟨S14400x4, .f32⟩ : BufTy).Contents (Elt F) → (⟨S14400x1, .f32⟩ : BufTy).Contents (Elt F)),
    reshape main_v80 main_v81 rfl shapeCasts_S14400x1_S14400,
    unary main_v53 main_v82 ((extractStridedSlice S14400x1 ![0, 0] · slices_S14400x4_S14400x1_0_0) : (⟨S14400x4, .f32⟩ : BufTy).Contents (Elt F) → (⟨S14400x1, .f32⟩ : BufTy).Contents (Elt F)),
    reshape main_v82 main_v83 rfl shapeCasts_S14400x1_S14400,
    binary main_v81 main_v83 main_v84 (subf : (⟨S14400, .f32⟩ : BufTy).Contents (Elt F) → (⟨S14400, .f32⟩ : BufTy).Contents (Elt F) → (⟨S14400, .f32⟩ : BufTy).Contents (Elt F)),
    unary main_v53 main_v85 ((extractStridedSlice S14400x1 ![0, 3] · slices_S14400x4_S14400x1_0_3) : (⟨S14400x4, .f32⟩ : BufTy).Contents (Elt F) → (⟨S14400x1, .f32⟩ : BufTy).Contents (Elt F)),
    reshape main_v85 main_v86 rfl shapeCasts_S14400x1_S14400,
    unary main_v53 main_v87 ((extractStridedSlice S14400x1 ![0, 1] · slices_S14400x4_S14400x1_0_1) : (⟨S14400x4, .f32⟩ : BufTy).Contents (Elt F) → (⟨S14400x1, .f32⟩ : BufTy).Contents (Elt F)),
    reshape main_v87 main_v88 rfl shapeCasts_S14400x1_S14400,
    binary main_v86 main_v88 main_v89 (subf : (⟨S14400, .f32⟩ : BufTy).Contents (Elt F) → (⟨S14400, .f32⟩ : BufTy).Contents (Elt F) → (⟨S14400, .f32⟩ : BufTy).Contents (Elt F)),
    binary main_v84 main_v89 main_v90 (mulf : (⟨S14400, .f32⟩ : BufTy).Contents (Elt F) → (⟨S14400, .f32⟩ : BufTy).Contents (Elt F) → (⟨S14400, .f32⟩ : BufTy).Contents (Elt F)),
    unary main_v79 main_v91 ((extractStridedSlice S1600x1 ![0, 2] · slices_S1600x4_S1600x1_0_2) : (⟨S1600x4, .f32⟩ : BufTy).Contents (Elt F) → (⟨S1600x1, .f32⟩ : BufTy).Contents (Elt F)),
    reshape main_v91 main_v92 rfl shapeCasts_S1600x1_S1600,
    unary main_v79 main_v93 ((extractStridedSlice S1600x1 ![0, 0] · slices_S1600x4_S1600x1_0_0) : (⟨S1600x4, .f32⟩ : BufTy).Contents (Elt F) → (⟨S1600x1, .f32⟩ : BufTy).Contents (Elt F)),
    reshape main_v93 main_v94 rfl shapeCasts_S1600x1_S1600,
    binary main_v92 main_v94 main_v95 (subf : (⟨S1600, .f32⟩ : BufTy).Contents (Elt F) → (⟨S1600, .f32⟩ : BufTy).Contents (Elt F) → (⟨S1600, .f32⟩ : BufTy).Contents (Elt F)),
    unary main_v79 main_v96 ((extractStridedSlice S1600x1 ![0, 3] · slices_S1600x4_S1600x1_0_3) : (⟨S1600x4, .f32⟩ : BufTy).Contents (Elt F) → (⟨S1600x1, .f32⟩ : BufTy).Contents (Elt F)),
    reshape main_v96 main_v97 rfl shapeCasts_S1600x1_S1600,
    unary main_v79 main_v98 ((extractStridedSlice S1600x1 ![0, 1] · slices_S1600x4_S1600x1_0_1) : (⟨S1600x4, .f32⟩ : BufTy).Contents (Elt F) → (⟨S1600x1, .f32⟩ : BufTy).Contents (Elt F)),
    reshape main_v98 main_v99 rfl shapeCasts_S1600x1_S1600,
    binary main_v97 main_v99 main_v100 (subf : (⟨S1600, .f32⟩ : BufTy).Contents (Elt F) → (⟨S1600, .f32⟩ : BufTy).Contents (Elt F) → (⟨S1600, .f32⟩ : BufTy).Contents (Elt F)),
    binary main_v95 main_v100 main_v101 (mulf : (⟨S1600, .f32⟩ : BufTy).Contents (Elt F) → (⟨S1600, .f32⟩ : BufTy).Contents (Elt F) → (⟨S1600, .f32⟩ : BufTy).Contents (Elt F)),
    unary main_v53 main_v102 ((extractStridedSlice S14400x2 ![0, 0] · slices_S14400x4_S14400x2_0_0) : (⟨S14400x4, .f32⟩ : BufTy).Contents (Elt F) → (⟨S14400x2, .f32⟩ : BufTy).Contents (Elt F)),
    unary main_v102 main_v103 (broadcastInDim S14400x1x2 ![0, 2] bcast_S14400x2_S14400x1x2_0_2 : (⟨S14400x2, .f32⟩ : BufTy).Contents (Elt F) → (⟨S14400x1x2, .f32⟩ : BufTy).Contents (Elt F)),
    unary main_v79 main_v104 ((extractStridedSlice S1600x2 ![0, 0] · slices_S1600x4_S1600x2_0_0) : (⟨S1600x4, .f32⟩ : BufTy).Contents (Elt F) → (⟨S1600x2, .f32⟩ : BufTy).Contents (Elt F)),
    unary main_v104 main_v105 (broadcastInDim S1x1600x2 ![1, 2] bcast_S1600x2_S1x1600x2_1_2 : (⟨S1600x2, .f32⟩ : BufTy).Contents (Elt F) → (⟨S1x1600x2, .f32⟩ : BufTy).Contents (Elt F)),
    unary main_v103 main_v106 (broadcastInDim S14400x1600x2 ![0, 1, 2] bcast_S14400x1x2_S14400x1600x2_0_1_2 : (⟨S14400x1x2, .f32⟩ : BufTy).Contents (Elt F) → (⟨S14400x1600x2, .f32⟩ : BufTy).Contents (Elt F)),
    unary main_v105 main_v107 (broadcastInDim S14400x1600x2 ![0, 1, 2] bcast_S1x1600x2_S14400x1600x2_0_1_2 : (⟨S1x1600x2, .f32⟩ : BufTy).Contents (Elt F) → (⟨S14400x1600x2, .f32⟩ : BufTy).Contents (Elt F)),
    binary main_v106 main_v107 main_v108 (maximumf : (⟨S14400x1600x2, .f32⟩ : BufTy).Contents (Elt F) → (⟨S14400x1600x2, .f32⟩ : BufTy).Contents (Elt F) → (⟨S14400x1600x2, .f32⟩ : BufTy).Contents (Elt F)),
    unary main_v53 main_v109 ((extractStridedSlice S14400x2 ![0, 2] · slices_S14400x4_S14400x2_0_2) : (⟨S14400x4, .f32⟩ : BufTy).Contents (Elt F) → (⟨S14400x2, .f32⟩ : BufTy).Contents (Elt F)),
    unary main_v109 main_v110 (broadcastInDim S14400x1x2 ![0, 2] bcast_S14400x2_S14400x1x2_0_2 : (⟨S14400x2, .f32⟩ : BufTy).Contents (Elt F) → (⟨S14400x1x2, .f32⟩ : BufTy).Contents (Elt F)),
    unary main_v79 main_v111 ((extractStridedSlice S1600x2 ![0, 2] · slices_S1600x4_S1600x2_0_2) : (⟨S1600x4, .f32⟩ : BufTy).Contents (Elt F) → (⟨S1600x2, .f32⟩ : BufTy).Contents (Elt F)),
    unary main_v111 main_v112 (broadcastInDim S1x1600x2 ![1, 2] bcast_S1600x2_S1x1600x2_1_2 : (⟨S1600x2, .f32⟩ : BufTy).Contents (Elt F) → (⟨S1x1600x2, .f32⟩ : BufTy).Contents (Elt F)),
    unary main_v110 main_v113 (broadcastInDim S14400x1600x2 ![0, 1, 2] bcast_S14400x1x2_S14400x1600x2_0_1_2 : (⟨S14400x1x2, .f32⟩ : BufTy).Contents (Elt F) → (⟨S14400x1600x2, .f32⟩ : BufTy).Contents (Elt F)),
    unary main_v112 main_v114 (broadcastInDim S14400x1600x2 ![0, 1, 2] bcast_S1x1600x2_S14400x1600x2_0_1_2 : (⟨S1x1600x2, .f32⟩ : BufTy).Contents (Elt F) → (⟨S14400x1600x2, .f32⟩ : BufTy).Contents (Elt F)),
    binary main_v113 main_v114 main_v115 (minimumf : (⟨S14400x1600x2, .f32⟩ : BufTy).Contents (Elt F) → (⟨S14400x1600x2, .f32⟩ : BufTy).Contents (Elt F) → (⟨S14400x1600x2, .f32⟩ : BufTy).Contents (Elt F)),
    binary main_v115 main_v108 main_v116 (subf : (⟨S14400x1600x2, .f32⟩ : BufTy).Contents (Elt F) → (⟨S14400x1600x2, .f32⟩ : BufTy).Contents (Elt F) → (⟨S14400x1600x2, .f32⟩ : BufTy).Contents (Elt F)),
    nullary main_c_16 (constantI S_ 32 0#32),
    TRef.unary (.of main_c_16) main_call2.v0 (sitofp .f32),
    TRef.unary main_call2.v0 main_call2.v1 (broadcastInDim S14400x1600x2 ![] bcast_S_S14400x1600x2),
    TRef.binary main_call2.v1 (.of main_v116) main_call2.v2 maximumf,
    unary main_v117 main_v118 ((extractStridedSlice S14400x1600x1 ![0, 0, 0] · slices_S14400x1600x2_S14400x1600x1_0_0_0) : (⟨S14400x1600x2, .f32⟩ : BufTy).Contents (Elt F) → (⟨S14400x1600x1, .f32⟩ : BufTy).Contents (Elt F)),
    reshape main_v118 main_v119 rfl shapeCasts_S14400x1600x1_S14400x1600,
    unary main_v117 main_v120 ((extractStridedSlice S14400x1600x1 ![0, 0, 1] · slices_S14400x1600x2_S14400x1600x1_0_0_1) : (⟨S14400x1600x2, .f32⟩ : BufTy).Contents (Elt F) → (⟨S14400x1600x1, .f32⟩ : BufTy).Contents (Elt F)),
    reshape main_v120 main_v121 rfl shapeCasts_S14400x1600x1_S14400x1600,
    binary main_v119 main_v121 main_v122 (mulf : (⟨S14400x1600, .f32⟩ : BufTy).Contents (Elt F) → (⟨S14400x1600, .f32⟩ : BufTy).Contents (Elt F) → (⟨S14400x1600, .f32⟩ : BufTy).Contents (Elt F)),
    unary main_v90 main_v123 (broadcastInDim S14400x1 ![0] bcast_S14400_S14400x1_0 : (⟨S14400, .f32⟩ : BufTy).Contents (Elt F) → (⟨S14400x1, .f32⟩ : BufTy).Contents (Elt F)),
    unary main_v101 main_v124 (broadcastInDim S1x1600 ![1] bcast_S1600_S1x1600_1 : (⟨S1600, .f32⟩ : BufTy).Contents (Elt F) → (⟨S1x1600, .f32⟩ : BufTy).Contents (Elt F)),
    unary main_v123 main_v125 (broadcastInDim S14400x1600 ![0, 1] bcast_S14400x1_S14400x1600_0_1 : (⟨S14400x1, .f32⟩ : BufTy).Contents (Elt F) → (⟨S14400x1600, .f32⟩ : BufTy).Contents (Elt F)),
    unary main_v124 main_v126 (broadcastInDim S14400x1600 ![0, 1] bcast_S1x1600_S14400x1600_0_1 : (⟨S1x1600, .f32⟩ : BufTy).Contents (Elt F) → (⟨S14400x1600, .f32⟩ : BufTy).Contents (Elt F)),
    binary main_v125 main_v126 main_v127 (addf : (⟨S14400x1600, .f32⟩ : BufTy).Contents (Elt F) → (⟨S14400x1600, .f32⟩ : BufTy).Contents (Elt F) → (⟨S14400x1600, .f32⟩ : BufTy).Contents (Elt F)),
    binary main_v127 main_v122 main_v128 (subf : (⟨S14400x1600, .f32⟩ : BufTy).Contents (Elt F) → (⟨S14400x1600, .f32⟩ : BufTy).Contents (Elt F) → (⟨S14400x1600, .f32⟩ : BufTy).Contents (Elt F)),
    binary main_v122 main_v128 main_v129 (Host.divf : (⟨S14400x1600, .f32⟩ : BufTy).Contents (Elt F) → (⟨S14400x1600, .f32⟩ : BufTy).Contents (Elt F) → (⟨S14400x1600, .f32⟩ : BufTy).Contents (Elt F)),
    unary main_v53 main_v130 ((extractStridedSlice S14400x2 ![0, 0] · slices_S14400x4_S14400x2_0_0) : (⟨S14400x4, .f32⟩ : BufTy).Contents (Elt F) → (⟨S14400x2, .f32⟩ : BufTy).Contents (Elt F)),
    unary main_v130 main_v131 (broadcastInDim S14400x1x2 ![0, 2] bcast_S14400x2_S14400x1x2_0_2 : (⟨S14400x2, .f32⟩ : BufTy).Contents (Elt F) → (⟨S14400x1x2, .f32⟩ : BufTy).Contents (Elt F)),
    unary main_v79 main_v132 ((extractStridedSlice S1600x2 ![0, 0] · slices_S1600x4_S1600x2_0_0) : (⟨S1600x4, .f32⟩ : BufTy).Contents (Elt F) → (⟨S1600x2, .f32⟩ : BufTy).Contents (Elt F)),
    unary main_v132 main_v133 (broadcastInDim S1x1600x2 ![1, 2] bcast_S1600x2_S1x1600x2_1_2 : (⟨S1600x2, .f32⟩ : BufTy).Contents (Elt F) → (⟨S1x1600x2, .f32⟩ : BufTy).Contents (Elt F)),
    unary main_v131 main_v134 (broadcastInDim S14400x1600x2 ![0, 1, 2] bcast_S14400x1x2_S14400x1600x2_0_1_2 : (⟨S14400x1x2, .f32⟩ : BufTy).Contents (Elt F) → (⟨S14400x1600x2, .f32⟩ : BufTy).Contents (Elt F)),
    unary main_v133 main_v135 (broadcastInDim S14400x1600x2 ![0, 1, 2] bcast_S1x1600x2_S14400x1600x2_0_1_2 : (⟨S1x1600x2, .f32⟩ : BufTy).Contents (Elt F) → (⟨S14400x1600x2, .f32⟩ : BufTy).Contents (Elt F)),
    binary main_v134 main_v135 main_v136 (minimumf : (⟨S14400x1600x2, .f32⟩ : BufTy).Contents (Elt F) → (⟨S14400x1600x2, .f32⟩ : BufTy).Contents (Elt F) → (⟨S14400x1600x2, .f32⟩ : BufTy).Contents (Elt F)),
    unary main_v53 main_v137 ((extractStridedSlice S14400x2 ![0, 2] · slices_S14400x4_S14400x2_0_2) : (⟨S14400x4, .f32⟩ : BufTy).Contents (Elt F) → (⟨S14400x2, .f32⟩ : BufTy).Contents (Elt F)),
    unary main_v137 main_v138 (broadcastInDim S14400x1x2 ![0, 2] bcast_S14400x2_S14400x1x2_0_2 : (⟨S14400x2, .f32⟩ : BufTy).Contents (Elt F) → (⟨S14400x1x2, .f32⟩ : BufTy).Contents (Elt F)),
    unary main_v79 main_v139 ((extractStridedSlice S1600x2 ![0, 2] · slices_S1600x4_S1600x2_0_2) : (⟨S1600x4, .f32⟩ : BufTy).Contents (Elt F) → (⟨S1600x2, .f32⟩ : BufTy).Contents (Elt F)),
    unary main_v139 main_v140 (broadcastInDim S1x1600x2 ![1, 2] bcast_S1600x2_S1x1600x2_1_2 : (⟨S1600x2, .f32⟩ : BufTy).Contents (Elt F) → (⟨S1x1600x2, .f32⟩ : BufTy).Contents (Elt F)),
    unary main_v138 main_v141 (broadcastInDim S14400x1600x2 ![0, 1, 2] bcast_S14400x1x2_S14400x1600x2_0_1_2 : (⟨S14400x1x2, .f32⟩ : BufTy).Contents (Elt F) → (⟨S14400x1600x2, .f32⟩ : BufTy).Contents (Elt F)),
    unary main_v140 main_v142 (broadcastInDim S14400x1600x2 ![0, 1, 2] bcast_S1x1600x2_S14400x1600x2_0_1_2 : (⟨S1x1600x2, .f32⟩ : BufTy).Contents (Elt F) → (⟨S14400x1600x2, .f32⟩ : BufTy).Contents (Elt F)),
    binary main_v141 main_v142 main_v143 (maximumf : (⟨S14400x1600x2, .f32⟩ : BufTy).Contents (Elt F) → (⟨S14400x1600x2, .f32⟩ : BufTy).Contents (Elt F) → (⟨S14400x1600x2, .f32⟩ : BufTy).Contents (Elt F)),
    binary main_v143 main_v136 main_v144 (subf : (⟨S14400x1600x2, .f32⟩ : BufTy).Contents (Elt F) → (⟨S14400x1600x2, .f32⟩ : BufTy).Contents (Elt F) → (⟨S14400x1600x2, .f32⟩ : BufTy).Contents (Elt F)),
    nullary main_c_17 (constantI S_ 32 0#32),
    TRef.unary (.of main_c_17) main_call3.v0 (sitofp .f32),
    TRef.unary main_call3.v0 main_call3.v1 (broadcastInDim S14400x1600x2 ![] bcast_S_S14400x1600x2),
    TRef.binary main_call3.v1 (.of main_v144) main_call3.v2 maximumf,
    unary main_v145 main_v146 ((extractStridedSlice S14400x1600x1 ![0, 0, 0] · slices_S14400x1600x2_S14400x1600x1_0_0_0) : (⟨S14400x1600x2, .f32⟩ : BufTy).Contents (Elt F) → (⟨S14400x1600x1, .f32⟩ : BufTy).Contents (Elt F)),
    reshape main_v146 main_v147 rfl shapeCasts_S14400x1600x1_S14400x1600,
    unary main_v145 main_v148 ((extractStridedSlice S14400x1600x1 ![0, 0, 1] · slices_S14400x1600x2_S14400x1600x1_0_0_1) : (⟨S14400x1600x2, .f32⟩ : BufTy).Contents (Elt F) → (⟨S14400x1600x1, .f32⟩ : BufTy).Contents (Elt F)),
    reshape main_v148 main_v149 rfl shapeCasts_S14400x1600x1_S14400x1600,
    binary main_v147 main_v149 main_v150 (mulf : (⟨S14400x1600, .f32⟩ : BufTy).Contents (Elt F) → (⟨S14400x1600, .f32⟩ : BufTy).Contents (Elt F) → (⟨S14400x1600, .f32⟩ : BufTy).Contents (Elt F)),
    binary main_v150 main_v128 main_v151 (subf : (⟨S14400x1600, .f32⟩ : BufTy).Contents (Elt F) → (⟨S14400x1600, .f32⟩ : BufTy).Contents (Elt F) → (⟨S14400x1600, .f32⟩ : BufTy).Contents (Elt F)),
    binary main_v151 main_v150 main_v152 (Host.divf : (⟨S14400x1600, .f32⟩ : BufTy).Contents (Elt F) → (⟨S14400x1600, .f32⟩ : BufTy).Contents (Elt F) → (⟨S14400x1600, .f32⟩ : BufTy).Contents (Elt F)),
    binary main_v129 main_v152 main_v153 (subf : (⟨S14400x1600, .f32⟩ : BufTy).Contents (Elt F) → (⟨S14400x1600, .f32⟩ : BufTy).Contents (Elt F) → (⟨S14400x1600, .f32⟩ : BufTy).Contents (Elt F)),
    unary main_v153 main_v154 (Host.negf : (⟨S14400x1600, .f32⟩ : BufTy).Contents (Elt F) → (⟨S14400x1600, .f32⟩ : BufTy).Contents (Elt F)),
    nullary main_cst_18 (constant S_ .f32 0x3F800000#32),
    unary main_cst_18 main_v155 (broadcastInDim S14400x1600 ![] bcast_S_S14400x1600 : (⟨S_, .f32⟩ : BufTy).Contents (Elt F) → (⟨S14400x1600, .f32⟩ : BufTy).Contents (Elt F)),
    binary main_v155 main_v20 main_v156 (mulf : (⟨S14400x1600, .f32⟩ : BufTy).Contents (Elt F) → (⟨S14400x1600, .f32⟩ : BufTy).Contents (Elt F) → (⟨S14400x1600, .f32⟩ : BufTy).Contents (Elt F)),
    nullary main_cst_19 (constant S_ .f32 0x40A00000#32),
    unary main_cst_19 main_v157 (broadcastInDim S14400x1600 ![] bcast_S_S14400x1600 : (⟨S_, .f32⟩ : BufTy).Contents (Elt F) → (⟨S14400x1600, .f32⟩ : BufTy).Contents (Elt F)),
    binary main_v157 main_v27 main_v158 (mulf : (⟨S14400x1600, .f32⟩ : BufTy).Contents (Elt F) → (⟨S14400x1600, .f32⟩ : BufTy).Contents (Elt F) → (⟨S14400x1600, .f32⟩ : BufTy).Contents (Elt F)),
    binary main_v156 main_v158 main_v159 (addf : (⟨S14400x1600, .f32⟩ : BufTy).Contents (Elt F) → (⟨S14400x1600, .f32⟩ : BufTy).Contents (Elt F) → (⟨S14400x1600, .f32⟩ : BufTy).Contents (Elt F)),
    nullary main_cst_20 (constant S_ .f32 0x40000000#32),
    unary main_cst_20 main_v160 (broadcastInDim S14400x1600 ![] bcast_S_S14400x1600 : (⟨S_, .f32⟩ : BufTy).Contents (Elt F) → (⟨S14400x1600, .f32⟩ : BufTy).Contents (Elt F)),
    binary main_v160 main_v154 main_v161 (mulf : (⟨S14400x1600, .f32⟩ : BufTy).Contents (Elt F) → (⟨S14400x1600, .f32⟩ : BufTy).Contents (Elt F) → (⟨S14400x1600, .f32⟩ : BufTy).Contents (Elt F)),
    binary main_v159 main_v161 main_v162 (addf : (⟨S14400x1600, .f32⟩ : BufTy).Contents (Elt F) → (⟨S14400x1600, .f32⟩ : BufTy).Contents (Elt F) → (⟨S14400x1600, .f32⟩ : BufTy).Contents (Elt F)),
    reshape main_v162 main_v163 rfl shapeCasts_S14400x1600_S16x900x1600,
    nullary main_cst_21 (constant S_ .f32 0x461C4000#32),
    nullary main_cst_22 (constant S_ .f32 0xC61C4000#32),
    nullary main_cst_23 (constant S_ .f32 0x461C4000#32),
    TRef.binary (.of main_v163) (.of main_v163) main_call4.v0 (cmpf .une),
    TRef.unary (.of main_cst_21) main_call4.v1 id,
    TRef.unary main_call4.v1 main_call4.call0.v0 (broadcastInDim S16x900x1600 ![] bcast_S_S16x900x1600),
    TRef.ternary main_call4.v0 main_call4.call0.v0 (.of main_v163) main_call4.call0.v1 select,
    TRef.nullary main_call4.cst (constant S_ .f32 0x7F800000#32),
    TRef.unary main_call4.cst main_call4.v3 (broadcastInDim S16x900x1600 ![] bcast_S_S16x900x1600),
    TRef.binary main_call4.call0.v1 main_call4.v3 main_call4.v4 (cmpf .oeq),
    TRef.unary (.of main_cst_23) main_call4.v5 id,
    TRef.unary main_call4.v5 main_call4.call1.v0 (broadcastInDim S16x900x1600 ![] bcast_S_S16x900x1600),
    TRef.ternary main_call4.v4 main_call4.call1.v0 main_call4.call0.v1 main_call4.call1.v1 select,
    TRef.nullary main_call4.cst_0 (constant S_ .f32 0xFF800000#32),
    TRef.unary main_call4.cst_0 main_call4.v7 (broadcastInDim S16x900x1600 ![] bcast_S_S16x900x1600),
    TRef.binary main_call4.call1.v1 main_call4.v7 main_call4.v8 (cmpf .oeq),
    TRef.unary (.of main_cst_22) main_call4.v9 id,
    TRef.unary main_call4.v9 main_call4.call2.v0 (broadcastInDim S16x900x1600 ![] bcast_S_S16x900x1600),
    TRef.ternary main_call4.v8 main_call4.call2.v0 main_call4.call1.v1 main_call4.call2.v1 select ]

theorem ops_sub : (ops : List (HloOp τ sig (Elt F))).Forall fun op => op.bufs ⊆ tcRefs τ sig :=
  ⟨reshape_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., unary_bufs_sub .., unary_bufs_sub .., unary_bufs_sub .., binary_bufs_sub .., unary_bufs_sub .., nullary_bufs_sub .., binary_bufs_sub .., nullary_bufs_sub .., nullary_bufs_sub .., unary_bufs_sub .., unary_bufs_sub .., binary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub .., unary_bufs_sub .., unary_bufs_sub .., unary_bufs_sub .., nary_bufs_sub .., nullary_bufs_sub .., nullary_bufs_sub .., unary_bufs_sub .., unary_bufs_sub .., binary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub .., unary_bufs_sub .., unary_bufs_sub .., unary_bufs_sub .., nary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., unary_bufs_sub .., unary_bufs_sub .., unary_bufs_sub .., unary_bufs_sub .., unary_bufs_sub .., binary_bufs_sub .., unary_bufs_sub .., unary_bufs_sub .., unary_bufs_sub .., unary_bufs_sub .., unary_bufs_sub .., unary_bufs_sub .., binary_bufs_sub .., binary_bufs_sub .., nullary_bufs_sub .., unary_bufs_sub .., unary_bufs_sub .., binary_bufs_sub .., unary_bufs_sub .., reshape_bufs_sub .., unary_bufs_sub .., reshape_bufs_sub .., binary_bufs_sub .., unary_bufs_sub .., unary_bufs_sub .., unary_bufs_sub .., unary_bufs_sub .., binary_bufs_sub .., binary_bufs_sub .., binary_bufs_sub .., unary_bufs_sub .., unary_bufs_sub .., unary_bufs_sub .., unary_bufs_sub .., unary_bufs_sub .., unary_bufs_sub .., binary_bufs_sub .., unary_bufs_sub .., unary_bufs_sub .., unary_bufs_sub .., unary_bufs_sub .., unary_bufs_sub .., unary_bufs_sub .., binary_bufs_sub .., binary_bufs_sub .., nullary_bufs_sub .., unary_bufs_sub .., unary_bufs_sub .., binary_bufs_sub .., unary_bufs_sub .., reshape_bufs_sub .., unary_bufs_sub .., reshape_bufs_sub .., binary_bufs_sub .., binary_bufs_sub .., binary_bufs_sub .., binary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., reshape_bufs_sub .., nullary_bufs_sub .., nullary_bufs_sub .., nullary_bufs_sub .., binary_bufs_sub .., unary_bufs_sub .., unary_bufs_sub .., ternary_bufs_sub .., nullary_bufs_sub .., unary_bufs_sub .., binary_bufs_sub .., unary_bufs_sub .., unary_bufs_sub .., ternary_bufs_sub .., nullary_bufs_sub .., unary_bufs_sub .., binary_bufs_sub .., unary_bufs_sub .., unary_bufs_sub .., ternary_bufs_sub ..⟩

end Cert.RefRun

end
-- ==== Proof.RefTerm.lean ====
/-
  The reference's result as one pure function of its four arguments, cut into the stages its mathematics has:
  the row softmax of the flattened logits; the class cost (the softmax gathered at the target ids, negated);
  the L1 box cost (a sum over the four coordinates of a [14400, 1600, 4] difference); the boxes clamped and
  turned into corner form; the areas; the intersection, the union and the enclosing box of every pair, taken
  on [14400, 1600, 2] arrays of (x, y) pairs; the generalized IoU; the weighted total, reshaped to
  [16, 900, 1600]; and the replacement of the non-finite outcomes.

  Each stage is the program's own operations in the program's own order, at any float instance.
-/
import proofs.«428247_j86973087744537_1_alg».proof.ReferenceIdeal

noncomputable section

namespace Cert.RefStages

open Idealize.ShloMosaic Cert.ReferenceIdeal Cert.ReferenceIdeal.Facts₀ Cert.ReferenceIdeal.Facts

variable {F : FTy → Type} [FloatOps F] [Cert.ReferenceIdeal.Facts]

/-! ## The softmax over the classes -/

/-- The logits with batch and query flattened into one row axis. -/
def flatLogits (a0 : FVec F S16x900x91 .f32) : FVec F S14400x91 .f32 :=
  shapeCast S14400x91 a0 shapeCasts_S16x900x91_S14400x91

/-- A per-row value spread over the row's 91 classes. -/
def overClasses (v : FVec F S14400 .f32) : FVec F S14400x91 .f32 :=
  broadcastInDim S14400x91 ![0, 1] bcast_S14400x1_S14400x91_0_1 (broadcastInDim S14400x1 ![0] bcast_S14400_S14400x1_0 v)

/-- Each row's maximum (joined once more with minus infinity, as the program does). -/
def rowMaxT (x : FVec F S14400x91 .f32) : FVec F S14400 .f32 :=
  maximumf (broadcastInDim S14400 ![] bcast_S_S14400 (constant S_ .f32 0xFF800000#32))
    (Host.reduce FloatOps.maximumf x (constant S_ .f32 0xFF800000#32) reducesTo_S14400x91_S14400_d1 h_S_)

/-- The exponentials of the logits shifted by their row's maximum. -/
def expT (x : FVec F S14400x91 .f32) : FVec F S14400x91 .f32 := Host.exp (subf x (overClasses (rowMaxT x)))

/-- The softmax of every row. -/
def probT (x : FVec F S14400x91 .f32) : FVec F S14400x91 .f32 :=
  Host.divf (expT x) (overClasses (Host.reduceAdd (expT x) (constant S_ .f32 0x00000000#32) reducesTo_S14400x91_S14400_d1 h_S_))

/-! ## The class cost -/

/-- The target ids as gather indices: a negative id counted from the end, then as a column. -/
def idxT (a2 : IVec S1600 32) : IVec S1600x1 32 :=
  broadcastInDim S1600x1 ![0] bcast_S1600_S1600x1_0
    (select (cmpi .slt a2 (broadcastInDim S1600 ![] bcast_S_S1600 (constantI S_ 32 0#32)))
      (addi a2 (broadcastInDim S1600 ![] bcast_S_S1600 (constantI S_ 32 91#32))) a2)

/-- Minus the probability of each target's class, for every query row. -/
def classT (p : FVec F S14400x91 .f32) (a2 : IVec S1600 32) : FVec F S14400x1600 .f32 :=
  Host.negf (Host.gather gather_S14400x91_S1600x1_S14400x1600_0_1_n_n_1_1_144001 p (idxT a2))

/-! ## The L1 box cost -/

/-- The boxes with batch and query flattened. -/
def flatBoxes (a1 : FVec F S16x900x4 .f32) : FVec F S14400x4 .f32 :=
  shapeCast S14400x4 a1 shapeCasts_S16x900x4_S14400x4

/-- The sum over the four coordinates of the absolute differences of every (query, target) pair of raw boxes. -/
def l1T (B : FVec F S14400x4 .f32) (a3 : FVec F S1600x4 .f32) : FVec F S14400x1600 .f32 :=
  Host.reduceAdd
    (Host.absf (subf
      (broadcastInDim S14400x1600x4 ![0, 1, 2] bcast_S14400x1x4_S14400x1600x4_0_1_2
        (broadcastInDim S14400x1x4 ![0, 2] bcast_S14400x4_S14400x1x4_0_2 B))
      (broadcastInDim S14400x1600x4 ![0, 1, 2] bcast_S1x1600x4_S14400x1600x4_0_1_2
        (broadcastInDim S1x1600x4 ![1, 2] bcast_S1600x4_S1x1600x4_1_2 a3))))
    (constant S_ .f32 0x00000000#32) reducesTo_S14400x1600x4_S14400x1600_d2 h_S_

/-! ## Clamping to [0, 1] and the corner form -/

/-- The query boxes clamped to [0, 1]. -/
def clipQ (X : FVec F S14400x4 .f32) : FVec F S14400x4 .f32 :=
  minimumf (broadcastInDim S14400x4 ![] bcast_S_S14400x4 (constant S_ .f32 0x3F800000#32))
    (maximumf (broadcastInDim S14400x4 ![] bcast_S_S14400x4 (constant S_ .f32 0x00000000#32)) X)

/-- The target boxes clamped to [0, 1]. -/
def clipT (X : FVec F S1600x4 .f32) : FVec F S1600x4 .f32 :=
  minimumf (broadcastInDim S1600x4 ![] bcast_S_S1600x4 (constant S_ .f32 0x3F800000#32))
    (maximumf (broadcastInDim S1600x4 ![] bcast_S_S1600x4 (constant S_ .f32 0x00000000#32)) X)

/-- The four columns of a [14400, 4] array, each as a vector. -/
def colQ0 (X : FVec F S14400x4 .f32) : FVec F S14400 .f32 :=
  shapeCast S14400 (extractStridedSlice S14400x1 ![0, 0] X slices_S14400x4_S14400x1_0_0) shapeCasts_S14400x1_S14400
def colQ1 (X : FVec F S14400x4 .f32) : FVec F S14400 .f32 :=
  shapeCast S14400 (extractStridedSlice S14400x1 ![0, 1] X slices_S14400x4_S14400x1_0_1) shapeCasts_S14400x1_S14400
def colQ2 (X : FVec F S14400x4 .f32) : FVec F S14400 .f32 :=
  shapeCast S14400 (extractStridedSlice S14400x1 ![0, 2] X slices_S14400x4_S14400x1_0_2) shapeCasts_S14400x1_S14400
def colQ3 (X : FVec F S14400x4 .f32) : FVec F S14400 .f32 :=
  shapeCast S14400 (extractStridedSlice S14400x1 ![0, 3] X slices_S14400x4_S14400x1_0_3) shapeCasts_S14400x1_S14400

/-- The four columns of a [1600, 4] array, each as a vector. -/
def colT0 (X : FVec F S1600x4 .f32) : FVec F S1600 .f32 :=
  shapeCast S1600 (extractStridedSlice S1600x1 ![0, 0] X slices_S1600x4_S1600x1_0_0) shapeCasts_S1600x1_S1600
def colT1 (X : FVec F S1600x4 .f32) : FVec F S1600 .f32 :=
  shapeCast S1600 (extractStridedSlice S1600x1 ![0, 1] X slices_S1600x4_S1600x1_0_1) shapeCasts_S1600x1_S1600
def colT2 (X : FVec F S1600x4 .f32) : FVec F S1600 .f32 :=
  shapeCast S1600 (extractStridedSlice S1600x1 ![0, 2] X slices_S1600x4_S1600x1_0_2) shapeCasts_S1600x1_S1600
def colT3 (X : FVec F S1600x4 .f32) : FVec F S1600 .f32 :=
  shapeCast S1600 (extractStridedSlice S1600x1 ![0, 3] X slices_S1600x4_S1600x1_0_3) shapeCasts_S1600x1_S1600

/-- One half, on every query row. -/
def halfQ : FVec F S14400 .f32 := broadcastInDim S14400 ![] bcast_S_S14400 (constant S_ .f32 0x3F000000#32)
/-- One half, on every target. -/
def halfT : FVec F S1600 .f32 := broadcastInDim S1600 ![] bcast_S_S1600 (constant S_ .f32 0x3F000000#32)

/-- A vector over the query rows as a one-column matrix. -/
def asColQ (v : FVec F S14400 .f32) : FVec F S14400x1 .f32 := broadcastInDim S14400x1 ![0] bcast_S14400_S14400x1_0 v
/-- A vector over the targets as a one-column matrix. -/
def asColT (v : FVec F S1600 .f32) : FVec F S1600x1 .f32 := broadcastInDim S1600x1 ![0] bcast_S1600_S1600x1_0 v

/-- (cx, cy, w, h) rows to (x1, y1, x2, y2) rows: centre minus and plus half the extent, the four columns joined. -/
def xyxyQ (X : FVec F S14400x4 .f32) : FVec F S14400x4 .f32 :=
  concatenate S14400x4 1
    [⟨S14400x1, asColQ (subf (colQ0 X) (mulf halfQ (colQ2 X)))⟩, ⟨S14400x1, asColQ (subf (colQ1 X) (mulf halfQ (colQ3 X)))⟩,
     ⟨S14400x1, asColQ (addf (colQ0 X) (mulf halfQ (colQ2 X)))⟩, ⟨S14400x1, asColQ (addf (colQ1 X) (mulf halfQ (colQ3 X)))⟩]
    concatenates_S14400x1_S14400x1_S14400x1_S14400x1_S14400x4_d1

/-- The same for the targets. -/
def xyxyT (X : FVec F S1600x4 .f32) : FVec F S1600x4 .f32 :=
  concatenate S1600x4 1
    [⟨S1600x1, asColT (subf (colT0 X) (mulf halfT (colT2 X)))⟩, ⟨S1600x1, asColT (subf (colT1 X) (mulf halfT (colT3 X)))⟩,
     ⟨S1600x1, asColT (addf (colT0 X) (mulf halfT (colT2 X)))⟩, ⟨S1600x1, asColT (addf (colT1 X) (mulf halfT (colT3 X)))⟩]
    concatenates_S1600x1_S1600x1_S1600x1_S1600x1_S1600x4_d1

/-- The area of each query box in corner form: (x2 - x1) * (y2 - y1). -/
def areaQ (Y : FVec F S14400x4 .f32) : FVec F S14400 .f32 :=
  mulf (subf (colQ2 Y) (colQ0 Y)) (subf (colQ3 Y) (colQ1 Y))

/-- The area of each target box in corner form. -/
def areaT (Y : FVec F S1600x4 .f32) : FVec F S1600 .f32 :=
  mulf (subf (colT2 Y) (colT0 Y)) (subf (colT3 Y) (colT1 Y))

/-! ## Every pair's intersection, union and enclosing box -/

/-- The low corner (x1, y1) and the high corner (x2, y2) of every query box. -/
def loQ (Y : FVec F S14400x4 .f32) : FVec F S14400x2 .f32 := extractStridedSlice S14400x2 ![0, 0] Y slices_S14400x4_S14400x2_0_0
def hiQ (Y : FVec F S14400x4 .f32) : FVec F S14400x2 .f32 := extractStridedSlice S14400x2 ![0, 2] Y slices_S14400x4_S14400x2_0_2
/-- The low and the high corner of every target box. -/
def loT (Y : FVec F S1600x4 .f32) : FVec F S1600x2 .f32 := extractStridedSlice S1600x2 ![0, 0] Y slices_S1600x4_S1600x2_0_0
def hiT (Y : FVec F S1600x4 .f32) : FVec F S1600x2 .f32 := extractStridedSlice S1600x2 ![0, 2] Y slices_S1600x4_S1600x2_0_2

/-- A query corner repeated for every target. -/
def spreadQ (Z : FVec F S14400x2 .f32) : FVec F S14400x1600x2 .f32 :=
  broadcastInDim S14400x1600x2 ![0, 1, 2] bcast_S14400x1x2_S14400x1600x2_0_1_2
    (broadcastInDim S14400x1x2 ![0, 2] bcast_S14400x2_S14400x1x2_0_2 Z)

/-- A target corner repeated for every query. -/
def spreadT (Z : FVec F S1600x2 .f32) : FVec F S14400x1600x2 .f32 :=
  broadcastInDim S14400x1600x2 ![0, 1, 2] bcast_S1x1600x2_S14400x1600x2_0_1_2
    (broadcastInDim S1x1600x2 ![1, 2] bcast_S1600x2_S1x1600x2_1_2 Z)

/-- Side lengths cut at zero (the integer zero converted to a float, spread, joined by a maximum). -/
def cutAtZero (D : FVec F S14400x1600x2 .f32) : FVec F S14400x1600x2 .f32 :=
  maximumf (broadcastInDim S14400x1600x2 ![] bcast_S_S14400x1600x2 (sitofp .f32 (constantI S_ 32 0#32))) D

/-- The product of the x side and the y side of every pair. -/
def sidesProduct (D : FVec F S14400x1600x2 .f32) : FVec F S14400x1600 .f32 :=
  mulf
    (shapeCast S14400x1600 (extractStridedSlice S14400x1600x1 ![0, 0, 0] D slices_S14400x1600x2_S14400x1600x1_0_0_0)
      shapeCasts_S14400x1600x1_S14400x1600)
    (shapeCast S14400x1600 (extractStridedSlice S14400x1600x1 ![0, 0, 1] D slices_S14400x1600x2_S14400x1600x1_0_0_1)
      shapeCasts_S14400x1600x1_S14400x1600)

/-- The intersection's area: the smaller high corner minus the larger low corner, cut at zero, sides multiplied. -/
def interT (Y : FVec F S14400x4 .f32) (Yt : FVec F S1600x4 .f32) : FVec F S14400x1600 .f32 :=
  sidesProduct (cutAtZero (subf (minimumf (spreadQ (hiQ Y)) (spreadT (hiT Yt))) (maximumf (spreadQ (loQ Y)) (spreadT (loT Yt)))))

/-- The enclosing box's area: the larger high corner minus the smaller low corner, cut at zero, sides multiplied. -/
def enclT (Y : FVec F S14400x4 .f32) (Yt : FVec F S1600x4 .f32) : FVec F S14400x1600 .f32 :=
  sidesProduct (cutAtZero (subf (maximumf (spreadQ (hiQ Y)) (spreadT (hiT Yt))) (minimumf (spreadQ (loQ Y)) (spreadT (loT Yt)))))

/-- The union's area: the two areas, each spread over the other axis, added, minus the intersection. -/
def unionT (aq : FVec F S14400 .f32) (at' : FVec F S1600 .f32) (I : FVec F S14400x1600 .f32) : FVec F S14400x1600 .f32 :=
  subf
    (addf (broadcastInDim S14400x1600 ![0, 1] bcast_S14400x1_S14400x1600_0_1 (asColQ aq))
      (broadcastInDim S14400x1600 ![0, 1] bcast_S1x1600_S14400x1600_0_1 (broadcastInDim S1x1600 ![1] bcast_S1600_S1x1600_1 at')))
    I

/-- Minus the generalized IoU of every pair. -/
def giouNegT (I U E : FVec F S14400x1600 .f32) : FVec F S14400x1600 .f32 :=
  Host.negf (subf (Host.divf I U) (Host.divf (subf E U) E))

/-! ## The total and the replacement of the non-finite outcomes -/

/-- A literal on every (query, target) pair. -/
def splatQT (w : BitVec 32) : FVec F S14400x1600 .f32 := broadcastInDim S14400x1600 ![] bcast_S_S14400x1600 (constant S_ .f32 w)

/-- A literal on every (batch, query, target) entry. -/
def splatOut (w : BitVec 32) : FVec F S16x900x1600 .f32 := broadcastInDim S16x900x1600 ![] bcast_S_S16x900x1600 (constant S_ .f32 w)

/-- 1 * class cost + 5 * L1 cost + 2 * (minus generalized IoU). -/
def totalT (C L Gn : FVec F S14400x1600 .f32) : FVec F S14400x1600 .f32 :=
  addf (addf (mulf (splatQT 0x3F800000#32) C) (mulf (splatQT 0x40A00000#32) L)) (mulf (splatQT 0x40000000#32) Gn)

/-- "x differs from x" becomes 10^4, plus infinity becomes 10^4, minus infinity becomes -10^4. -/
def nanToNumT (X : FVec F S16x900x1600 .f32) : FVec F S16x900x1600 .f32 :=
  let A := select (cmpf .une X X) (splatOut 0x461C4000#32) X
  let B := select (cmpf .oeq A (splatOut 0x7F800000#32)) (splatOut 0x461C4000#32) A
  select (cmpf .oeq B (splatOut 0xFF800000#32)) (splatOut 0xC61C4000#32) B

/-- The reference's result as a function of its arguments. -/
def refTerm (a0 : FVec F S16x900x91 .f32) (a1 : FVec F S16x900x4 .f32) (a2 : IVec S1600 32) (a3 : FVec F S1600x4 .f32) :
    FVec F S16x900x1600 .f32 :=
  let B := flatBoxes a1
  let Y := xyxyQ (clipQ B)
  let Yt := xyxyT (clipT a3)
  let I := interT Y Yt
  let U := unionT (areaQ Y) (areaT Yt) I
  let E := enclT Y Yt
  nanToNumT (shapeCast S16x900x1600
    (totalT (classT (probT (flatLogits a0)) a2) (l1T B a3) (giouNegT I U E)) shapeCasts_S14400x1600_S16x900x1600)

end Cert.RefStages

end
-- ==== Proof.RefRun.lean ====
/-
  The reference's run: its @main is a straight line of host operations, so every weakly fair execution terminates
  with each buffer at the operations' composed value of the launch contents; read at the result buffer that value
  is the staged pure function of the four arguments, and the arguments are written by no operation.
-/
import proofs.«428247_j86973087744537_1_alg».proof.Proof.RefOps
import proofs.«428247_j86973087744537_1_alg».proof.Proof.RefTerm

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-! ## @main is the straight line -/

set_option maxRecDepth 4096 in
/-- Window 0 of @main is its list of operations run in order: the one call's body unfolded at the call, sequencing
    reassociated. -/
theorem part0_eq (c : Dev nD) : main_part0 (F := F) c = seq ops0 := by
  simp only [main_part0, fn_clip.body, seq, bind_assoc, pure_bind]
  rfl

set_option maxRecDepth 4096 in
theorem part1_eq (c : Dev nD) : main_part1 (F := F) c = seq ops1 := by
  simp only [main_part1, fn_clip_0.body, seq, bind_assoc, pure_bind]
  rfl

set_option maxRecDepth 4096 in
theorem part2_eq (c : Dev nD) : main_part2 (F := F) c = seq ops2 := by
  simp only [main_part2, fn_clip_1.body, seq, bind_assoc, pure_bind]
  rfl

set_option maxRecDepth 4096 in
theorem part3_eq (c : Dev nD) : main_part3 (F := F) c = seq ops3 := by
  simp only [main_part3, fn_nan_to_num.body, fn_where.body, seq, bind_assoc, pure_bind]

/-- The whole list is the four windows' lists joined. -/
theorem ops_eq : (ops : List (HloOp τ sig (Elt F))) = ops0 ++ (ops1 ++ (ops2 ++ ops3)) := rfl

/-- @main runs its windows one after the other, so it is the whole list run in order. -/
theorem main_eq (c : Dev nD) : main (F := F) c = seq ops := by
  rw [ops_eq, seq_append, seq_append, seq_append, ← part0_eq c, ← part1_eq c, ← part2_eq c, ← part3_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every weakly fair execution of @main terminates with each TensorCore buffer at the operations' composed value
    of its launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

/-! ## What the run leaves in the result and in the arguments

The value at the result buffer is read window by window: what each window of @main leaves in the buffers a later
window reads, as a function of what it found in the buffers an earlier window (or the launch) left; a buffer a window
does not write passes through it. -/

section Windows

open Cert.RefStages

/-- The operations of two lists run one after the other compose their effects on the buffers' contents. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

variable (W : Valuation τ sig (Elt F))

/-! ### Window 0: the softmax, the class cost, the L1 cost, the clamped query boxes' columns and three corners -/

theorem w0_v20 : after ops0 W (Proc.devRef .tc main_v20) = classT (probT (flatLogits (W (Proc.devRef .tc main_arg0)))) (W (Proc.devRef .tc main_arg2)) := by
  after_results_simp
  rfl
theorem w0_v27 : after ops0 W (Proc.devRef .tc main_v27) = l1T (flatBoxes (W (Proc.devRef .tc main_arg1))) (W (Proc.devRef .tc main_arg3)) := by
  after_results_simp
  rfl
theorem w0_v32 : after ops0 W (Proc.devRef .tc main_v32) = colQ1 (clipQ (flatBoxes (W (Proc.devRef .tc main_arg1)))) := by
  after_results_simp
  rfl
theorem w0_v47 : after ops0 W (Proc.devRef .tc main_v47) = mulf halfQ (colQ3 (clipQ (flatBoxes (W (Proc.devRef .tc main_arg1))))) := by
  after_results_simp
  rfl
theorem w0_v39 : after ops0 W (Proc.devRef .tc main_v39)
    = subf (colQ0 (clipQ (flatBoxes (W (Proc.devRef .tc main_arg1))))) (mulf halfQ (colQ2 (clipQ (flatBoxes (W (Proc.devRef .tc main_arg1)))))) := by
  after_results_simp
  rfl
theorem w0_v42 : after ops0 W (Proc.devRef .tc main_v42)
    = subf (colQ1 (clipQ (flatBoxes (W (Proc.devRef .tc main_arg1))))) (mulf halfQ (colQ3 (clipQ (flatBoxes (W (Proc.devRef .tc main_arg1)))))) := by
  after_results_simp
  rfl
theorem w0_v45 : after ops0 W (Proc.devRef .tc main_v45)
    = addf (colQ0 (clipQ (flatBoxes (W (Proc.devRef .tc main_arg1))))) (mulf halfQ (colQ2 (clipQ (flatBoxes (W (Proc.devRef .tc main_arg1)))))) := by
  after_results_simp
  rfl
theorem w0_arg3 : after ops0 W (Proc.devRef .tc main_arg3) = W (Proc.devRef .tc main_arg3) := by
  after_results_simp

/-! ### Window 1: the last corner, the query boxes and the target boxes in corner form, their areas -/

/-- The query boxes in corner form from the columns and corners window 0 left. -/
abbrev cornersQ : FVec F S14400x4 .f32 :=
  concatenate S14400x4 1
    [⟨S14400x1, asColQ (W (Proc.devRef .tc main_v39))⟩, ⟨S14400x1, asColQ (W (Proc.devRef .tc main_v42))⟩, ⟨S14400x1, asColQ (W (Proc.devRef .tc main_v45))⟩,
     ⟨S14400x1, asColQ (addf (W (Proc.devRef .tc main_v32)) (W (Proc.devRef .tc main_v47)))⟩]
    concatenates_S14400x1_S14400x1_S14400x1_S14400x1_S14400x4_d1

theorem w1_v53 : after ops1 W (Proc.devRef .tc main_v53) = cornersQ W := by
  after_results_simp
  rfl
theorem w1_v79 : after ops1 W (Proc.devRef .tc main_v79) = xyxyT (clipT (W (Proc.devRef .tc main_arg3))) := by
  after_results_simp
  rfl
theorem w1_v90 : after ops1 W (Proc.devRef .tc main_v90) = areaQ (cornersQ W) := by
  after_results_simp
  rfl
theorem w1_v101 : after ops1 W (Proc.devRef .tc main_v101) = areaT (xyxyT (clipT (W (Proc.devRef .tc main_arg3)))) := by
  after_results_simp
  rfl
theorem w1_v20 : after ops1 W (Proc.devRef .tc main_v20) = W (Proc.devRef .tc main_v20) := by
  after_results_simp
theorem w1_v27 : after ops1 W (Proc.devRef .tc main_v27) = W (Proc.devRef .tc main_v27) := by
  after_results_simp

/-! ### Window 2: every pair's intersection, union, enclosing box and generalized IoU; the first two weights -/

theorem w2_v154 : after ops2 W (Proc.devRef .tc main_v154)
    = giouNegT (interT (W (Proc.devRef .tc main_v53)) (W (Proc.devRef .tc main_v79)))
        (unionT (W (Proc.devRef .tc main_v90)) (W (Proc.devRef .tc main_v101)) (interT (W (Proc.devRef .tc main_v53)) (W (Proc.devRef .tc main_v79))))
        (enclT (W (Proc.devRef .tc main_v53)) (W (Proc.devRef .tc main_v79))) := by
  after_results_simp
  rfl
theorem w2_v156 : after ops2 W (Proc.devRef .tc main_v156) = mulf (splatQT 0x3F800000#32) (W (Proc.devRef .tc main_v20)) := by
  after_results_simp
  rfl
theorem w2_v157 : after ops2 W (Proc.devRef .tc main_v157) = splatQT 0x40A00000#32 := by
  after_results_simp
  rfl
theorem w2_v27 : after ops2 W (Proc.devRef .tc main_v27) = W (Proc.devRef .tc main_v27) := by
  after_results_simp

/-! ### Window 3: the weighted total, the reshape, the replacement of the non-finite outcomes -/

theorem w3_v164 : after ops3 W (Proc.devRef .tc main_v164)
    = nanToNumT (shapeCast S16x900x1600
        (addf (addf (W (Proc.devRef .tc main_v156)) (mulf (W (Proc.devRef .tc main_v157)) (W (Proc.devRef .tc main_v27))))
          (mulf (splatQT 0x40000000#32) (W (Proc.devRef .tc main_v154)))) shapeCasts_S14400x1600_S16x900x1600) := by
  after_results_simp
  rfl

end Windows

set_option maxRecDepth 8192 in
/-- The composed value at the result buffer is the staged function of the launch contents of the four arguments: the
    four windows' readings chained, then the stages' definitions unfolded. -/
theorem result_eq (V : Valuation τ sig (Elt F)) :
    after ops V (Proc.devRef .tc main_v164)
      = Cert.RefStages.refTerm (V (Proc.devRef .tc main_arg0)) (V (Proc.devRef .tc main_arg1))
          (V (Proc.devRef .tc main_arg2)) (V (Proc.devRef .tc main_arg3)) := by
  rw [ops_eq, after_append, after_append, after_append, w3_v164, w2_v156, w2_v157, w2_v27, w2_v154,
    w1_v20, w1_v27, w1_v53, w1_v79, w1_v90, w1_v101]
  dsimp only [cornersQ]
  rw [w0_v20, w0_v27, w0_v32, w0_v47, w0_v39, w0_v42, w0_v45, w0_arg3]
  rfl

/-- No operation writes an argument. -/
theorem arg0_eq (V : Valuation τ sig (Elt F)) : after ops V (Proc.devRef .tc main_arg0) = V (Proc.devRef .tc main_arg0) := by
  after_results_simp
theorem arg1_eq (V : Valuation τ sig (Elt F)) : after ops V (Proc.devRef .tc main_arg1) = V (Proc.devRef .tc main_arg1) := by
  after_results_simp
theorem arg2_eq (V : Valuation τ sig (Elt F)) : after ops V (Proc.devRef .tc main_arg2) = V (Proc.devRef .tc main_arg2) := by
  after_results_simp
theorem arg3_eq (V : Valuation τ sig (Elt F)) : after ops V (Proc.devRef .tc main_arg3) = V (Proc.devRef .tc main_arg3) := by
  after_results_simp

/-- Every weakly fair execution of the reference's @main terminates with the result at the staged function of the
    arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v164)
          = Cert.RefStages.refTerm (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v164).trans (result_eq _), (h c main_arg0).trans (arg0_eq _),
      (h c main_arg1).trans (arg1_eq _), (h c main_arg2).trans (arg2_eq _), (h c main_arg3).trans (arg3_eq _)⟩)
    (run_after m ρ)

end Cert.RefRun

end
-- ==== Proof.RefClassL1.lean ====
/-
  The reference's class cost and L1 box cost read at one (query row, target) pair.
-/
import proofs.«428247_j86973087744537_1_alg».proof.Proof.RefTerm
import proofs.«428247_j86973087744537_1_alg».proof.Proof.Spec
import proofs.«428247_j86973087744537_1_alg».proof.Proof.LibColumn
import proofs.«428247_j86973087744537_1_alg».proof.Proof.Gen.ReferenceIdeal
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.RefValue

open Idealize.ShloMosaic Idealize.ShloMosaic.ValueIdx Cert.ReferenceIdeal Cert.RefStages Cert.MatchCost

open Cert.ReferenceIdeal.Facts₀ Cert.ReferenceIdeal.Facts

/-! ## The softmax of a row -/

/-- A per-row value spread over the classes reads, at (r, k), the value of row r. -/
theorem overClasses_apply (v : FVec Ideal S14400 .f32) (r : Fin 14400) (k : Fin 91) :
    overClasses v (ix2 r k) = v (ix1 r) := by
  unfold overClasses
  rw [broadcastInDim_apply ![0, 1] bcast_S14400x1_S14400x91_0_1 _ (ix2 r k) (ix2 r (0 : Fin 1)) (by
    intro a
    fin_cases a
    · rfl
    · rfl)]
  exact broadcastInDim_apply ![0] bcast_S14400_S14400x1_0 v (ix2 r (0 : Fin 1)) (ix1 r) (by
    intro a
    fin_cases a
    rfl)

/-- The row's maximum: the fold of max from minus infinity already dominates minus infinity, so joining it once
    more with minus infinity changes nothing. -/
theorem rowMaxT_apply (x : FVec Ideal S14400x91 .f32) (r : Fin 14400) :
    rowMaxT x (ix1 r) = rowMax (fun k => x (ix2 r k)) := by
  have hR : S14400x91.Reduces [1] S14400 := by decide
  unfold rowMaxT rowMax
  rw [maximumf_apply, broadcastInDim_scalar_apply, constant_apply,
    Cert.LibColumn.hostMaxAxis1_apply x _ reducesTo_S14400x91_S14400_d1 hR h_S_ r, constant_apply]
  exact max_eq_right ((Finset.le_fold_max _).2 (Or.inl le_rfl))

/-- The shifted exponential at (r, k). -/
theorem expT_apply (x : FVec Ideal S14400x91 .f32) (r : Fin 14400) (k : Fin 91) :
    expT x (ix2 r k) = expo (fun k => x (ix2 r k)) k := by
  show Ideal.exp (x (ix2 r k) - overClasses (rowMaxT x) (ix2 r k)) = _
  rw [overClasses_apply, rowMaxT_apply]
  rfl

/-- The softmax at (r, k): the host's sum along the classes starts from the zero literal, which is zero. -/
theorem probT_apply (x : FVec Ideal S14400x91 .f32) (r : Fin 14400) (k : Fin 91) :
    probT x (ix2 r k) = prob (fun k => x (ix2 r k)) k := by
  have hR : S14400x91.Reduces [1] S14400 := by decide
  show Ideal.div (expT x (ix2 r k))
    (overClasses (Host.reduceAdd (expT x) (constant S_ .f32 0x00000000#32) reducesTo_S14400x91_S14400_d1 h_S_) (ix2 r k)) = _
  rw [overClasses_apply, hostReduceAdd_apply, Ideal.hostReduceAdd_single reducesTo_S14400x91_S14400_d1 hR, expT_apply]
  show Ideal.div _ (lit 0x00000000#32 + _) = _
  rw [show lit 0x00000000#32 = 0 from Ideal.ofBits_zero_f32, zero_add]
  refine congrArg (Ideal.div _) ?_
  exact Finset.sum_congr rfl fun j _ =>
    (congrArg (expT x) (Cert.LibColumn.lift_axis1 hR r j)).trans (expT_apply x r ⟨j.val, j.isLt⟩)

/-! ## The gather at the target ids -/

/-- A word below 91 read as a signed integer is its unsigned value. -/
theorem toInt_of_lt (w : BitVec 32) (h : w.toNat < 91) : w.toInt = (w.toNat : Int) :=
  BitVec.toInt_eq_toNat_of_lt (by omega)

/-- A class id below 91 is nonnegative as a signed word, so the index column keeps it. -/
theorem idxT_apply (a2 : IVec S1600 32) (n : Fin 1600) (h : (a2 (ix1 n)).toNat < 91) :
    idxT a2 (ix2 n (0 : Fin 1)) = a2 (ix1 n) := by
  unfold idxT
  rw [broadcastInDim_apply ![0] bcast_S1600_S1600x1_0 _ (ix2 n (0 : Fin 1)) (ix1 n) (by
    intro a
    fin_cases a
    rfl)]
  show Scalar.select (IntOp.cmpi .slt (a2 (ix1 n)) (0#32)) (IntOp.addi (a2 (ix1 n)) (91#32)) (a2 (ix1 n)) = a2 (ix1 n)
  have hs : (a2 (ix1 n)).slt (0#32) = false := by
    rw [BitVec.slt_eq_decide, toInt_of_lt _ h]
    simp
  unfold IntOp.cmpi
  simp only [hs]
  rfl

local notation "gd" => gather_S14400x91_S1600x1_S14400x1600_0_1_n_n_1_1_144001

/-- The gather reads, at (r, n), the operand's row r at the column the n-th start index names, read signed and
    clamped to 0 .. 90: the row axis is the offset axis, the class axis is collapsed and start-indexed. -/
theorem gather_apply (p : FVec Ideal S14400x91 .f32) (idx : IVec S1600x1 32) (r : Fin 14400) (n : Fin 1600) :
    Host.gather gd p idx (ix2 r n)
      = p (ix2 r (⟨min (idx (ix2 n (0 : Fin 1))).toInt.toNat 90, by omega⟩ : Fin 91)) := by
  unfold Host.gather
  refine congrArg p (funext fun a => Fin.ext ?_)
  fin_cases a
  · show (gd).start (ix2 r n) idx 0 + (gd).batchCoord (ix2 r n) 0 + (gd).offCoord (ix2 r n) 0 = r.val
    rw [(gd).batchCoord_eq_zero _ 0 (by decide)]
    unfold GatherDims.start GatherDims.offCoord
    rw [dif_neg (by decide), dif_pos (by decide)]
    simp only [Nat.zero_add]
    rfl
  · show (gd).start (ix2 r n) idx 1 + (gd).batchCoord (ix2 r n) 1 + (gd).offCoord (ix2 r n) 1
      = min (idx (ix2 n (0 : Fin 1))).toInt.toNat 90
    rw [(gd).batchCoord_eq_zero _ 1 (by decide), (gd).offCoord_eq_zero _ 1 (by decide)]
    simp only [Nat.add_zero]
    unfold GatherDims.start
    rw [dif_pos (by decide)]
    have hi : (gd).siIdx (ix2 r n) ⟨(gd).startIndexMap.idxOf 1, List.idxOf_lt_length_iff.2 (by decide)⟩
        = ix2 n (0 : Fin 1) := by
      funext b
      fin_cases b
      · rfl
      · rfl
    rw [hi]
    rfl

/-! ## The class indicator -/

/-- The indicator is one at the class the id names. -/
theorem onehot_self (w : BitVec 32) (k : Fin 91) (hk : k.val = w.toNat) : onehot w k = 1 := by
  have e : BitVec.ofNat 32 k.val = w := by rw [hk, BitVec.ofNat_toNat, BitVec.setWidth_eq]
  unfold onehot
  rw [e]
  show (((IntOp.cmpi .eq w w).toNat : ℝ) : EReal) = 1
  have : IntOp.cmpi .eq w w = 1#1 := by simp [IntOp.cmpi]
  rw [this]
  norm_num

/-- The indicator is zero at every other class. -/
theorem onehot_ne (w : BitVec 32) (k : Fin 91) (hk : k.val ≠ w.toNat) : onehot w k = 0 := by
  have e : BitVec.ofNat 32 k.val ≠ w := by
    intro he
    apply hk
    have := congrArg BitVec.toNat he
    rw [BitVec.toNat_ofNat] at this
    have hk91 := k.isLt
    omega
  unfold onehot
  show (((IntOp.cmpi .eq (BitVec.ofNat 32 k.val) w).toNat : ℝ) : EReal) = 0
  have : IntOp.cmpi .eq (BitVec.ofNat 32 k.val) w = 0#1 := by
    have hb : (BitVec.ofNat 32 k.val == w) = false := beq_eq_false_iff_ne.2 e
    simp [IntOp.cmpi, hb]
  rw [this]
  norm_num

/-- Minus the softmax gathered at the target's class id is zero minus the sum over the classes of the probability
    times the class indicator, when every id is one of the 91 classes. -/
theorem class_apply (x : FVec Ideal S14400x91 .f32) (a2 : IVec S1600 32) (h : IdsInRange a2) (r : Fin 14400) (n : Fin 1600) :
    classT (F := Ideal) (probT x) a2 (ix2 r n)
      = lit 0x00000000#32 - ∑ k : Fin 91, prob (fun k => x (ix2 r k)) k * onehot (a2 (ix1 n)) k := by
  have hw : (a2 (ix1 n)).toNat < 91 := h n
  -- the one class whose indicator is not zero
  have hsum : ∑ k : Fin 91, prob (fun k => x (ix2 r k)) k * onehot (a2 (ix1 n)) k
      = prob (fun k => x (ix2 r k)) ⟨(a2 (ix1 n)).toNat, hw⟩ := by
    rw [Finset.sum_eq_single (⟨(a2 (ix1 n)).toNat, hw⟩ : Fin 91)
      (fun k _ hk => by
        rw [onehot_ne _ k (fun e => hk (Fin.ext e)), mul_zero])
      (fun hk => absurd (Finset.mem_univ _) hk)]
    rw [onehot_self _ _ rfl, mul_one]
  rw [hsum, show lit 0x00000000#32 = 0 from Ideal.ofBits_zero_f32, zero_sub]
  unfold classT
  show -(Host.gather gd (probT x) (idxT a2) (ix2 r n)) = _
  rw [gather_apply]
  have hidx : (⟨min (idxT a2 (ix2 n (0 : Fin 1))).toInt.toNat 90, by omega⟩ : Fin 91) = ⟨(a2 (ix1 n)).toNat, hw⟩ := by
    apply Fin.ext
    show min (idxT a2 (ix2 n (0 : Fin 1))).toInt.toNat 90 = (a2 (ix1 n)).toNat
    rw [idxT_apply a2 n hw, toInt_of_lt _ hw, Int.toNat_natCast]
    omega
  rw [hidx, probT_apply]

/-! ## The L1 box cost -/

/-- Reducing `[a, b, c]` along axis 2: over the pair (r, n), coordinate `k` put back is (r, n, k). -/
theorem lift_axis2 {a b c : ℕ} (h : (⟨3, ![a, b, c]⟩ : Shape).Reduces [2] (⟨2, ![a, b]⟩ : Shape)) (r : Fin a) (n : Fin b)
    (k : Fin ((⟨3, ![a, b, c]⟩ : Shape).size 2)) : h.lift (ix2 r n) k = ix3 r n (⟨k.val, k.isLt⟩ : Fin c) := by
  funext d; apply Fin.ext
  fin_cases d <;> rfl

/-- A query-side [14400, 4] array spread over the targets reads, at (r, n, c), the array at (r, c). -/
theorem spreadRows_apply (B : FVec Ideal S14400x4 .f32) (r : Fin 14400) (n : Fin 1600) (c : Fin 4) :
    broadcastInDim S14400x1600x4 ![0, 1, 2] bcast_S14400x1x4_S14400x1600x4_0_1_2
        (broadcastInDim S14400x1x4 ![0, 2] bcast_S14400x4_S14400x1x4_0_2 B) (ix3 r n c) = B (ix2 r c) := by
  rw [broadcastInDim_apply ![0, 1, 2] bcast_S14400x1x4_S14400x1600x4_0_1_2 _ (ix3 r n c) (ix3 r (0 : Fin 1) c) (by
    intro a
    fin_cases a
    · rfl
    · rfl
    · rfl)]
  exact broadcastInDim_apply ![0, 2] bcast_S14400x4_S14400x1x4_0_2 B (ix3 r (0 : Fin 1) c) (ix2 r c) (by
    intro a
    fin_cases a
    · rfl
    · rfl)

/-- A target-side [1600, 4] array spread over the query rows reads, at (r, n, c), the array at (n, c). -/
theorem spreadCols_apply (T : FVec Ideal S1600x4 .f32) (r : Fin 14400) (n : Fin 1600) (c : Fin 4) :
    broadcastInDim S14400x1600x4 ![0, 1, 2] bcast_S1x1600x4_S14400x1600x4_0_1_2
        (broadcastInDim S1x1600x4 ![1, 2] bcast_S1600x4_S1x1600x4_1_2 T) (ix3 r n c) = T (ix2 n c) := by
  rw [broadcastInDim_apply ![0, 1, 2] bcast_S1x1600x4_S14400x1600x4_0_1_2 _ (ix3 r n c) (ix3 (0 : Fin 1) n c) (by
    intro a
    fin_cases a
    · rfl
    · rfl
    · rfl)]
  exact broadcastInDim_apply ![1, 2] bcast_S1600x4_S1x1600x4_1_2 T (ix3 (0 : Fin 1) n c) (ix2 n c) (by
    intro a
    fin_cases a
    · rfl
    · rfl)

/-- The absolute difference of the spread boxes at (r, n, c). -/
theorem absDiff_apply (B : FVec Ideal S14400x4 .f32) (a3 : FVec Ideal S1600x4 .f32) (r : Fin 14400) (n : Fin 1600) (c : Fin 4) :
    Host.absf (subf
      (broadcastInDim S14400x1600x4 ![0, 1, 2] bcast_S14400x1x4_S14400x1600x4_0_1_2
        (broadcastInDim S14400x1x4 ![0, 2] bcast_S14400x4_S14400x1x4_0_2 B))
      (broadcastInDim S14400x1600x4 ![0, 1, 2] bcast_S1x1600x4_S14400x1600x4_0_1_2
        (broadcastInDim S1x1600x4 ![1, 2] bcast_S1600x4_S1x1600x4_1_2 a3))) (ix3 r n c)
      = absE (B (ix2 r c) - a3 (ix2 n c)) :=
  congrArg₂ (fun a b : EReal => absE (a - b)) (spreadRows_apply B r n c) (spreadCols_apply a3 r n c)

/-- The host's sum over the four coordinates is the coordinate-by-coordinate sum from zero. -/
theorem l1_apply (B : FVec Ideal S14400x4 .f32) (a3 : FVec Ideal S1600x4 .f32) (r : Fin 14400) (n : Fin 1600) :
    l1T (F := Ideal) B a3 (ix2 r n) = l1 (fun c => B (ix2 r c)) (fun c => a3 (ix2 n c)) := by
  have hR : S14400x1600x4.Reduces [2] S14400x1600 := by decide
  unfold l1T
  rw [hostReduceAdd_apply, Ideal.hostReduceAdd_single reducesTo_S14400x1600x4_S14400x1600_d2 hR]
  refine (congrArg (lit 0x00000000#32 + ·) (Finset.sum_congr rfl fun k _ =>
    (congrArg _ (lift_axis2 hR r n k)).trans (absDiff_apply B a3 r n ⟨k.val, k.isLt⟩))).trans ?_
  show lit 0x00000000#32 + ∑ k : Fin 4, absE (B (ix2 r k) - a3 (ix2 n k)) = _
  -- the four terms, re-associated so that the zero literal comes first (addition on the extended reals is associative)
  rw [Fin.sum_univ_four, ← add_assoc, ← add_assoc, ← add_assoc]
  rfl

end Cert.RefValue

end
-- ==== Proof.RefBoxes.lean ====
/-
  The reference's generalized IoU of one (query row, target) pair, read off its [14400, 1600, 2] corner arrays.
-/
import proofs.«428247_j86973087744537_1_alg».proof.Proof.RefTerm
import proofs.«428247_j86973087744537_1_alg».proof.Proof.Spec
import proofs.«428247_j86973087744537_1_alg».proof.Proof.Gen.ReferenceIdeal
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.RefValue

open Idealize.ShloMosaic Idealize.ShloMosaic.ValueIdx Cert.ReferenceIdeal Cert.RefStages Cert.MatchCost
open Cert.ReferenceIdeal.Facts₀ Cert.ReferenceIdeal.Facts

/-! ## The clamp -/

/-- The clamped query boxes, entry by entry. -/
theorem clipQ_apply (X : FVec Ideal S14400x4 .f32) (i : S14400x4.Idx) : clipQ (F := Ideal) X i = clamp (X i) := by
  unfold clipQ clamp
  rw [minimumf_apply, maximumf_apply, broadcastInDim_scalar_apply, broadcastInDim_scalar_apply, constant_apply, constant_apply]

/-- The clamped target boxes, entry by entry. -/
theorem clipT_apply (X : FVec Ideal S1600x4 .f32) (i : S1600x4.Idx) : clipT (F := Ideal) X i = clamp (X i) := by
  unfold clipT clamp
  rw [minimumf_apply, maximumf_apply, broadcastInDim_scalar_apply, broadcastInDim_scalar_apply, constant_apply, constant_apply]

/-! ## One column of a matrix as a vector -/

/-- Column `k` of an `[a, m]` matrix, cut out as an `[a, 1]` matrix and cast to a vector, reads at `r` the matrix at `(r, k)`. -/
theorem column_apply {α : Type} {a m : ℕ} (o : ℕ) (X : (⟨2, ![a, m]⟩ : Shape).Idx → α)
    (hs : (⟨2, ![a, m]⟩ : Shape).Slices ![0, o] ⟨2, ![a, 1]⟩) (hc : (⟨2, ![a, 1]⟩ : Shape).ShapeCasts ⟨1, ![a]⟩)
    (r : Fin a) (k : Fin m) (hk : k.val = o) :
    shapeCast ⟨1, ![a]⟩ (extractStridedSlice ⟨2, ![a, 1]⟩ ![0, o] X hs) hc (ix1 r) = X (ix2 r k) :=
  (shapeCast_apply _ hc (ix1 r) (ix2 r (0 : Fin 1)) (by
    rw [Shape.rowMajor_val_two, Shape.rowMajor_val_one]
    show r.val * 1 + 0 = r.val
    omega)).trans (slice2_axis1_apply o X hs r 0 k (by rw [hk]; rfl))

/-- The four columns of the query array and of the target array, each read at a row. -/
theorem colQ0_apply (X : FVec Ideal S14400x4 .f32) (r : Fin 14400) : colQ0 (F := Ideal) X (ix1 r) = X (ix2 r 0) :=
  column_apply 0 X _ _ r 0 rfl
theorem colQ1_apply (X : FVec Ideal S14400x4 .f32) (r : Fin 14400) : colQ1 (F := Ideal) X (ix1 r) = X (ix2 r 1) :=
  column_apply 1 X _ _ r 1 rfl
theorem colQ2_apply (X : FVec Ideal S14400x4 .f32) (r : Fin 14400) : colQ2 (F := Ideal) X (ix1 r) = X (ix2 r 2) :=
  column_apply 2 X _ _ r 2 rfl
theorem colQ3_apply (X : FVec Ideal S14400x4 .f32) (r : Fin 14400) : colQ3 (F := Ideal) X (ix1 r) = X (ix2 r 3) :=
  column_apply 3 X _ _ r 3 rfl
theorem colT0_apply (X : FVec Ideal S1600x4 .f32) (n : Fin 1600) : colT0 (F := Ideal) X (ix1 n) = X (ix2 n 0) :=
  column_apply 0 X _ _ n 0 rfl
theorem colT1_apply (X : FVec Ideal S1600x4 .f32) (n : Fin 1600) : colT1 (F := Ideal) X (ix1 n) = X (ix2 n 1) :=
  column_apply 1 X _ _ n 1 rfl
theorem colT2_apply (X : FVec Ideal S1600x4 .f32) (n : Fin 1600) : colT2 (F := Ideal) X (ix1 n) = X (ix2 n 2) :=
  column_apply 2 X _ _ n 2 rfl
theorem colT3_apply (X : FVec Ideal S1600x4 .f32) (n : Fin 1600) : colT3 (F := Ideal) X (ix1 n) = X (ix2 n 3) :=
  column_apply 3 X _ _ n 3 rfl

/-! ## The corner form -/

/-- A vector over the query rows as a one-column matrix reads the vector at the row. -/
theorem asColQ_apply (v : FVec Ideal S14400 .f32) (r : Fin 14400) (u : Fin 1) : asColQ (F := Ideal) v (ix2 r u) = v (ix1 r) := by
  unfold asColQ
  refine broadcastInDim_apply _ _ v (ix2 r u) (ix1 r) fun a => ?_
  match a with
  | ⟨0, _⟩ =>
    show r.val = if (14400 : ℕ) = 1 then 0 else r.val
    exact (if_neg (by decide)).symm

/-- A vector over the targets as a one-column matrix reads the vector at the target. -/
theorem asColT_apply (v : FVec Ideal S1600 .f32) (n : Fin 1600) (u : Fin 1) : asColT (F := Ideal) v (ix2 n u) = v (ix1 n) := by
  unfold asColT
  refine broadcastInDim_apply _ _ v (ix2 n u) (ix1 n) fun a => ?_
  match a with
  | ⟨0, _⟩ =>
    show n.val = if (1600 : ℕ) = 1 then 0 else n.val
    exact (if_neg (by decide)).symm

/-- One half on every query row. -/
theorem halfQ_apply (i : S14400.Idx) : halfQ (F := Ideal) i = lit 0x3F000000#32 := by
  unfold halfQ
  rw [broadcastInDim_scalar_apply, constant_apply]

/-- One half on every target. -/
theorem halfT_apply (i : S1600.Idx) : halfT (F := Ideal) i = lit 0x3F000000#32 := by
  unfold halfT
  rw [broadcastInDim_scalar_apply, constant_apply]

/-- Four one-column matrices joined along the columns: column `c` of the result is piece `c`. -/
theorem join4_apply {α : Type} {a : ℕ} (p0 p1 p2 p3 : (⟨2, ![a, 1]⟩ : Shape).Idx → α)
    (xs : List ((s : Shape) × (s.Idx → α)))
    (hxs : xs = [⟨(⟨2, ![a, 1]⟩ : Shape), p0⟩, ⟨(⟨2, ![a, 1]⟩ : Shape), p1⟩, ⟨(⟨2, ![a, 1]⟩ : Shape), p2⟩,
      ⟨(⟨2, ![a, 1]⟩ : Shape), p3⟩])
    (h : Shape.Concatenates (xs.map (·.1)) (⟨2, ![a, 4]⟩ : Shape) 1) (r : Fin a) :
    concatenate (⟨2, ![a, 4]⟩ : Shape) 1 xs h (ix2 r 0) = p0 (ix2 r 0)
    ∧ concatenate (⟨2, ![a, 4]⟩ : Shape) 1 xs h (ix2 r 1) = p1 (ix2 r 0)
    ∧ concatenate (⟨2, ![a, 4]⟩ : Shape) 1 xs h (ix2 r 2) = p2 (ix2 r 0)
    ∧ concatenate (⟨2, ![a, 4]⟩ : Shape) 1 xs h (ix2 r 3) = p3 (ix2 r 0) := by
  subst hxs
  have hi : ∀ (c : Fin 4) (b : Fin 2), b.cast (rfl : (2 : ℕ) = 2) ≠ (1 : Fin 2) →
      ((ix2 r (0 : Fin 1) : (⟨2, ![a, 1]⟩ : Shape).Idx) b).val = ((ix2 r c : (⟨2, ![a, 4]⟩ : Shape).Idx) (b.cast rfl)).val := by
    intro c b hb
    match b with
    | ⟨0, _⟩ => rfl
    | ⟨1, _⟩ => exact absurd rfl hb
  refine ⟨?_, ?_, ?_, ?_⟩
  · exact concatenate_apply_piece (t := ⟨2, ![a, 4]⟩) (1 : Fin 2) _ h (ix2 r (0 : Fin 4)) 0 (Nat.lt_of_sub_eq_succ rfl) ⟨2, ![a, 1]⟩ p0
      rfl rfl 0 rfl (ix2 r (0 : Fin 1)) (hi 0) rfl
  · exact concatenate_apply_piece (t := ⟨2, ![a, 4]⟩) (1 : Fin 2) _ h (ix2 r (1 : Fin 4)) 1 (Nat.lt_of_sub_eq_succ rfl) ⟨2, ![a, 1]⟩ p1
      rfl rfl 1 rfl (ix2 r (0 : Fin 1)) (hi 1) rfl
  · exact concatenate_apply_piece (t := ⟨2, ![a, 4]⟩) (1 : Fin 2) _ h (ix2 r (2 : Fin 4)) 2 (Nat.lt_of_sub_eq_succ rfl) ⟨2, ![a, 1]⟩ p2
      rfl rfl 2 rfl (ix2 r (0 : Fin 1)) (hi 2) rfl
  · exact concatenate_apply_piece (t := ⟨2, ![a, 4]⟩) (1 : Fin 2) _ h (ix2 r (3 : Fin 4)) 3 (Nat.lt_of_sub_eq_succ rfl) ⟨2, ![a, 1]⟩ p3
      rfl rfl 3 rfl (ix2 r (0 : Fin 1)) (hi 3) rfl

/-- The corner form of the clamped query boxes: the four entries of row `r` are the four corners the specification
    names, taken of row `r` of the raw boxes. -/
theorem cornersQ (B : FVec Ideal S14400x4 .f32) (r : Fin 14400) :
    xyxyQ (F := Ideal) (clipQ B) (ix2 r 0) = x1 (fun c => B (ix2 r c))
    ∧ xyxyQ (F := Ideal) (clipQ B) (ix2 r 1) = y1 (fun c => B (ix2 r c))
    ∧ xyxyQ (F := Ideal) (clipQ B) (ix2 r 2) = x2 (fun c => B (ix2 r c))
    ∧ xyxyQ (F := Ideal) (clipQ B) (ix2 r 3) = y2 (fun c => B (ix2 r c)) := by
  unfold xyxyQ
  obtain ⟨h0, h1, h2, h3⟩ := join4_apply _ _ _ _ _ rfl concatenates_S14400x1_S14400x1_S14400x1_S14400x1_S14400x4_d1 r
  refine ⟨h0.trans ?_, h1.trans ?_, h2.trans ?_, h3.trans ?_⟩
  · rw [asColQ_apply, subf_apply, mulf_apply, halfQ_apply, colQ0_apply, colQ2_apply, clipQ_apply, clipQ_apply]; rfl
  · rw [asColQ_apply, subf_apply, mulf_apply, halfQ_apply, colQ1_apply, colQ3_apply, clipQ_apply, clipQ_apply]; rfl
  · rw [asColQ_apply, addf_apply, mulf_apply, halfQ_apply, colQ0_apply, colQ2_apply, clipQ_apply, clipQ_apply]; rfl
  · rw [asColQ_apply, addf_apply, mulf_apply, halfQ_apply, colQ1_apply, colQ3_apply, clipQ_apply, clipQ_apply]; rfl

/-- The same for the targets. -/
theorem cornersT (a3 : FVec Ideal S1600x4 .f32) (n : Fin 1600) :
    xyxyT (F := Ideal) (clipT a3) (ix2 n 0) = x1 (fun c => a3 (ix2 n c))
    ∧ xyxyT (F := Ideal) (clipT a3) (ix2 n 1) = y1 (fun c => a3 (ix2 n c))
    ∧ xyxyT (F := Ideal) (clipT a3) (ix2 n 2) = x2 (fun c => a3 (ix2 n c))
    ∧ xyxyT (F := Ideal) (clipT a3) (ix2 n 3) = y2 (fun c => a3 (ix2 n c)) := by
  unfold xyxyT
  obtain ⟨h0, h1, h2, h3⟩ := join4_apply _ _ _ _ _ rfl concatenates_S1600x1_S1600x1_S1600x1_S1600x1_S1600x4_d1 n
  refine ⟨h0.trans ?_, h1.trans ?_, h2.trans ?_, h3.trans ?_⟩
  · rw [asColT_apply, subf_apply, mulf_apply, halfT_apply, colT0_apply, colT2_apply, clipT_apply, clipT_apply]; rfl
  · rw [asColT_apply, subf_apply, mulf_apply, halfT_apply, colT1_apply, colT3_apply, clipT_apply, clipT_apply]; rfl
  · rw [asColT_apply, addf_apply, mulf_apply, halfT_apply, colT0_apply, colT2_apply, clipT_apply, clipT_apply]; rfl
  · rw [asColT_apply, addf_apply, mulf_apply, halfT_apply, colT1_apply, colT3_apply, clipT_apply, clipT_apply]; rfl

/-! ## The areas -/

/-- The area of the query box of row `r`. -/
theorem areaQ_apply (B : FVec Ideal S14400x4 .f32) (r : Fin 14400) :
    areaQ (F := Ideal) (xyxyQ (clipQ B)) (ix1 r) = area (fun c => B (ix2 r c)) := by
  obtain ⟨h0, h1, h2, h3⟩ := cornersQ B r
  unfold areaQ area
  rw [mulf_apply, subf_apply, subf_apply, colQ0_apply, colQ1_apply, colQ2_apply, colQ3_apply, h0, h1, h2, h3]

/-- The area of the target box `n`. -/
theorem areaT_apply (a3 : FVec Ideal S1600x4 .f32) (n : Fin 1600) :
    areaT (F := Ideal) (xyxyT (clipT a3)) (ix1 n) = area (fun c => a3 (ix2 n c)) := by
  obtain ⟨h0, h1, h2, h3⟩ := cornersT a3 n
  unfold areaT area
  rw [mulf_apply, subf_apply, subf_apply, colT0_apply, colT1_apply, colT2_apply, colT3_apply, h0, h1, h2, h3]

/-! ## The corner pairs spread over every (query, target) pair -/

/-- The low corner of a query box: entries 0 and 1 of its row. -/
theorem loQ_apply (Y : FVec Ideal S14400x4 .f32) (r : Fin 14400) :
    loQ (F := Ideal) Y (ix2 r 0) = Y (ix2 r 0) ∧ loQ (F := Ideal) Y (ix2 r 1) = Y (ix2 r 1) :=
  ⟨slice2_axis1_apply 0 Y _ r 0 0 rfl, slice2_axis1_apply 0 Y _ r 1 1 rfl⟩

/-- The high corner of a query box: entries 2 and 3 of its row. -/
theorem hiQ_apply (Y : FVec Ideal S14400x4 .f32) (r : Fin 14400) :
    hiQ (F := Ideal) Y (ix2 r 0) = Y (ix2 r 2) ∧ hiQ (F := Ideal) Y (ix2 r 1) = Y (ix2 r 3) :=
  ⟨slice2_axis1_apply 2 Y _ r 0 2 rfl, slice2_axis1_apply 2 Y _ r 1 3 rfl⟩

/-- The low corner of a target box. -/
theorem loT_apply (Y : FVec Ideal S1600x4 .f32) (n : Fin 1600) :
    loT (F := Ideal) Y (ix2 n 0) = Y (ix2 n 0) ∧ loT (F := Ideal) Y (ix2 n 1) = Y (ix2 n 1) :=
  ⟨slice2_axis1_apply 0 Y _ n 0 0 rfl, slice2_axis1_apply 0 Y _ n 1 1 rfl⟩

/-- The high corner of a target box. -/
theorem hiT_apply (Y : FVec Ideal S1600x4 .f32) (n : Fin 1600) :
    hiT (F := Ideal) Y (ix2 n 0) = Y (ix2 n 2) ∧ hiT (F := Ideal) Y (ix2 n 1) = Y (ix2 n 3) :=
  ⟨slice2_axis1_apply 2 Y _ n 0 2 rfl, slice2_axis1_apply 2 Y _ n 1 3 rfl⟩

/-- A query corner repeated for every target reads, at `(r, n, d)`, the corner's entry `d` of row `r`. -/
theorem spreadQ_apply (Z : FVec Ideal S14400x2 .f32) (r : Fin 14400) (n : Fin 1600) (d : Fin 2) :
    spreadQ (F := Ideal) Z (ix3 r n d) = Z (ix2 r d) := by
  unfold spreadQ
  refine (broadcastInDim_apply _ _ _ (ix3 r n d) (ix3 r (0 : Fin 1) d) fun a => ?_).trans
    (broadcastInDim_apply _ _ Z (ix3 r (0 : Fin 1) d) (ix2 r d) fun a => ?_)
  · match a with
    | ⟨0, _⟩ =>
      show r.val = if (14400 : ℕ) = 1 then 0 else r.val
      exact (if_neg (by decide)).symm
    | ⟨1, _⟩ =>
      show (0 : ℕ) = if (1 : ℕ) = 1 then 0 else n.val
      exact (if_pos rfl).symm
    | ⟨2, _⟩ =>
      show d.val = if (2 : ℕ) = 1 then 0 else d.val
      exact (if_neg (by decide)).symm
  · match a with
    | ⟨0, _⟩ =>
      show r.val = if (14400 : ℕ) = 1 then 0 else r.val
      exact (if_neg (by decide)).symm
    | ⟨1, _⟩ =>
      show d.val = if (2 : ℕ) = 1 then 0 else d.val
      exact (if_neg (by decide)).symm

/-- A target corner repeated for every query reads, at `(r, n, d)`, the corner's entry `d` of target `n`. -/
theorem spreadT_apply (Z : FVec Ideal S1600x2 .f32) (r : Fin 14400) (n : Fin 1600) (d : Fin 2) :
    spreadT (F := Ideal) Z (ix3 r n d) = Z (ix2 n d) := by
  unfold spreadT
  refine (broadcastInDim_apply _ _ _ (ix3 r n d) (ix3 (0 : Fin 1) n d) fun a => ?_).trans
    (broadcastInDim_apply _ _ Z (ix3 (0 : Fin 1) n d) (ix2 n d) fun a => ?_)
  · match a with
    | ⟨0, _⟩ =>
      show (0 : ℕ) = if (1 : ℕ) = 1 then 0 else r.val
      exact (if_pos rfl).symm
    | ⟨1, _⟩ =>
      show n.val = if (1600 : ℕ) = 1 then 0 else n.val
      exact (if_neg (by decide)).symm
    | ⟨2, _⟩ =>
      show d.val = if (2 : ℕ) = 1 then 0 else d.val
      exact (if_neg (by decide)).symm
  · match a with
    | ⟨0, _⟩ =>
      show n.val = if (1600 : ℕ) = 1 then 0 else n.val
      exact (if_neg (by decide)).symm
    | ⟨1, _⟩ =>
      show d.val = if (2 : ℕ) = 1 then 0 else d.val
      exact (if_neg (by decide)).symm

/-! ## The sides cut at zero and their product -/

/-- Every side cut at zero: the integer zero converted to a float is the float zero. -/
theorem cutAtZero_apply (D : FVec Ideal S14400x1600x2 .f32) (i : S14400x1600x2.Idx) :
    cutAtZero (F := Ideal) D i = max (D i) (lit 0x00000000#32) := by
  unfold cutAtZero
  rw [maximumf_apply, broadcastInDim_scalar_apply, sitofp_apply, constantI_apply, max_comm]
  show max (D i) ((((0#32 : BitVec 32).toInt : ℝ) : EReal)) = max (D i) (Ideal.ofBits .f32 0x00000000#32)
  rw [Ideal.ofBits_zero_f32]
  simp

/-- Entry `k` of the last axis of an `[a, b, m]` array, cut out as `[a, b, 1]` and cast to a matrix. -/
theorem lastAxis_apply {α : Type} {a b m : ℕ} (o : ℕ) (D : (⟨3, ![a, b, m]⟩ : Shape).Idx → α)
    (hs : (⟨3, ![a, b, m]⟩ : Shape).Slices ![0, 0, o] ⟨3, ![a, b, 1]⟩)
    (hc : (⟨3, ![a, b, 1]⟩ : Shape).ShapeCasts ⟨2, ![a, b]⟩) (r : Fin a) (n : Fin b) (k : Fin m) (hk : k.val = o) :
    shapeCast ⟨2, ![a, b]⟩ (extractStridedSlice ⟨3, ![a, b, 1]⟩ ![0, 0, o] D hs) hc (ix2 r n) = D (ix3 r n k) :=
  (shapeCast_apply _ hc (ix2 r n) (ix3 r n (0 : Fin 1)) (by
    rw [Shape.rowMajor_val_three, Shape.rowMajor_val_two]
    show (r.val * b + n.val) * 1 + 0 = r.val * b + n.val
    omega)).trans (extractStridedSlice_apply _ D hs (ix3 r n (0 : Fin 1)) (ix3 r n k) fun ax => by
      match ax with
      | ⟨0, _⟩ => exact (Nat.zero_add _).symm
      | ⟨1, _⟩ => exact (Nat.zero_add _).symm
      | ⟨2, _⟩ => rw [hk]; rfl)

/-- The product of the x side and the y side of the pair `(r, n)`. -/
theorem sidesProduct_apply (D : FVec Ideal S14400x1600x2 .f32) (r : Fin 14400) (n : Fin 1600) :
    sidesProduct (F := Ideal) D (ix2 r n) = D (ix3 r n 0) * D (ix3 r n 1) := by
  unfold sidesProduct
  rw [mulf_apply, lastAxis_apply 0 D _ _ r n 0 rfl, lastAxis_apply 1 D _ _ r n 1 rfl]

/-! ## Intersection, enclosing box, union -/

/-- The intersection's area of the pair `(r, n)` from the two corner-form arrays. -/
theorem interT_corner (Y : FVec Ideal S14400x4 .f32) (Yt : FVec Ideal S1600x4 .f32) (r : Fin 14400) (n : Fin 1600) :
    interT (F := Ideal) Y Yt (ix2 r n)
      = max (min (Y (ix2 r 2)) (Yt (ix2 n 2)) - max (Y (ix2 r 0)) (Yt (ix2 n 0))) (lit 0x00000000#32)
        * max (min (Y (ix2 r 3)) (Yt (ix2 n 3)) - max (Y (ix2 r 1)) (Yt (ix2 n 1))) (lit 0x00000000#32) := by
  obtain ⟨lq0, lq1⟩ := loQ_apply Y r
  obtain ⟨hq0, hq1⟩ := hiQ_apply Y r
  obtain ⟨lt0, lt1⟩ := loT_apply Yt n
  obtain ⟨ht0, ht1⟩ := hiT_apply Yt n
  unfold interT
  rw [sidesProduct_apply, cutAtZero_apply, cutAtZero_apply, subf_apply, subf_apply, minimumf_apply, minimumf_apply,
    maximumf_apply, maximumf_apply, spreadQ_apply, spreadQ_apply, spreadQ_apply, spreadQ_apply, spreadT_apply, spreadT_apply,
    spreadT_apply, spreadT_apply, lq0, lq1, hq0, hq1, lt0, lt1, ht0, ht1]

/-- The enclosing box's area of the pair `(r, n)` from the two corner-form arrays. -/
theorem enclT_corner (Y : FVec Ideal S14400x4 .f32) (Yt : FVec Ideal S1600x4 .f32) (r : Fin 14400) (n : Fin 1600) :
    enclT (F := Ideal) Y Yt (ix2 r n)
      = max (max (Y (ix2 r 2)) (Yt (ix2 n 2)) - min (Y (ix2 r 0)) (Yt (ix2 n 0))) (lit 0x00000000#32)
        * max (max (Y (ix2 r 3)) (Yt (ix2 n 3)) - min (Y (ix2 r 1)) (Yt (ix2 n 1))) (lit 0x00000000#32) := by
  obtain ⟨lq0, lq1⟩ := loQ_apply Y r
  obtain ⟨hq0, hq1⟩ := hiQ_apply Y r
  obtain ⟨lt0, lt1⟩ := loT_apply Yt n
  obtain ⟨ht0, ht1⟩ := hiT_apply Yt n
  unfold enclT
  rw [sidesProduct_apply, cutAtZero_apply, cutAtZero_apply, subf_apply, subf_apply, minimumf_apply, minimumf_apply,
    maximumf_apply, maximumf_apply, spreadQ_apply, spreadQ_apply, spreadQ_apply, spreadQ_apply, spreadT_apply, spreadT_apply,
    spreadT_apply, spreadT_apply, lq0, lq1, hq0, hq1, lt0, lt1, ht0, ht1]

/-- The intersection's area of the pair is the specification's. -/
theorem interT_apply (B : FVec Ideal S14400x4 .f32) (a3 : FVec Ideal S1600x4 .f32) (r : Fin 14400) (n : Fin 1600) :
    interT (F := Ideal) (xyxyQ (clipQ B)) (xyxyT (clipT a3)) (ix2 r n)
      = inter (fun c => B (ix2 r c)) (fun c => a3 (ix2 n c)) := by
  obtain ⟨q0, q1, q2, q3⟩ := cornersQ B r
  obtain ⟨t0, t1, t2, t3⟩ := cornersT a3 n
  rw [interT_corner, q0, q1, q2, q3, t0, t1, t2, t3]
  rfl

/-- The enclosing box's area of the pair is the specification's. -/
theorem enclT_apply (B : FVec Ideal S14400x4 .f32) (a3 : FVec Ideal S1600x4 .f32) (r : Fin 14400) (n : Fin 1600) :
    enclT (F := Ideal) (xyxyQ (clipQ B)) (xyxyT (clipT a3)) (ix2 r n)
      = encl (fun c => B (ix2 r c)) (fun c => a3 (ix2 n c)) := by
  obtain ⟨q0, q1, q2, q3⟩ := cornersQ B r
  obtain ⟨t0, t1, t2, t3⟩ := cornersT a3 n
  rw [enclT_corner, q0, q1, q2, q3, t0, t1, t2, t3]
  rfl

/-- The union's area of the pair: the query's area plus the target's area minus the intersection. -/
theorem unionT_apply (aq : FVec Ideal S14400 .f32) (at' : FVec Ideal S1600 .f32) (I : FVec Ideal S14400x1600 .f32)
    (r : Fin 14400) (n : Fin 1600) :
    unionT (F := Ideal) aq at' I (ix2 r n) = aq (ix1 r) + at' (ix1 n) - I (ix2 r n) := by
  have e1 : broadcastInDim S14400x1600 ![0, 1] bcast_S14400x1_S14400x1600_0_1 (asColQ (F := Ideal) aq) (ix2 r n) = aq (ix1 r) :=
    (broadcastInDim_apply _ _ _ (ix2 r n) (ix2 r (0 : Fin 1)) fun a => by
      match a with
      | ⟨0, _⟩ =>
        show r.val = if (14400 : ℕ) = 1 then 0 else r.val
        exact (if_neg (by decide)).symm
      | ⟨1, _⟩ =>
        show (0 : ℕ) = if (1 : ℕ) = 1 then 0 else n.val
        exact (if_pos rfl).symm).trans (asColQ_apply aq r 0)
  have e2 : broadcastInDim S14400x1600 ![0, 1] bcast_S1x1600_S14400x1600_0_1
      (broadcastInDim S1x1600 ![1] bcast_S1600_S1x1600_1 at') (ix2 r n) = at' (ix1 n) :=
    (broadcastInDim_apply _ _ _ (ix2 r n) (ix2 (0 : Fin 1) n) fun a => by
      match a with
      | ⟨0, _⟩ =>
        show (0 : ℕ) = if (1 : ℕ) = 1 then 0 else r.val
        exact (if_pos rfl).symm
      | ⟨1, _⟩ =>
        show n.val = if (1600 : ℕ) = 1 then 0 else n.val
        exact (if_neg (by decide)).symm).trans
      (broadcastInDim_apply _ _ at' (ix2 (0 : Fin 1) n) (ix1 n) fun a => by
        match a with
        | ⟨0, _⟩ =>
          show n.val = if (1600 : ℕ) = 1 then 0 else n.val
          exact (if_neg (by decide)).symm)
  unfold unionT
  rw [subf_apply, addf_apply, e1, e2]

/-- Minus the generalized IoU from the three areas, entry by entry. -/
theorem giouNegT_entry (I U E : FVec Ideal S14400x1600 .f32) (i : S14400x1600.Idx) :
    giouNegT (F := Ideal) I U E i = -(Ideal.div (I i) (U i) - Ideal.div (E i - U i) (E i)) := rfl

/-- Minus the generalized IoU the reference computes for query row `r` and target `n` is zero minus the pair's
    generalized IoU of the specification. -/
theorem giouNeg_apply (B : FVec Ideal S14400x4 .f32) (a3 : FVec Ideal S1600x4 .f32) (r : Fin 14400) (n : Fin 1600) :
    giouNegT (F := Ideal) (interT (xyxyQ (clipQ B)) (xyxyT (clipT a3)))
        (unionT (areaQ (xyxyQ (clipQ B))) (areaT (xyxyT (clipT a3))) (interT (xyxyQ (clipQ B)) (xyxyT (clipT a3))))
        (enclT (xyxyQ (clipQ B)) (xyxyT (clipT a3))) (ix2 r n)
      = lit 0x00000000#32 - giou (fun c => B (ix2 r c)) (fun c => a3 (ix2 n c)) := by
  rw [giouNegT_entry, unionT_apply, areaQ_apply, areaT_apply, interT_apply, enclT_apply]
  show _ = Ideal.ofBits .f32 0x00000000#32 - giou (fun c => B (ix2 r c)) (fun c => a3 (ix2 n c))
  rw [Ideal.ofBits_zero_f32, zero_sub]
  rfl

end Cert.RefValue

end
-- ==== Proof.RefValue.lean ====
/-
  The reference's result is the cost array of the specification, when every class id is one of the 91 classes.
-/
import proofs.«428247_j86973087744537_1_alg».proof.Proof.RefClassL1
import proofs.«428247_j86973087744537_1_alg».proof.Proof.RefBoxes

noncomputable section

namespace Cert.RefValue

open Idealize.ShloMosaic Idealize.ShloMosaic.ValueIdx Cert.ReferenceIdeal Cert.RefStages Cert.MatchCost

open Cert.ReferenceIdeal.Facts₀ Cert.ReferenceIdeal.Facts

/-! ## The pointwise stages -/

/-- On the extended reals nothing is unordered: "differs, or unordered" is the same test as "differs". -/
theorem cmp_une_eq_one (x y : EReal) : Ideal.cmp .une x y = Ideal.cmp .one x y := rfl

/-- A literal on every (batch, query, target) entry reads the literal. -/
theorem splatOut_apply (w : BitVec 32) (i : S16x900x1600.Idx) : splatOut (F := Ideal) w i = lit w := by
  unfold splatOut
  rw [broadcastInDim_scalar_apply, constant_apply]

/-- A literal on every (query, target) pair reads the literal. -/
theorem splatQT_apply (w : BitVec 32) (i : S14400x1600.Idx) : splatQT (F := Ideal) w i = lit w := by
  unfold splatQT
  rw [broadcastInDim_scalar_apply, constant_apply]

/-- The replacement of the non-finite outcomes acts entry by entry. -/
theorem nanToNumT_apply (X : FVec Ideal S16x900x1600 .f32) (i : S16x900x1600.Idx) :
    nanToNumT (F := Ideal) X i = nan2num (X i) := by
  unfold nanToNumT nan2num
  simp only [select_apply, cmpf_apply, splatOut_apply]
  rfl

/-- The weighted total acts entry by entry. -/
theorem totalT_apply (C L Gn : FVec Ideal S14400x1600 .f32) (i : S14400x1600.Idx) :
    totalT (F := Ideal) C L Gn i
      = (lit 0x3F800000#32 * C i + lit 0x40A00000#32 * L i) + lit 0x40000000#32 * Gn i := by
  unfold totalT
  rw [addf_apply, addf_apply, mulf_apply, mulf_apply, mulf_apply, splatQT_apply, splatQT_apply, splatQT_apply]

/-! ## The flattening of batch and query into one row axis -/

/-- The flat row of query `q` of batch `b`. -/
def flatRow (b : Fin 16) (q : Fin 900) : Fin 14400 := ⟨b.val * 900 + q.val, by omega⟩

/-- The flattened logits at the flat row are the logits at (b, q). -/
theorem flatLogits_apply (a0 : FVec Ideal S16x900x91 .f32) (b : Fin 16) (q : Fin 900) (k : Fin 91) :
    flatLogits (F := Ideal) a0 (ix2 (flatRow b q) k) = a0 (ix3 b q k) := by
  unfold flatLogits
  exact shapeCast_apply a0 _ (ix2 (flatRow b q) k) (ix3 b q k) (by
    rw [Shape.rowMajor_val_three, Shape.rowMajor_val_two]
    rfl)

/-- The flattened boxes at the flat row are the boxes at (b, q). -/
theorem flatBoxes_apply (a1 : FVec Ideal S16x900x4 .f32) (b : Fin 16) (q : Fin 900) (c : Fin 4) :
    flatBoxes (F := Ideal) a1 (ix2 (flatRow b q) c) = a1 (ix3 b q c) := by
  unfold flatBoxes
  exact shapeCast_apply a1 _ (ix2 (flatRow b q) c) (ix3 b q c) (by
    rw [Shape.rowMajor_val_three, Shape.rowMajor_val_two]
    rfl)

/-- The [14400, 1600] total reshaped to [16, 900, 1600] reads, at (b, q, n), the total at the flat row and n. -/
theorem unflatten_apply (T : FVec Ideal S14400x1600 .f32) (b : Fin 16) (q : Fin 900) (n : Fin 1600) :
    shapeCast S16x900x1600 T shapeCasts_S14400x1600_S16x900x1600 (ix3 b q n) = T (ix2 (flatRow b q) n) :=
  shapeCast_apply T _ (ix3 b q n) (ix2 (flatRow b q) n) (by
    rw [Shape.rowMajor_val_three, Shape.rowMajor_val_two]
    rfl)

/-! ## The composition -/

/-- The reference's result at batch b, query q, target n is the specification's cost of that pair. -/
theorem refTerm_apply (a0 : FVec Ideal S16x900x91 .f32) (a1 : FVec Ideal S16x900x4 .f32) (a2 : IVec S1600 32)
    (a3 : FVec Ideal S1600x4 .f32) (h : IdsInRange a2) (b : Fin 16) (q : Fin 900) (n : Fin 1600) :
    refTerm (F := Ideal) a0 a1 a2 a3 (ix3 b q n)
      = cost (fun k => a0 (ix3 b q k)) (onehot (a2 (ix1 n))) (fun c => a1 (ix3 b q c)) (fun c => a3 (ix2 n c)) := by
  have hL : (fun k => flatLogits (F := Ideal) a0 (ix2 (flatRow b q) k)) = fun k => a0 (ix3 b q k) :=
    funext fun k => flatLogits_apply a0 b q k
  have hB : (fun c => flatBoxes (F := Ideal) a1 (ix2 (flatRow b q) c)) = fun c => a1 (ix3 b q c) :=
    funext fun c => flatBoxes_apply a1 b q c
  simp only [refTerm]
  rw [nanToNumT_apply, unflatten_apply, totalT_apply, class_apply _ a2 h, l1_apply, giouNeg_apply, hL, hB]
  rfl

/-- Index by index the reference's stages compose to the specification's pair cost. -/
theorem refTerm_eq_G (a0 : FVec Ideal S16x900x91 .f32) (a1 : FVec Ideal S16x900x4 .f32) (a2 : IVec S1600 32)
    (a3 : FVec Ideal S1600x4 .f32) (h : IdsInRange a2) :
    refTerm (F := Ideal) a0 a1 a2 a3 = G a0 a1 a2 a3 := by
  funext j
  exact (congrArg (refTerm (F := Ideal) a0 a1 a2 a3) (eq_ix3 j)).trans (refTerm_apply a0 a1 a2 a3 h (j 0) (j 1) (j 2))

end Cert.RefValue

end
-- ==== Proof.PreDecode.lean ====
/-
  The precondition's two conjuncts on the class ids, read back: "every id is at least 0" and "every id is below 91",
  each printed as a comparison reduced by "and" over all 1600 targets, say that every id, read as a signed word, lies
  in 0 .. 90, so as an unsigned number it is below 91.
-/
import proofs.«428247_j86973087744537_1_alg».proof.Pre_finite_inputs
import proofs.«428247_j86973087744537_1_alg».proof.Proof.Gen.Pre_finite_inputs
import proofs.«428247_j86973087744537_1_alg».proof.Proof.Spec
import Idealize.ShloMosaic.Lib.ReduceAll
import Idealize.ShloMosaic.Lib.IdealHost
import Idealize.ShloMosaic.Lib.ValueIdx
import Idealize.ShloMosaic.Lib.ValueLayout

noncomputable section

namespace Cert.PreDecode

open Idealize.ShloMosaic Idealize.ShloMosaic.ValueIdx Cert.Pre_finite_inputs Cert.Pre_finite_inputs.Gen

variable {F : FTy → Type} [FloatOps F]

instance : Subsingleton S_.Idx := ⟨fun a b => funext fun d => d.elim0⟩

/-- A signed word that is at least 0 and below 91 is, as an unsigned number, below 91. -/
theorem toNat_lt_of_signed (x : BitVec 32) (h0 : IntOp.cmpi .sge x 0#32 = 1#1) (h1 : IntOp.cmpi .slt x 91#32 = 1#1) :
    x.toNat < 91 := by
  have h0' : BitVec.ofBool ((0#32 : BitVec 32).sle x) = 1#1 := h0
  have h1' : BitVec.ofBool (x.slt 91#32) = 1#1 := h1
  have ofBool_one : ∀ b : Bool, BitVec.ofBool b = 1#1 → b = true := by decide
  have b0 := ofBool_one _ h0'
  have b1 := ofBool_one _ h1'
  rw [BitVec.sle, decide_eq_true_eq] at b0
  rw [BitVec.slt, decide_eq_true_eq] at b1
  have e0 : (0#32 : BitVec 32).toInt = 0 := by decide
  have e1 : (91#32 : BitVec 32).toInt = 91 := by decide
  rw [e0] at b0
  rw [e1] at b1
  have hc := BitVec.toInt_eq_toNat_cond x
  have hlt := x.isLt
  by_cases hh : 2 * x.toNat < 2 ^ 32
  · rw [if_pos hh] at hc; omega
  · rw [if_neg hh] at hc; omega

/-- Under the precondition every class id is one of the 91 classes. -/
theorem ids_in_range (a0 : FVec F S16x900x91 .f32) (a1 : FVec F S16x900x4 .f32) (a2 : IVec S1600 32) (a3 : FVec F S1600x4 .f32)
    (h : fn (F := F) a0 a1 a2 a3 = fun _ => 1#1) : Cert.MatchCost.IdsInRange a2 := by
  intro n
  have h0 := congrFun h ix0
  dsimp only [fn, fn_part1] at h0
  obtain ⟨h17, h20⟩ := IntOp.andi_eq_one.1 h0
  obtain ⟨-, h16⟩ := IntOp.andi_eq_one.1 h17
  have ge := Host.reduce_andi_all _ _ _ _ ix0 h16 (ix1 n)
  have lt := Host.reduce_andi_all _ _ _ _ ix0 h20 (ix1 n)
  exact toNat_lt_of_signed (a2 (ix1 n)) ge lt

end Cert.PreDecode

end
-- ==== Proof.lean ====
/-
  The certificate: a matching-cost kernel (class cost by a one-hot matrix product, L1 box cost, generalized IoU cost,
  non-finite outcomes replaced) against its jnp reference, equal over the extended reals when every target class id
  is one of the 91 classes.

  Both programs end with the cost array of the specification (Proof/Spec.lean): entry (batch, query, target) is the
  pair cost of that query's logits and box and that target's class id and box. The kernel reaches it block by block
  (Proof/KernelPayload.lean: what the body stores at an entry; Proof/KernelArray.lean: the blocks cover the array, the
  reshapes before and after the region only rename indices). The reference is a straight line of host operations
  (Proof/RefRun.lean) whose staged value (Proof/RefTerm.lean) is read index by index (Proof/RefClassL1.lean,
  Proof/RefBoxes.lean, Proof/RefValue.lean). The two differ only by the order of a sum, by max(a, b) against
  max(b, a), by 0 - p against -p, and by the class probability being gathered in the one and summed against the class
  indicator in the other: the last is where the range of the ids is used (Proof/PreDecode.lean reads it out of the
  precondition). The frames of the two kernel programs are the generated ones; the reference's is its run with the
  result dropped. The idealization rewrote nothing, so there is nothing to preserve.
-/
import proofs.«428247_j86973087744537_1_alg».proof.Defs
import proofs.«428247_j86973087744537_1_alg».proof.Proof.Gen.Kernel
import proofs.«428247_j86973087744537_1_alg».proof.Proof.Gen.Kernel.Frame
import proofs.«428247_j86973087744537_1_alg».proof.Proof.Gen.KernelIdeal
import proofs.«428247_j86973087744537_1_alg».proof.Proof.Gen.KernelIdeal.Frame
import proofs.«428247_j86973087744537_1_alg».proof.Proof.Gen.ReferenceIdeal
import proofs.«428247_j86973087744537_1_alg».proof.Proof.Gen.Pre_finite_inputs
import proofs.«428247_j86973087744537_1_alg».proof.Proof.KernelArray
import proofs.«428247_j86973087744537_1_alg».proof.Proof.RefRun
import proofs.«428247_j86973087744537_1_alg».proof.Proof.RefValue
import proofs.«428247_j86973087744537_1_alg».proof.Proof.PreDecode
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result's conjunct dropped. -/
theorem frame_ri : Cert.frame_ReferenceIdeal := fun m ρ _ =>
  (θ_run Cert.ReferenceIdeal.defs _ _).mono (fun _ h c => (h c).2) (Cert.RefRun.run (F := Ideal) m ρ)

/-- Both runs end at the specification's cost array of arguments that agree; on the reference's side the ids' range
    comes from the precondition on the kernel's memory through the agreement of the id arrays. -/
theorem algebraic : Cert.algebraic_KernelIdeal_ReferenceIdeal := by
  intro m ρ m' ρ' hpre hagree
  refine ⟨_, Cert.KernelValue.run m ρ, ?_⟩
  refine (θ_run Cert.ReferenceIdeal.defs _ _).mono (fun _ h c => ⟨(h c).1.trans ?_, (h c).2⟩)
    (Cert.RefRun.run (F := Ideal) m' ρ')
  have hids : Cert.MatchCost.IdsInRange (m' ((c.tc : Thread Cert.ReferenceIdeal.nD Cert.ReferenceIdeal.τ).loc Cert.ReferenceIdeal.main_arg2)) := by
    rw [(hagree c).2.2.1]
    exact Cert.PreDecode.ids_in_range (F := Ideal) _ _ _ _ (hpre c)
  rw [Cert.RefValue.refTerm_eq_G _ _ _ _ hids, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
